-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v50) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x4096 : Shape := ⟨2, ![4096, 4096]⟩
abbrev S4096x512 : Shape := ⟨2, ![4096, 512]⟩
abbrev S4096x4 : Shape := ⟨2, ![4096, 4]⟩
abbrev S4096x32 : Shape := ⟨2, ![4096, 32]⟩
abbrev S4096 : Shape := ⟨1, ![4096]⟩
abbrev S_ : Shape := ⟨0, ![]⟩

class Facts : Prop where
  bcast_S_S4096x4096 : S_.BroadcastsInDim S4096x4096 (![] : Fin 0 → Fin S4096x4096.rank)
  reducesTo_S4096x4096_S_d0_1 : S4096x4096.ReducesTo [0, 1] S_
  h_S_ : 0 < S_.numel
  bcast_S_S4096x32 : S_.BroadcastsInDim S4096x32 (![] : Fin 0 → Fin S4096x32.rank)
  reducesTo_S4096x32_S_d0_1 : S4096x32.ReducesTo [0, 1] S_
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S4096x4096 .f32) (main_arg1 : IVec S4096x512 32) (main_arg2 : IVec S4096x4 32) (main_arg3 : FVec F S4096x32 .f32) (main_arg4 : FVec F S4096 .f32) : IVec S_ 1 :=
  let main_v0 : FVec F S4096x4096 .f32 := Host.absf main_arg0
  let main_cst : FVec F S_ .f32 := constant S_ .f32 0x7F800000#32
  let main_v1 : FVec F S4096x4096 .f32 := broadcastInDim S4096x4096 ![] bcast_S_S4096x4096 main_cst
  let main_v2 : IVec S4096x4096 1 := cmpf .olt main_v0 main_v1
  let main_c : IVec S_ 1 := constantI S_ 1 1#1
  let main_v3 : IVec S_ 1 := (fun x v => Host.reduce IntOp.andi x v reducesTo_S4096x4096_S_d0_1 h_S_) main_v2 main_c
  let main_v4 : FVec F S4096x32 .f32 := Host.absf main_arg3
  let main_cst_0 : FVec F S_ .f32 := constant S_ .f32 0x7F800000#32
  let main_v5 : FVec F S4096x32 .f32 := broadcastInDim S4096x32 ![] bcast_S_S4096x32 main_cst_0
  let main_v6 : IVec S4096x32 1 := cmpf .olt main_v4 main_v5
  let main_c_1 : IVec S_ 1 := constantI S_ 1 1#1
  let main_v7 : IVec S_ 1 := (fun x v => Host.reduce IntOp.andi x v reducesTo_S4096x32_S_d0_1 h_S_) main_v6 main_c_1
  let main_v8 : IVec S_ 1 := andi main_v3 main_v7
  let main_v9 : FVec F S4096 .f32 := Host.absf main_arg4
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S4096x4096 : Shape := ⟨2, ![4096, 4096]⟩
abbrev S4096x512 : Shape := ⟨2, ![4096, 512]⟩
abbrev S4096x4 : Shape := ⟨2, ![4096, 4]⟩
abbrev S4096x32 : Shape := ⟨2, ![4096, 32]⟩
abbrev S4096 : Shape := ⟨1, ![4096]⟩
abbrev S256x512 : Shape := ⟨2, ![256, 512]⟩
abbrev S256x4 : Shape := ⟨2, ![256, 4]⟩
abbrev S256x32 : Shape := ⟨2, ![256, 32]⟩
abbrev S256x4096 : Shape := ⟨2, ![256, 4096]⟩
abbrev S1x1x8 : Shape := ⟨3, ![1, 1, 8]⟩
abbrev S256x128 : Shape := ⟨2, ![256, 128]⟩
abbrev S256x128x1 : Shape := ⟨3, ![256, 128, 1]⟩
abbrev S256x128x8 : Shape := ⟨3, ![256, 128, 8]⟩
abbrev S256x1024 : Shape := ⟨2, ![256, 1024]⟩
abbrev S256x1 : Shape := ⟨2, ![256, 1]⟩
abbrev S256x1x1 : Shape := ⟨3, ![256, 1, 1]⟩
abbrev S256x1x8 : Shape := ⟨3, ![256, 1, 8]⟩
abbrev S256x8 : Shape := ⟨2, ![256, 8]⟩
abbrev S256x8x1 : Shape := ⟨3, ![256, 8, 1]⟩
abbrev S256x8x128 : Shape := ⟨3, ![256, 8, 128]⟩
abbrev S1x4096 : Shape := ⟨2, ![1, 4096]⟩
abbrev S1024x1024 : Shape := ⟨2, ![1024, 1024]⟩
abbrev S1x1024 : Shape := ⟨2, ![1, 1024]⟩

abbrev nBuf : Space → Nat
  | .hbm => 9
  | .vmem => 17
  | .smem => 0
  | _ => 0

abbrev bufTy : (tb : Table) → Fin (tcTables nBuf tb) → BufTy
  | .hbm, ⟨0, _⟩ => ⟨S4096x4096, .f32⟩
  | .hbm, ⟨1, _⟩ => ⟨S4096x512, .i32⟩
  | .hbm, ⟨2, _⟩ => ⟨S4096x4, .i32⟩
  | .hbm, ⟨3, _⟩ => ⟨S4096x32, .f32⟩
  | .hbm, ⟨4, _⟩ => ⟨S4096, .f32⟩
  | .hbm, ⟨5, _⟩ => ⟨S4096x4096, .bf16⟩
  | .hbm, ⟨6, _⟩ => ⟨S4096x4096, .bf16⟩
  | .hbm, ⟨7, _⟩ => ⟨S1x4096, .f32⟩
  | .hbm, ⟨8, _⟩ => ⟨S4096x4096, .f32⟩
  | .local _ .vmem, ⟨0, _⟩ => ⟨S256x512, .i32⟩
  | .local _ .vmem, ⟨1, _⟩ => ⟨S256x512, .i32⟩
  | .local _ .vmem, ⟨2, _⟩ => ⟨S256x4, .i32⟩
  | .local _ .vmem, ⟨3, _⟩ => ⟨S256x4, .i32⟩
  | .local _ .vmem, ⟨4, _⟩ => ⟨S256x32, .f32⟩
  | .local _ .vmem, ⟨5, _⟩ => ⟨S256x32, .f32⟩
  | .local _ .vmem, ⟨6, _⟩ => ⟨S256x4096, .bf16⟩
  | .local _ .vmem, ⟨7, _⟩ => ⟨S256x4096, .bf16⟩
  | .local _ .vmem, ⟨8, _⟩ => ⟨S1024x1024, .bf16⟩
  | .local _ .vmem, ⟨9, _⟩ => ⟨S1024x1024, .bf16⟩
  | .local _ .vmem, ⟨10, _⟩ => ⟨S1024x1024, .bf16⟩
  | .local _ .vmem, ⟨11, _⟩ => ⟨S1024x1024, .bf16⟩
  | .local _ .vmem, ⟨12, _⟩ => ⟨S1x1024, .f32⟩
  | .local _ .vmem, ⟨13, _⟩ => ⟨S1x1024, .f32⟩
  | .local _ .vmem, ⟨14, _⟩ => ⟨S1024x1024, .f32⟩
  | .local _ .vmem, ⟨15, _⟩ => ⟨S1024x1024, .f32⟩
  | .local _ .vmem, ⟨16, _⟩ => ⟨S1024x1024, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc1_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨3, ![4, 4, 4], ![false, false, false]⟩

def k1_cond2 (i : grid1.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S1024x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S1024x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true, false]

abbrev stage1_3 : Fin 2 → Memref sig .tc .vmem S1024x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]

class Facts₀ : Prop where
  iota_S1x1x8_d2_w32 : S1x1x8.Iotas .tc 32 [2]
  inb_S256x512_S256x128_0_0 : ∀ a, (![0, 0] : Fin 2 → Nat) a + S256x128.size a ≤ S256x512.size a
  h_S256x128 : 0 < S256x128.numel
  shapeCasts_S256x128_S256x128x1 : S256x128.ShapeCasts S256x128x1
  broadcasts_S256x128x1_S256x128x8 : S256x128x1.Broadcasts S256x128x8
  broadcasts_S1x1x8_S256x128x8 : S1x1x8.Broadcasts S256x128x8
  shapeCasts_S256x128x8_S256x1024 : S256x128x8.ShapeCasts S256x1024
  inb_S256x4_S256x1_0_0 : ∀ a, (![0, 0] : Fin 2 → Nat) a + S256x1.size a ≤ S256x4.size a
  h_S256x1 : 0 < S256x1.numel
  shapeCasts_S256x1_S256x1x1 : S256x1.ShapeCasts S256x1x1
  broadcasts_S256x1x1_S256x1x8 : S256x1x1.Broadcasts S256x1x8
  broadcasts_S1x1x8_S256x1x8 : S1x1x8.Broadcasts S256x1x8
  shapeCasts_S256x1x8_S256x8 : S256x1x8.ShapeCasts S256x8
  inb_S256x32_S256x8_0_0 : ∀ a, (![0, 0] : Fin 2 → Nat) a + S256x8.size a ≤ S256x32.size a
  h_S256x8 : 0 < S256x8.numel
  shapeCasts_S256x8_S256x8x1 : S256x8.ShapeCasts S256x8x1
  shapeCasts_S256x8x1_S256x8x1 : S256x8x1.ShapeCasts S256x8x1
  broadcasts_S256x8x1_S256x8x128 : S256x8x1.Broadcasts S256x8x128
  shapeCasts_S256x8x128_S256x1024 : S256x8x128.ShapeCasts S256x1024
  bitsLt_bf16_f32 : FTy.bits .bf16 < FTy.bits .f32
  inb_S256x4096_S256x1024_0_0 : ∀ a, (![0, 0] : Fin 2 → Nat) a + S256x1024.size a ≤ S256x4096.size a
  h_S256x1024 : 0 < S256x1024.numel
  packedbf16_S256x4096_S256x1024_0_0 : (Rect.unit (s := S256x4096) ![0, 0] S256x1024.size inb_S256x4096_S256x1024_0_0).PackedRows (EltTy.packing .bf16)
  inb_S256x512_S256x128_0_128 : ∀ a, (![0, 128] : Fin 2 → Nat) a + S256x128.size a ≤ S256x512.size a
  inb_S256x4_S256x1_0_1 : ∀ a, (![0, 1] : Fin 2 → Nat) a + S256x1.size a ≤ S256x4.size a
  inb_S256x32_S256x8_0_8 : ∀ a, (![0, 8] : Fin 2 → Nat) a + S256x8.size a ≤ S256x32.size a
  inb_S256x4096_S256x1024_0_1024 : ∀ a, (![0, 1024] : Fin 2 → Nat) a + S256x1024.size a ≤ S256x4096.size a
  packedbf16_S256x4096_S256x1024_0_1024 : (Rect.unit (s := S256x4096) ![0, 1024] S256x1024.size inb_S256x4096_S256x1024_0_1024).PackedRows (EltTy.packing .bf16)
  inb_S256x512_S256x128_0_256 : ∀ a, (![0, 256] : Fin 2 → Nat) a + S256x128.size a ≤ S256x512.size a
  inb_S256x4_S256x1_0_2 : ∀ a, (![0, 2] : Fin 2 → Nat) a + S256x1.size a ≤ S256x4.size a
  inb_S256x32_S256x8_0_16 : ∀ a, (![0, 16] : Fin 2 → Nat) a + S256x8.size a ≤ S256x32.size a
  inb_S256x4096_S256x1024_0_2048 : ∀ a, (![0, 2048] : Fin 2 → Nat) a + S256x1024.size a ≤ S256x4096.size a
  packedbf16_S256x4096_S256x1024_0_2048 : (Rect.unit (s := S256x4096) ![0, 2048] S256x1024.size inb_S256x4096_S256x1024_0_2048).PackedRows (EltTy.packing .bf16)
  inb_S256x512_S256x128_0_384 : ∀ a, (![0, 384] : Fin 2 → Nat) a + S256x128.size a ≤ S256x512.size a
  inb_S256x4_S256x1_0_3 : ∀ a, (![0, 3] : Fin 2 → Nat) a + S256x1.size a ≤ S256x4.size a
  inb_S256x32_S256x8_0_24 : ∀ a, (![0, 24] : Fin 2 → Nat) a + S256x8.size a ≤ S256x32.size a
  inb_S256x4096_S256x1024_0_3072 : ∀ a, (![0, 3072] : Fin 2 → Nat) a + S256x1024.size a ≤ S256x4096.size a
  packedbf16_S256x4096_S256x1024_0_3072 : (Rect.unit (s := S256x4096) ![0, 3072] S256x1024.size inb_S256x4096_S256x1024_0_3072).PackedRows (EltTy.packing .bf16)
  shapeCasts_S4096_S1x4096 : S4096.ShapeCasts S1x4096
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  dot_S1024x1024_S1024x1024_S1024x1024_1_1_0_0_n_n_wf : DotDims.WF S1024x1024 S1024x1024 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x512.size a ≤ S4096x512.size a
  hwx0_0 : ∀ i : grid0.Coords, EltTy.bits .i32 = 32 ∨ (Rect.block (s := S4096x512) S256x512.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x4.size a ≤ S4096x4.size a
  hwx0_1 : ∀ i : grid0.Coords, EltTy.bits .i32 = 32 ∨ (Rect.block (s := S4096x4) S256x4.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x32.size a ≤ S4096x32.size a
  hwx0_2 : ∀ i : grid0.Coords, EltTy.bits .f32 = 32 ∨ (Rect.block (s := S4096x32) S256x32.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x4096.size a ≤ S4096x4096.size a
  hwx0_3 : ∀ i : grid0.Coords, EltTy.bits .bf16 = 32 ∨ (Rect.block (s := S4096x4096) S256x4096.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x1024.size a ≤ S4096x4096.size a
  hwx1_0 : ∀ i : grid1.Coords, EltTy.bits .bf16 = 32 ∨ (Rect.block (s := S4096x4096) S1024x1024.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x1024.size a ≤ S4096x4096.size a
  hwx1_1 : ∀ i : grid1.Coords, EltTy.bits .bf16 = 32 ∨ (Rect.block (s := S4096x4096) S1024x1024.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1024.size a ≤ S1x4096.size a
  hwx1_2 : ∀ i : grid1.Coords, EltTy.bits .f32 = 32 ∨ (Rect.block (s := S1x4096) S1x1024.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x1024.size a ≤ S4096x4096.size a
  hwx1_3 : ∀ i : grid1.Coords, EltTy.bits .f32 = 32 ∨ (Rect.block (s := S4096x4096) S1024x1024.size (cc1_transform_3 i) (hinb1_3 i)).WholeWords (EltTy.packing .f32)

variable [Facts₀]

def dot_S1024x1024_S1024x1024_S1024x1024_1_1_0_0_n_n : DotDims S1024x1024 S1024x1024 S1024x1024 where
  lhsContracting := [1]
  rhsContracting := [1]
  lhsNonContracting := [0]
  rhsNonContracting := [0]
  lhsBatch := []
  rhsBatch := []
  wf := dot_S1024x1024_S1024x1024_S1024x1024_1_1_0_0_n_n_wf

abbrev win0_0 : Pipeline.Window sig grid0 :=
  Pipeline.Window.ofSpec (Memref.whole main_arg1) S256x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x4.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S256x32.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S256x4096.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v1) S1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S1024x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v2) S1x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v3) S1024x1024.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

class Facts : Prop extends Facts₀ where

variable [Facts]
-- ==== ReferenceIdeal.lean ====
abbrev S4096x4096 : Shape := ⟨2, ![4096, 4096]⟩
abbrev S4096x512 : Shape := ⟨2, ![4096, 512]⟩
abbrev S4096x4 : Shape := ⟨2, ![4096, 4]⟩
abbrev S4096x32 : Shape := ⟨2, ![4096, 32]⟩
abbrev S4096 : Shape := ⟨1, ![4096]⟩
abbrev S8 : Shape := ⟨1, ![8]⟩
abbrev S_ : Shape := ⟨0, ![]⟩
abbrev S4096x512x1 : Shape := ⟨3, ![4096, 512, 1]⟩
abbrev S1x1x8 : Shape := ⟨3, ![1, 1, 8]⟩
abbrev S4096x512x8 : Shape := ⟨3, ![4096, 512, 8]⟩
abbrev S4096x4x1 : Shape := ⟨3, ![4096, 4, 1]⟩
abbrev S4096x4x8 : Shape := ⟨3, ![4096, 4, 8]⟩
abbrev S4096x1 : Shape := ⟨2, ![4096, 1]⟩
abbrev S1x4096 : Shape := ⟨2, ![1, 4096]⟩

abbrev nBuf : Space → Nat
  | .hbm => 83
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x512, .i32⟩
  | .hbm, ⟨2, _⟩ => ⟨S4096x4, .i32⟩
  | .hbm, ⟨3, _⟩ => ⟨S4096x32, .f32⟩
  | .hbm, ⟨4, _⟩ => ⟨S4096, .f32⟩
  | .hbm, ⟨5, _⟩ => ⟨S8, .i32⟩
  | .hbm, ⟨6, _⟩ => ⟨S_, .i32⟩
  | .hbm, ⟨7, _⟩ => ⟨S8, .i32⟩
  | .hbm, ⟨8, _⟩ => ⟨S8, .i32⟩
  | .hbm, ⟨9, _⟩ => ⟨S_, .i32⟩
  | .hbm, ⟨10, _⟩ => ⟨S8, .i32⟩
  | .hbm, ⟨11, _⟩ => ⟨S8, .i32⟩
  | .hbm, ⟨12, _⟩ => ⟨S4096x512x1, .i32⟩
  | .hbm, ⟨13, _⟩ => ⟨S1x1x8, .i32⟩
  | .hbm, ⟨14, _⟩ => ⟨S4096x512x8, .i32⟩
  | .hbm, ⟨15, _⟩ => ⟨S4096x512x8, .i32⟩
  | .hbm, ⟨16, _⟩ => ⟨S4096x512x8, .i32⟩
  | .hbm, ⟨17, _⟩ => ⟨S_, .i32⟩
  | .hbm, ⟨18, _⟩ => ⟨S4096x512x8, .i32⟩
  | .hbm, ⟨19, _⟩ => ⟨S4096x512x8, .i32⟩
  | .hbm, ⟨20, _⟩ => ⟨S4096x4096, .i32⟩
  | .hbm, ⟨21, _⟩ => ⟨S4096x4096, .f32⟩
  | .hbm, ⟨22, _⟩ => ⟨S8, .i32⟩
  | .hbm, ⟨23, _⟩ => ⟨S_, .i32⟩
  | .hbm, ⟨24, _⟩ => ⟨S8, .i32⟩
  | .hbm, ⟨25, _⟩ => ⟨S8, .i32⟩
  | .hbm, ⟨26, _⟩ => ⟨S_, .i32⟩
  | .hbm, ⟨27, _⟩ => ⟨S8, .i32⟩
  | .hbm, ⟨28, _⟩ => ⟨S8, .i32⟩
  | .hbm, ⟨29, _⟩ => ⟨S4096x4x1, .i32⟩
  | .hbm, ⟨30, _⟩ => ⟨S1x1x8, .i32⟩
  | .hbm, ⟨31, _⟩ => ⟨S4096x4x8, .i32⟩
  | .hbm, ⟨32, _⟩ => ⟨S4096x4x8, .i32⟩
  | .hbm, ⟨33, _⟩ => ⟨S4096x4x8, .i32⟩
  | .hbm, ⟨34, _⟩ => ⟨S_, .i32⟩
  | .hbm, ⟨35, _⟩ => ⟨S4096x4x8, .i32⟩
  | .hbm, ⟨36, _⟩ => ⟨S4096x4x8, .i32⟩
  | .hbm, ⟨37, _⟩ => ⟨S4096x32, .i32⟩
  | .hbm, ⟨38, _⟩ => ⟨S4096x32, .f32⟩
  | .hbm, ⟨39, _⟩ => ⟨S4096, .i32⟩
  | .hbm, ⟨40, _⟩ => ⟨S_, .i32⟩
  | .hbm, ⟨41, _⟩ => ⟨S_, .i32⟩
  | .hbm, ⟨42, _⟩ => ⟨S4096, .i32⟩
  | .hbm, ⟨43, _⟩ => ⟨S4096, .i32⟩
  | .hbm, ⟨44, _⟩ => ⟨S4096, .i32⟩
  | .hbm, ⟨45, _⟩ => ⟨S_, .i32⟩
  | .hbm, ⟨46, _⟩ => ⟨S4096, .i32⟩
  | .hbm, ⟨47, _⟩ => ⟨S4096, .i1⟩
  | .hbm, ⟨48, _⟩ => ⟨S4096, .i32⟩
  | .hbm, ⟨49, _⟩ => ⟨S4096, .i32⟩
  | .hbm, ⟨50, _⟩ => ⟨S_, .i32⟩
  | .hbm, ⟨51, _⟩ => ⟨S4096, .i32⟩
  | .hbm, ⟨52, _⟩ => ⟨S4096, .i1⟩
  | .hbm, ⟨53, _⟩ => ⟨S4096, .i1⟩
  | .hbm, ⟨54, _⟩ => ⟨S_, .i32⟩
  | .hbm, ⟨55, _⟩ => ⟨S4096, .i32⟩
  | .hbm, ⟨56, _⟩ => ⟨S4096, .i32⟩
  | .hbm, ⟨57, _⟩ => ⟨S4096, .i32⟩
  | .hbm, ⟨58, _⟩ => ⟨S_, .i32⟩
  | .hbm, ⟨59, _⟩ => ⟨S4096, .i32⟩
  | .hbm, ⟨60, _⟩ => ⟨S4096, .i1⟩
  | .hbm, ⟨61, _⟩ => ⟨S_, .i32⟩
  | .hbm, ⟨62, _⟩ => ⟨S4096, .i32⟩
  | .hbm, ⟨63, _⟩ => ⟨S4096, .i32⟩
  | .hbm, ⟨64, _⟩ => ⟨S4096, .i32⟩
  | .hbm, ⟨65, _⟩ => ⟨S4096x1, .i32⟩
  | .hbm, ⟨66, _⟩ => ⟨S4096x4096, .f32⟩
  | .hbm, ⟨67, _⟩ => ⟨S4096x4096, .f32⟩
  | .hbm, ⟨68, _⟩ => ⟨S_, .i32⟩
  | .hbm, ⟨69, _⟩ => ⟨S4096, .i32⟩
  | .hbm, ⟨70, _⟩ => ⟨S4096, .i1⟩
  | .hbm, ⟨71, _⟩ => ⟨S_, .i32⟩
  | .hbm, ⟨72, _⟩ => ⟨S4096, .i32⟩
  | .hbm, ⟨73, _⟩ => ⟨S4096, .i32⟩
  | .hbm, ⟨74, _⟩ => ⟨S4096, .i32⟩
  | .hbm, ⟨75, _⟩ => ⟨S4096x1, .i32⟩
  | .hbm, ⟨76, _⟩ => ⟨S4096x4096, .f32⟩
  | .hbm, ⟨77, _⟩ => ⟨S4096x4096, .f32⟩
  | .hbm, ⟨78, _⟩ => ⟨S4096x4096, .f32⟩
  | .hbm, ⟨79, _⟩ => ⟨S4096x4096, .f32⟩
  | .hbm, ⟨80, _⟩ => ⟨S1x4096, .f32⟩
  | .hbm, ⟨81, _⟩ => ⟨S4096x4096, .f32⟩
  | .hbm, ⟨82, _⟩ => ⟨S4096x4096, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_c_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_c_2 : Ref sig .tc := ⟨.hbm, 23, rfl⟩
abbrev main_v15 : Ref sig .tc := ⟨.hbm, 24, rfl⟩
abbrev main_v16 : Ref sig .tc := ⟨.hbm, 25, rfl⟩
abbrev main_c_3 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_c_4 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_c_5 : Ref sig .tc := ⟨.hbm, 40, rfl⟩
abbrev main_call0_v0 : Ref sig .tc := ⟨.hbm, 41, rfl⟩
abbrev main_call0_v1 : Ref sig .tc := ⟨.hbm, 42, rfl⟩
abbrev main_call0_v2 : Ref sig .tc := ⟨.hbm, 43, rfl⟩
abbrev main_call0_v3 : Ref sig .tc := ⟨.hbm, 44, rfl⟩
abbrev main_call0_v4 : Ref sig .tc := ⟨.hbm, 45, rfl⟩
abbrev main_call0_v5 : Ref sig .tc := ⟨.hbm, 46, rfl⟩
abbrev main_call0_v6 : Ref sig .tc := ⟨.hbm, 47, rfl⟩
abbrev main_call0_v7 : Ref sig .tc := ⟨.hbm, 48, rfl⟩
abbrev main_call0_v8 : Ref sig .tc := ⟨.hbm, 49, rfl⟩
abbrev main_call0_c : Ref sig .tc := ⟨.hbm, 50, rfl⟩
abbrev main_call0_v9 : Ref sig .tc := ⟨.hbm, 51, rfl⟩
abbrev main_call0_v10 : Ref sig .tc := ⟨.hbm, 52, rfl⟩
abbrev main_call0_v11 : Ref sig .tc := ⟨.hbm, 53, rfl⟩
abbrev main_call0_c_0 : Ref sig .tc := ⟨.hbm, 54, rfl⟩
abbrev main_call0_v12 : Ref sig .tc := ⟨.hbm, 55, rfl⟩
abbrev main_call0_v13 : Ref sig .tc := ⟨.hbm, 56, rfl⟩
abbrev main_v29 : Ref sig .tc := ⟨.hbm, 57, rfl⟩
abbrev main_c_6 : Ref sig .tc := ⟨.hbm, 58, rfl⟩
abbrev main_v30 : Ref sig .tc := ⟨.hbm, 59, rfl⟩
abbrev main_v31 : Ref sig .tc := ⟨.hbm, 60, rfl⟩
abbrev main_c_7 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_c_8 : Ref sig .tc := ⟨.hbm, 68, rfl⟩
abbrev main_v38 : Ref sig .tc := ⟨.hbm, 69, rfl⟩
abbrev main_v39 : Ref sig .tc := ⟨.hbm, 70, rfl⟩
abbrev main_c_9 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩

abbrev nD : Nat := 1
abbrev τ : Topo := Topo.v7x

variable {F : FTy → Type} [FloatOps F]

class Facts₀ : Prop where
  bcast_S_S8 : S_.BroadcastsInDim S8 (![] : Fin 0 → Fin S8.rank)
  bcast_S4096x512_S4096x512x1_0_1 : S4096x512.BroadcastsInDim S4096x512x1 (![0, 1] : Fin 2 → Fin S4096x512x1.rank)
  bcast_S8_S1x1x8_2 : S8.BroadcastsInDim S1x1x8 (![2] : Fin 1 → Fin S1x1x8.rank)
  bcast_S4096x512x1_S4096x512x8_0_1_2 : S4096x512x1.BroadcastsInDim S4096x512x8 (![0, 1, 2] : Fin 3 → Fin S4096x512x8.rank)
  bcast_S1x1x8_S4096x512x8_0_1_2 : S1x1x8.BroadcastsInDim S4096x512x8 (![0, 1, 2] : Fin 3 → Fin S4096x512x8.rank)
  bcast_S_S4096x512x8 : S_.BroadcastsInDim S4096x512x8 (![] : Fin 0 → Fin S4096x512x8.rank)
  shapeCasts_S4096x512x8_S4096x4096 : S4096x512x8.ShapeCasts S4096x4096
  bcast_S4096x4_S4096x4x1_0_1 : S4096x4.BroadcastsInDim S4096x4x1 (![0, 1] : Fin 2 → Fin S4096x4x1.rank)
  bcast_S4096x4x1_S4096x4x8_0_1_2 : S4096x4x1.BroadcastsInDim S4096x4x8 (![0, 1, 2] : Fin 3 → Fin S4096x4x8.rank)
  bcast_S1x1x8_S4096x4x8_0_1_2 : S1x1x8.BroadcastsInDim S4096x4x8 (![0, 1, 2] : Fin 3 → Fin S4096x4x8.rank)
  bcast_S_S4096x4x8 : S_.BroadcastsInDim S4096x4x8 (![] : Fin 0 → Fin S4096x4x8.rank)
  shapeCasts_S4096x4x8_S4096x32 : S4096x4x8.ShapeCasts S4096x32
  bcast_S_S4096 : S_.BroadcastsInDim S4096 (![] : Fin 0 → Fin S4096.rank)
  bcast_S4096_S4096x1_0 : S4096.BroadcastsInDim S4096x1 (![0] : Fin 1 → Fin S4096x1.rank)
  transposes_S4096x4096_S4096x4096_1_0 : S4096x4096.Transposes [1, 0] S4096x4096
  bcast_S4096_S1x4096_1 : S4096.BroadcastsInDim S1x4096 (![1] : Fin 1 → Fin S1x4096.rank)
  bcast_S1x4096_S4096x4096_0_1 : S1x4096.BroadcastsInDim S4096x4096 (![0, 1] : Fin 2 → Fin S4096x4096.rank)
  gather_S4096x32_S4096x1_S4096x4096_0_1_n_n_1_1_40961_wf : GatherDims.WF S4096x32 S4096x1 S4096x4096 [0] [1] [] [1] [] 1 ![4096, 1]
  dot_S4096x4096_S4096x4096_S4096x4096_1_0_0_1_n_n_wf : DotDims.WF S4096x4096 S4096x4096 S4096x4096 [1] [0] [0] [1] [] []

variable [Facts₀]

def gather_S4096x32_S4096x1_S4096x4096_0_1_n_n_1_1_40961 : GatherDims S4096x32 S4096x1 S4096x4096 where
  offsetDims := [0]
  collapsedSliceDims := [1]
  operandBatchingDims := []
  startIndicesBatchingDims := []
  startIndexMap := [1]
  indexVectorDim := 1
  sliceSizes := ![4096, 1]
  wf := gather_S4096x32_S4096x1_S4096x4096_0_1_n_n_1_1_40961_wf
def dot_S4096x4096_S4096x4096_S4096x4096_1_0_0_1_n_n : DotDims S4096x4096 S4096x4096 S4096x4096 where
  lhsContracting := [1]
  rhsContracting := [0]
  lhsNonContracting := [0]
  rhsNonContracting := [1]
  lhsBatch := []
  rhsBatch := []
  wf := dot_S4096x4096_S4096x4096_S4096x4096_1_0_0_1_n_n_wf

class Facts : Prop extends Facts₀ where

variable [Facts]
-- ==== Proof.DequantOutBits.lean ====
/-
  What the dequantizing kernel leaves in its output block, as a function of its three input blocks.

  A grid point handles 256 weight rows. The body walks the 4096 columns in four chunks of 1024: chunk `g` reads the
  128 packed words `[128 g, 128 g + 128)` of each row, the row's zero-point word `g` and its eight scales
  `[8 g, 8 g + 8)`, and stores the 256 × 1024 dequantized values at columns `[1024 g, 1024 g + 1024)`. The four stores
  tile the block, so the block after the body is their pieces read back.
-/
import proofs.«426883_j77292231459026_3_alg».proof.Proof.Gen.Kernel.Skeleton
import Idealize.ShloMosaic.Lib.Pipeline.FrameBody

noncomputable section

namespace Cert.Kernel.Hand

open Cert.Kernel Cert.Kernel.Gen Idealize.ShloMosaic

variable {F : FTy → Type} [FloatOps F]

/-- Chunk `g`'s packed words: columns `[128 g, 128 g + 128)` of the 256 × 512 block. -/
abbrev rQ0 : Rect S256x512 := Rect.unit (s := S256x512) ![0, 0] S256x128.size inb_S256x512_S256x128_0_0
abbrev rQ1 : Rect S256x512 := Rect.unit (s := S256x512) ![0, 128] S256x128.size inb_S256x512_S256x128_0_128
abbrev rQ2 : Rect S256x512 := Rect.unit (s := S256x512) ![0, 256] S256x128.size inb_S256x512_S256x128_0_256
abbrev rQ3 : Rect S256x512 := Rect.unit (s := S256x512) ![0, 384] S256x128.size inb_S256x512_S256x128_0_384
/-- Chunk `g`'s zero-point word: column `g` of the 256 × 4 block. -/
abbrev rZ0 : Rect S256x4 := Rect.unit (s := S256x4) ![0, 0] S256x1.size inb_S256x4_S256x1_0_0
abbrev rZ1 : Rect S256x4 := Rect.unit (s := S256x4) ![0, 1] S256x1.size inb_S256x4_S256x1_0_1
abbrev rZ2 : Rect S256x4 := Rect.unit (s := S256x4) ![0, 2] S256x1.size inb_S256x4_S256x1_0_2
abbrev rZ3 : Rect S256x4 := Rect.unit (s := S256x4) ![0, 3] S256x1.size inb_S256x4_S256x1_0_3
/-- Chunk `g`'s scales: columns `[8 g, 8 g + 8)` of the 256 × 32 block. -/
abbrev rS0 : Rect S256x32 := Rect.unit (s := S256x32) ![0, 0] S256x8.size inb_S256x32_S256x8_0_0
abbrev rS1 : Rect S256x32 := Rect.unit (s := S256x32) ![0, 8] S256x8.size inb_S256x32_S256x8_0_8
abbrev rS2 : Rect S256x32 := Rect.unit (s := S256x32) ![0, 16] S256x8.size inb_S256x32_S256x8_0_16
abbrev rS3 : Rect S256x32 := Rect.unit (s := S256x32) ![0, 24] S256x8.size inb_S256x32_S256x8_0_24
/-- Chunk `g`'s output columns `[1024 g, 1024 g + 1024)` of the 256 × 4096 block. -/
abbrev rO0 : Rect S256x4096 := Rect.unit (s := S256x4096) ![0, 0] S256x1024.size inb_S256x4096_S256x1024_0_0
abbrev rO1 : Rect S256x4096 := Rect.unit (s := S256x4096) ![0, 1024] S256x1024.size inb_S256x4096_S256x1024_0_1024
abbrev rO2 : Rect S256x4096 := Rect.unit (s := S256x4096) ![0, 2048] S256x1024.size inb_S256x4096_S256x1024_0_2048
abbrev rO3 : Rect S256x4096 := Rect.unit (s := S256x4096) ![0, 3072] S256x1024.size inb_S256x4096_S256x1024_0_3072

/-- The four chunks' stored values, from the input blocks (packed words, zero-point words, scales). -/
def chunk0 (x0 : Vec F S256x512 .i32) (x1 : Vec F S256x4 .i32) (x2 : Vec F S256x32 .f32) : FVec F S256x1024 .bf16 :=
  k0_pay5 (View.ld x0 rQ0) (View.ld x1 rZ0) (View.ld x2 rS0)
def chunk1 (x0 : Vec F S256x512 .i32) (x1 : Vec F S256x4 .i32) (x2 : Vec F S256x32 .f32) : FVec F S256x1024 .bf16 :=
  k0_pay8 k0_pay4 (k0_pay6 (F := F) (View.ld x0 rQ1)) k0_pay7 (View.ld x1 rZ1) (View.ld x2 rS1)
def chunk2 (x0 : Vec F S256x512 .i32) (x1 : Vec F S256x4 .i32) (x2 : Vec F S256x32 .f32) : FVec F S256x1024 .bf16 :=
  k0_pay1 (k0_pay9 k0_pay3 (View.ld x0 rQ2)) (k0_pay10 k0_pay4 (View.ld x1 rZ2)) (View.ld x2 rS2)
def chunk3 (x0 : Vec F S256x512 .i32) (x1 : Vec F S256x4 .i32) (x2 : Vec F S256x32 .f32) : FVec F S256x1024 .bf16 :=
  k0_pay2 k0_pay3 k0_pay4 (View.ld x0 rQ3) (View.ld x1 rZ3) (View.ld x2 rS3)

/-- The output block after the body: the four stores as pieces, last first. -/
def out0_3 (x0 : Vec F S256x512 .i32) (x1 : Vec F S256x4 .i32) (x2 : Vec F S256x32 .f32) : Vec F S256x4096 .bf16 :=
  View.canon [⟨rO3, chunk3 x0 x1 x2⟩, ⟨rO2, chunk2 x0 x1 x2⟩, ⟨rO1, chunk1 x0 x1 x2⟩, ⟨rO0, chunk0 x0 x1 x2⟩]

end Cert.Kernel.Hand

end
-- ==== Proof.DequantRegionBits.lean ====
/-
  The dequantizing kernel's region: its proof data and its body obligation, at any contents `V` of the buffers
  when the region is entered, and at any float instance.

  At every one of the 16 grid points the three input windows (packed words, zero-point words, scales) are fetched
  and the output window is written back. The body reads the inputs' blocks and overwrites the whole output block
  with four stores of 256 × 1024 values; what it leaves there is `out0_3` of the three input blocks.
-/
import proofs.«426883_j77292231459026_3_alg».proof.Proof.Gen.Kernel.Launch
import proofs.«426883_j77292231459026_3_alg».proof.Proof.Gen.Kernel.Skeleton
import proofs.«426883_j77292231459026_3_alg».proof.Proof.Gen.Kernel.Points
import proofs.«426883_j77292231459026_3_alg».proof.Proof.DequantOutBits
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents when the region is entered
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! ## The pipeline's proof data -/

/-- The proof data of the region on core `c`: the arrays as the region finds them (`V`); after the body at point `t`
    each input's buffer at its block and the output's at `out0_3` of the three input blocks; the invariant is the
    untouched rest; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

/-- Each input window's current staging buffer holds its block at every point, fetched there or not, for any proof
    data whose array is `V`'s (`hA`) and whose body leaves the block in place (`hafter`): the window is uncut and
    never idle, so an unfetched buffer still holds the block the index has not moved off. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## What the body leaves in the output window's buffer -/

/-- The four stores' rectangles tile the 256 × 4096 block, so they cover it. -/
theorem cover0_3 (p3 p2 p1 p0 : Vec F S256x1024 .bf16) (y : S256x4096.Idx) :
    ∃ pc ∈ ([⟨rO3, p3⟩, ⟨rO2, p2⟩, ⟨rO1, p1⟩, ⟨rO0, p0⟩] : List (View.Piece (Elt F) S256x4096 .bf16)), y ∈ pc.1.set :=
  View.cover_of_tiled [⟨rO3, p3⟩, ⟨rO2, p2⟩, ⟨rO1, p1⟩, ⟨rO0, p0⟩] S256x1024.size (by rfl) y

/-! ## The body's triple -/

set_option maxHeartbeats 4000000 in
/-- The kernel body on whole staging memrefs, the inputs' at read contents `x0`, `x1`, `x2` and the output's at
    anything, runs to the continuation holding the inputs' as they were and the output's at `out0_3` of the inputs':
    every load of an input reads the block through its rectangle, each of the four loads of the output is of a value
    nobody uses, and the four stores tile the output block, so what the block read before is gone. -/
theorem sound_kernel0 (c : Dev nD) (E : Set ℕ) (i : grid0.Coords)
    (arg1 : Memref sig .tc .vmem S256x512 .i32) (harg1 : arg1.IsWhole) (arg2 : Memref sig .tc .vmem S256x4 .i32) (harg2 : arg2.IsWhole)
    (arg3 : Memref sig .tc .vmem S256x32 .f32) (harg3 : arg3.IsWhole) (arg4 : Memref sig .tc .vmem S256x4096 .bf16) (harg4 : arg4.IsWhole)
    (x0 : Vec F S256x512 .i32) (x1 : Vec F S256x4 .i32) (x2 : Vec F S256x32 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__dequant_kernel i arg1 harg1 arg2 harg2 arg3 harg3 arg4 harg4) K := by
  unfold owns
  iintro ⟨⟨%f0, %hf0, H0⟩, ⟨%f1, %hf1, H1⟩, ⟨%f2, %hf2, H2⟩, ⟨%d3, %f3, -, H3⟩, Hk⟩
  subst hf0; subst hf1; subst hf2
  sl_unfold [cc0__dequant_kernel]
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _ _ _ _)

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t`: the invariant, what the core owes, and the four windows' current
    staging buffers, each whole at what the pipeline left there, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns: the same, the buffers at what the proof data says the body leaves. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks (`before0_W`), so `sound_kernel0` applies at the three
    blocks; the invariant and what the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.MatmulRunsBits.lean ====
/-
  The matmul kernel's region: what its three kinds of grid point share.

  The kernel walks a 4 × 4 × 4 grid; the last coordinate `k` is the reduction step. At every point it adds the product
  of an x block and a weight block (both 1024 × 1024, contracted along their second axes) to a 1024 × 1024 accumulator
  that lives in a scratch buffer and is carried from point to point. At `k = 0` it first zeroes the accumulator; at
  `k = 3` it stores accumulator plus bias row into the output block, which is written back there and nowhere else.
  So a point is of one of three kinds: first (`k = 0`), middle (`k = 1, 2`), last (`k = 3`).

  Here: the two conditions in closed form over the grid, where the output window is idle, the memrefs the body is
  called with, and the region's invariant taken apart into the accumulator and the rest.
-/
import proofs.«426883_j77292231459026_3_alg».proof.Proof.Gen.Kernel.Launch
import proofs.«426883_j77292231459026_3_alg».proof.Proof.Gen.Kernel.Skeleton
import proofs.«426883_j77292231459026_3_alg».proof.Proof.Gen.Kernel.Points
import Idealize.ShloMosaic.Lib.Pipeline.FrameBody
import Idealize.ShloMosaic.Lib.Ring
import Idealize.ShloMosaic.Lib.Tactic

-- membership in a rectangle of these extents is decided by a structural look that recurses once per coordinate
-- of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's two conditions, in closed form over the grid

The grid is 4 × 4 × 4, walked row-major: point `t` has coordinates `(t / 16, t / 4 % 4, t % 4)`, the last one the
reduction step `k`. The body resets the accumulator when `k = 0` and stores the output block when `k = 3`. -/

/-- The reduction step is the first (`k = 0`): the body zeroes the accumulator before it adds. -/
abbrev cond1_0 (i : grid1.Coords) : Prop := (Scalar.cmpi .ne (Scalar.extui (Scalar.cmpi .eq (BitVec.ofNat 32 (i 2).val) 0#32)) 0#32) = 1#1
/-- It holds exactly at the points `≡ 0 (mod 4)`. -/
theorem hcond1_0 : ∀ t : Fin cfg1.N, cond1_0 (grid1.coords t) ↔ t.val % 4 = 0 :=
  (by decide +kernel : ∀ t : Fin grid1.N, cond1_0 (grid1.coords t) ↔ t.val % 4 = 0)

/-- The reduction step is the last (`k = 3`): the body stores accumulator plus bias into the output block. -/
abbrev cond1_1 (i : grid1.Coords) : Prop := k1_cond2 i = 1#1
/-- It holds exactly at the points `≡ 3 (mod 4)`. -/
theorem hcond1_1 : ∀ t : Fin cfg1.N, cond1_1 (grid1.coords t) ↔ t.val % 4 = 3 :=
  (by decide +kernel : ∀ t : Fin grid1.N, cond1_1 (grid1.coords t) ↔ t.val % 4 = 3)

/-! ## Where the windows are idle

The three inputs are never idle. The output window is idle wherever `k ≠ 3`: the body stores nothing into it there and
its block is not written back; at `k = 3` it is live. -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem idleAt1_3_A : ∀ t : Fin cfg1.N, cond1_0 (grid1.coords t) → ¬cond1_1 (grid1.coords t) → cfg1.idle 3 (grid1.coords t) = true := by decide +kernel
theorem noFlush1_3_A : ∀ t : Fin cfg1.N, cond1_0 (grid1.coords t) → ¬cond1_1 (grid1.coords t) → (cfg1.win 3).flush t = false := by decide +kernel
theorem idleAt1_3_B : ∀ t : Fin cfg1.N, ¬cond1_0 (grid1.coords t) → ¬cond1_1 (grid1.coords t) → cfg1.idle 3 (grid1.coords t) = true := by decide +kernel
theorem noFlush1_3_B : ∀ t : Fin cfg1.N, ¬cond1_0 (grid1.coords t) → ¬cond1_1 (grid1.coords t) → (cfg1.win 3).flush t = false := by decide +kernel
theorem liveAt1_3_C : ∀ t : Fin cfg1.N, ¬cond1_0 (grid1.coords t) → cond1_1 (grid1.coords t) → cfg1.idle 3 (grid1.coords t) = false := by decide +kernel

/-! ## The memrefs the body is called with -/

/-- One staging buffer of the output window, through which its contents are stated (the choice does not matter). -/
abbrev VO1_3 : View sig .tc .vmem S1024x1024 .f32 := (Memref.whole cc1_stg3_0 : Memref sig .tc .vmem S1024x1024 .f32).view
/-- Each window's current staging memref at point `t`, and its wholeness. -/
abbrev ms1_0 (t : Fin cfg1.N) : Memref sig .tc .vmem S1024x1024 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x1024 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1024 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x1024 .f32 := win1_3.stage (cfg1.slots t 3)
abbrev hs1_3 (t : Fin cfg1.N) : (ms1_3 t).IsWhole := hstage1_3 ((cfg1.slots t 3).cast nbuf1_3)
/-- The accumulator: a whole scoped buffer of the kernel's own, passed beside the windows and carried from point to point. -/
abbrev scM1_0 : Memref sig .tc .vmem S1024x1024 .f32 := Memref.whole cc1_scratch0
/-- The accumulator as a view: what it holds is stated through it. -/
abbrev VS1_0 : View sig .tc .vmem S1024x1024 .f32 := scM1_0.view

/-! ## The region's invariant, taken apart

Besides the accumulator the core's scoped buffers that this region does not stage are the eight staging buffers of
the other region; the body never touches them. -/

/-- The other region's eight staging buffers, each at some contents. -/
def rest1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f))

/-- The region's invariant with the accumulator as a memref owned at some contents. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ d, owns (c : Thread nD τ) scM1_0 fullShare d)) ∗ (∃ r, prngReg c r)) := by
  unfold Pipeline.ΦA; rw [scopedRest1_eq]; simp only [scM1_0, owns_whole]; try rfl

/-- The invariant hands out the untouched rest, the accumulator at some contents, and the generator register. -/
theorem PhiA1_split (c : Dev nD) :
    (Pipeline.ΦA spec1 c : sProp 𝕄)
      ⊢ iprop(iprop(rest1 (F := F) c ∗ (∃ d, owns (c : Thread nD τ) scM1_0 fullShare d)) ∗ (∃ r, prngReg c r)) := by
  rw [PhiA1_eq]; unfold rest1
  iintro ⟨⟨H0, H1, H2, H3, H4, H5, H6, H7, HS⟩, Hg⟩
  isplitl [H0 H1 H2 H3 H4 H5 H6 H7 HS]
  · isplitl [H0 H1 H2 H3 H4 H5 H6 H7]
    · isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
    iexact HS
  iexact Hg

/-- and takes them back. -/
theorem PhiA1_join (c : Dev nD) :
    iprop(iprop(rest1 (F := F) c ∗ (∃ d, owns (c : Thread nD τ) scM1_0 fullShare d)) ∗ (∃ r, prngReg c r))
      ⊢ (Pipeline.ΦA spec1 c : sProp 𝕄) := by
  rw [PhiA1_eq]; unfold rest1
  iintro ⟨⟨⟨H0, H1, H2, H3, H4, H5, H6, H7⟩, HS⟩, Hg⟩
  isplitl [H0 H1 H2 H3 H4 H5 H6 H7 HS]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact HS
  iexact Hg

end Cert.Kernel.Hand

end
-- ==== Proof.MatmulRunABits.lean ====
/-
  The matmul kernel's body at a first reduction step (`k = 0`): the accumulator is zeroed, then gets the product of
  the two blocks added; the output buffer is not touched.
-/
import proofs.«426883_j77292231459026_3_alg».proof.Proof.MatmulRunsBits

-- membership in a rectangle of these extents is decided by a structural look that recurses once per coordinate
-- of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- THE BODY AT A FIRST REDUCTION STEP (`k = 0`). On whole memrefs — the three input blocks at their contents, the
    output buffer at contents `xi3` that it does not touch, the accumulator at anything — the body runs to a
    continuation holding the inputs and the output buffer as they were and the accumulator with the pieces `LS0`
    written: first the zeros, then the zeros read back plus the product of the two blocks. No piece goes to the
    output buffer. -/
noncomputable def kernelRun1_A (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : cond1_0 i) (hc1 : ¬cond1_1 i)
    (x0 : Vec F S1024x1024 .bf16) (x1 : Vec F S1024x1024 .bf16) (x2 : Vec F S1x1024 .f32) :
    Σ' (L3 : List (View.Piece (Elt F) S1024x1024 .f32)), { LS0 : List (View.Piece (Elt F) S1024x1024 .f32) //
      ∀ (xi3 : Vec F S1024x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ (∃ d, owns (c : Thread nD τ) arg7 fullShare d)
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0)) -∗ K ⟨⟩))
          ⊢ wp frame (wpE (defs₀ (F := F)) Variants.none c none) E (cc1__matmul_kernel i arg3 harg3 arg4 harg4 arg5 harg5 arg6 harg6 arg7 harg7) K } := by
  refine ⟨[], ?_, fun xi3 E K => ?run⟩
  case run =>
    simp only [cc1__matmul_kernel_eq_skeleton]; unfold cc1__matmul_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg3.eq_unread hf0; obtain rfl := harg4.eq_unread hf1; obtain rfl := harg5.eq_unread hf2; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS0

end Cert.Kernel.Hand

end
-- ==== Proof.MatmulRunBBits.lean ====
/-
  The matmul kernel's body at a middle reduction step (`k = 1, 2`): the accumulator gets the product of the two blocks
  added; the output buffer is not touched.
-/
import proofs.«426883_j77292231459026_3_alg».proof.Proof.MatmulRunABits

-- membership in a rectangle of these extents is decided by a structural look that recurses once per coordinate
-- of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- THE BODY AT A MIDDLE REDUCTION STEP (`k = 1, 2`). The accumulator comes in at the contents `xs0` the point
    before left; the body leaves it with one piece written, `xs0` plus the product of the two blocks. The output buffer,
    at `xi3`, is not touched. -/
noncomputable def kernelRun1_B (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond1_0 i) (hc1 : ¬cond1_1 i)
    (x0 : Vec F S1024x1024 .bf16) (x1 : Vec F S1024x1024 .bf16) (x2 : Vec F S1x1024 .f32) (xs0 : Vec F S1024x1024 .f32) :
    Σ' (L3 : List (View.Piece (Elt F) S1024x1024 .f32)), { LS0 : List (View.Piece (Elt F) S1024x1024 .f32) //
      ∀ (xi3 : Vec F S1024x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ owns (c : Thread nD τ) arg7 fullShare xs0
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0)) -∗ K ⟨⟩))
          ⊢ wp frame (wpE (defs₀ (F := F)) Variants.none c none) E (cc1__matmul_kernel i arg3 harg3 arg4 harg4 arg5 harg5 arg6 harg6 arg7 harg7) K } := by
  refine ⟨[], ?_, fun xi3 E K => ?run⟩
  case run =>
    simp only [cc1__matmul_kernel_eq_skeleton]; unfold cc1__matmul_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS0

end Cert.Kernel.Hand

end
-- ==== Proof.MatmulRunCBits.lean ====
/-
  The matmul kernel's body at a last reduction step (`k = 3`): the accumulator gets the product of the two blocks
  added, and accumulator plus bias row goes to the output buffer.
-/
import proofs.«426883_j77292231459026_3_alg».proof.Proof.MatmulRunBBits

-- membership in a rectangle of these extents is decided by a structural look that recurses once per coordinate
-- of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- THE BODY AT A LAST REDUCTION STEP (`k = 3`). The accumulator comes in at `xs0` and gets `xs0` plus the product
    of the two blocks; the output buffer, at anything, gets one piece `L3`: the new accumulator read back plus the
    bias row broadcast down the rows. -/
noncomputable def kernelRun1_C (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond1_0 i) (hc1 : cond1_1 i)
    (x0 : Vec F S1024x1024 .bf16) (x1 : Vec F S1024x1024 .bf16) (x2 : Vec F S1x1024 .f32) (xs0 : Vec F S1024x1024 .f32) :
    Σ' (L3 : List (View.Piece (Elt F) S1024x1024 .f32)), { LS0 : List (View.Piece (Elt F) S1024x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xs0
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f LS0)) -∗ K ⟨⟩))
          ⊢ wp frame (wpE (defs₀ (F := F)) Variants.none c none) E (cc1__matmul_kernel i arg3 harg3 arg4 harg4 arg5 harg5 arg6 harg6 arg7 harg7) K } := by
  refine ⟨?_, ?_, fun E K => ?run⟩
  case run =>
    simp only [cc1__matmul_kernel_eq_skeleton]; unfold cc1__matmul_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg3.eq_unread hf0; obtain rfl := harg4.eq_unread hf1; obtain rfl := harg5.eq_unread hf2; obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    iexists _; iexact HS0

end Cert.Kernel.Hand

end
-- ==== Proof.MatmulRegionBits.lean ====
/-
  The matmul kernel's region: its proof data and its body obligation, at any contents `V` of the buffers when the
  region is entered, and at any float instance.

  What the output buffer and the accumulator hold after each of the 64 points is defined by recursion on the point
  (`outsAt1`): a first step starts the accumulator afresh, a middle or last step continues from what the point before
  left, a last step also fills the output block. The invariant between points carries the accumulator at exactly those
  contents. The three closing equations say what the recursion computes in terms of the kernel's arithmetic.
-/
import proofs.«426883_j77292231459026_3_alg».proof.Proof.MatmulRunCBits
import Idealize.ShloMosaic.Lib.Pipeline.Value

-- membership in a rectangle of these extents is decided by a structural look that recurses once per coordinate
-- of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents when the region is entered
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not (an unfetched
    window's block index has not moved), for any proof data whose array is `V`'s and whose body leaves the block in
    place. The bias row (window 2) is fetched only at the first reduction step and read at the last: this is what
    carries it across. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## What each kind of step leaves in the output buffer and in the accumulator -/

/-- A first step stores nothing into the output buffer: a placeholder that nothing consults, since at these
    points the window is neither written back nor read at the next point. -/
def out1_A_3 (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : cond1_0 i) (hc1 : ¬cond1_1 i)
    (x0 : Vec F S1024x1024 .bf16) (x1 : Vec F S1024x1024 .bf16) (x2 : Vec F S1x1024 .f32) : Vec F S1024x1024 .f32 :=
  VO1_3.read (Elt F) (VO1_3.writes (Elt F) VO1_3.junk (kernelRun1_A c i arg3 harg3 arg4 harg4 arg5 harg5 arg6 harg6 arg7 harg7 hc0 hc1 x0 x1 x2).1)

/-- The pieces a first step writes into the accumulator cover it. -/
theorem scover1_A_0 (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : cond1_0 i) (hc1 : ¬cond1_1 i)
    (x0 : Vec F S1024x1024 .bf16) (x1 : Vec F S1024x1024 .bf16) (x2 : Vec F S1x1024 .f32) (y : S1024x1024.Idx) :
    ∃ pc ∈ (kernelRun1_A c i arg3 harg3 arg4 harg4 arg5 harg5 arg6 harg6 arg7 harg7 hc0 hc1 x0 x1 x2).2.1, y ∈ pc.1.set :=
  View.cover_of_tiledL (kernelRun1_A c i arg3 harg3 arg4 harg4 arg5 harg5 arg6 harg6 arg7 harg7 hc0 hc1 x0 x1 x2).2.1 S1024x1024.size (by sl_kernel_rfl) y

/-- What a first step leaves in the accumulator: its pieces read back. -/
def sout1_A_0 (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : cond1_0 i) (hc1 : ¬cond1_1 i)
    (x0 : Vec F S1024x1024 .bf16) (x1 : Vec F S1024x1024 .bf16) (x2 : Vec F S1x1024 .f32) : Vec F S1024x1024 .f32 :=
  VS1_0.read (Elt F) (VS1_0.writes (Elt F) VS1_0.junk (kernelRun1_A c i arg3 harg3 arg4 harg4 arg5 harg5 arg6 harg6 arg7 harg7 hc0 hc1 x0 x1 x2).2.1)

/-- A middle step stores nothing into the output buffer: a placeholder that nothing consults, since at these
    points the window is neither written back nor read at the next point. -/
def out1_B_3 (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond1_0 i) (hc1 : ¬cond1_1 i)
    (x0 : Vec F S1024x1024 .bf16) (x1 : Vec F S1024x1024 .bf16) (x2 : Vec F S1x1024 .f32) (xs0 : Vec F S1024x1024 .f32) : Vec F S1024x1024 .f32 :=
  VO1_3.read (Elt F) (VO1_3.writes (Elt F) VO1_3.junk (kernelRun1_B c i arg3 harg3 arg4 harg4 arg5 harg5 arg6 harg6 arg7 harg7 hc0 hc1 x0 x1 x2 xs0).1)

/-- The pieces a middle step writes into the accumulator cover it. -/
theorem scover1_B_0 (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond1_0 i) (hc1 : ¬cond1_1 i)
    (x0 : Vec F S1024x1024 .bf16) (x1 : Vec F S1024x1024 .bf16) (x2 : Vec F S1x1024 .f32) (xs0 : Vec F S1024x1024 .f32) (y : S1024x1024.Idx) :
    ∃ pc ∈ (kernelRun1_B c i arg3 harg3 arg4 harg4 arg5 harg5 arg6 harg6 arg7 harg7 hc0 hc1 x0 x1 x2 xs0).2.1, y ∈ pc.1.set :=
  View.cover_of_tiledL (kernelRun1_B c i arg3 harg3 arg4 harg4 arg5 harg5 arg6 harg6 arg7 harg7 hc0 hc1 x0 x1 x2 xs0).2.1 S1024x1024.size (by sl_kernel_rfl) y

/-- What a middle step leaves in the accumulator: its pieces read back. -/
def sout1_B_0 (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond1_0 i) (hc1 : ¬cond1_1 i)
    (x0 : Vec F S1024x1024 .bf16) (x1 : Vec F S1024x1024 .bf16) (x2 : Vec F S1x1024 .f32) (xs0 : Vec F S1024x1024 .f32) : Vec F S1024x1024 .f32 :=
  VS1_0.read (Elt F) (VS1_0.writes (Elt F) VS1_0.junk (kernelRun1_B c i arg3 harg3 arg4 harg4 arg5 harg5 arg6 harg6 arg7 harg7 hc0 hc1 x0 x1 x2 xs0).2.1)

/-- At a last step the one piece stored into the output buffer covers it. -/
theorem cover1_C_3 (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond1_0 i) (hc1 : cond1_1 i)
    (x0 : Vec F S1024x1024 .bf16) (x1 : Vec F S1024x1024 .bf16) (x2 : Vec F S1x1024 .f32) (xs0 : Vec F S1024x1024 .f32) (y : S1024x1024.Idx) :
    ∃ pc ∈ (kernelRun1_C c i arg3 harg3 arg4 harg4 arg5 harg5 arg6 harg6 arg7 harg7 hc0 hc1 x0 x1 x2 xs0).1, y ∈ pc.1.set :=
  View.cover_of_tiledL (kernelRun1_C c i arg3 harg3 arg4 harg4 arg5 harg5 arg6 harg6 arg7 harg7 hc0 hc1 x0 x1 x2 xs0).1 S1024x1024.size (by sl_kernel_rfl) y

/-- What a last step leaves in the output buffer: its piece read back. -/
def out1_C_3 (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond1_0 i) (hc1 : cond1_1 i)
    (x0 : Vec F S1024x1024 .bf16) (x1 : Vec F S1024x1024 .bf16) (x2 : Vec F S1x1024 .f32) (xs0 : Vec F S1024x1024 .f32) : Vec F S1024x1024 .f32 :=
  VO1_3.read (Elt F) (VO1_3.writes (Elt F) VO1_3.junk (kernelRun1_C c i arg3 harg3 arg4 harg4 arg5 harg5 arg6 harg6 arg7 harg7 hc0 hc1 x0 x1 x2 xs0).1)

/-- The pieces a last step writes into the accumulator cover it. -/
theorem scover1_C_0 (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond1_0 i) (hc1 : cond1_1 i)
    (x0 : Vec F S1024x1024 .bf16) (x1 : Vec F S1024x1024 .bf16) (x2 : Vec F S1x1024 .f32) (xs0 : Vec F S1024x1024 .f32) (y : S1024x1024.Idx) :
    ∃ pc ∈ (kernelRun1_C c i arg3 harg3 arg4 harg4 arg5 harg5 arg6 harg6 arg7 harg7 hc0 hc1 x0 x1 x2 xs0).2.1, y ∈ pc.1.set :=
  View.cover_of_tiledL (kernelRun1_C c i arg3 harg3 arg4 harg4 arg5 harg5 arg6 harg6 arg7 harg7 hc0 hc1 x0 x1 x2 xs0).2.1 S1024x1024.size (by sl_kernel_rfl) y

/-- What a last step leaves in the accumulator: its pieces read back. -/
def sout1_C_0 (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond1_0 i) (hc1 : cond1_1 i)
    (x0 : Vec F S1024x1024 .bf16) (x1 : Vec F S1024x1024 .bf16) (x2 : Vec F S1x1024 .f32) (xs0 : Vec F S1024x1024 .f32) : Vec F S1024x1024 .f32 :=
  VS1_0.read (Elt F) (VS1_0.writes (Elt F) VS1_0.junk (kernelRun1_C c i arg3 harg3 arg4 harg4 arg5 harg5 arg6 harg6 arg7 harg7 hc0 hc1 x0 x1 x2 xs0).2.1)

/-! ## What the output buffer and the accumulator hold after each point -/

/-- THE ACCUMULATION. The output window's staging buffer and the accumulator after the body at position `n`: the kind
    of step `n % 4` selects, run at the point's memrefs and input blocks; a middle or last step starts from the
    accumulator position `n - 1` left (nothing touches it in between), a first step from anything. -/
def outsAt1 (c : Dev nD) : (n : ℕ) → n < cfg1.N → Vec F S1024x1024 .f32 × Vec F S1024x1024 .f32
  | 0, hn => (out1_A_3 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩))
  | n + 1, hn =>
    if h0 : (n + 1) % 4 = 0 then
      if h1 : (n + 1) % 4 = 3 then
        False.elim (by omega)
      else
        (out1_A_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩))
    else
      if h1 : (n + 1) % 4 = 3 then
        (out1_C_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2)
      else
        (out1_B_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2)

/-- `outsAt1` at a first step. -/
theorem outsAt1_A (c : Dev nD) (t : Fin cfg1.N) (h0 : t.val % 4 = 0) (h1 : ¬t.val % 4 = 3) :
    outsAt1 V c t.val t.isLt = (out1_A_3 c (grid1.coords t) (ms1_0 t) (hs1_0 t) (ms1_1 t) (hs1_1 t) (ms1_2 t) (hs1_2 t) (ms1_3 t) (hs1_3 t) scM1_0 (Memref.isWhole_whole _) ((hcond1_0 t).mpr h0) (fun h => h1 ((hcond1_1 t).mp h)) (iblk1 V c 0 t) (iblk1 V c 1 t) (iblk1 V c 2 t), sout1_A_0 c (grid1.coords t) (ms1_0 t) (hs1_0 t) (ms1_1 t) (hs1_1 t) (ms1_2 t) (hs1_2 t) (ms1_3 t) (hs1_3 t) scM1_0 (Memref.isWhole_whole _) ((hcond1_0 t).mpr h0) (fun h => h1 ((hcond1_1 t).mp h)) (iblk1 V c 0 t) (iblk1 V c 1 t) (iblk1 V c 2 t)) := by
  obtain ⟨n, hn⟩ := t
  cases n with
  | zero => exact rfl
  | succ n => exact (dif_pos h0).trans ((dif_neg h1).trans rfl)

/-- `outsAt1` at a middle step: over what the point before left in the accumulator. -/
theorem outsAt1_B (c : Dev nD) (t : Fin cfg1.N) (h0 : ¬t.val % 4 = 0) (h1 : ¬t.val % 4 = 3) :
    outsAt1 V c t.val t.isLt = (out1_B_3 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2, sout1_B_0 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt1` at a last step: over what the point before left in the accumulator. -/
theorem outsAt1_C (c : Dev nD) (t : Fin cfg1.N) (h0 : ¬t.val % 4 = 0) (h1 : t.val % 4 = 3) :
    outsAt1 V c t.val t.isLt = (out1_C_3 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2, sout1_C_0 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant: the accumulator carried from point to point -/

/-- Before position `n`: at the region's entry the plain invariant (the accumulator at anything); afterwards the
    untouched rest, the accumulator at what position `n - 1` left in it, and the generator register at some state. -/
def PhiS (c : Dev nD) : (n : ℕ) → n ≤ cfg1.N → sProp 𝕄
  | 0, _ => Pipeline.ΦA spec1 c
  | n + 1, hn => iprop(iprop(rest1 (F := F) c ∗ owns (c : Thread nD τ) scM1_0 fullShare ((outsAt1 V c n hn).2)) ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(iprop(rest1 (F := F) c ∗ owns (c : Thread nD τ) scM1_0 fullShare ((outsAt1 V c n hn).2)) ∗ (∃ r, prngReg c r)) := rfl

theorem PhiS_pos (c : Dev nD) (n : ℕ) (h : n ≤ cfg1.N) (hz : n ≠ 0) :
    PhiS V c n h = iprop(iprop(rest1 (F := F) c ∗ owns (c : Thread nD τ) scM1_0 fullShare ((outsAt1 V c (n - 1) (by omega)).2)) ∗ (∃ r, prngReg c r)) := by
  cases n with
  | zero => exact absurd rfl hz
  | succ n => rfl

/-! ## The pipeline's proof data -/

/-- The proof data of the region on core `c`: the arrays as the region finds them (`V`); after the body at point `t`
    each input's buffer at its block and the output's at `outsAt1`'s first component; the invariant carries the
    accumulator (`PhiS`); nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS V c t.val (Nat.le_of_lt_succ t.isLt)
  q _ := fullShare
  owed _ := 0

/-- The proof data's arrays are the region-entry contents. -/
theorem A_eq1 (c : Dev nD) (w : Fin cfg1.W) : (dat1 V c).A w = V c (Pipeline.arrRef spec1 w) := by
  dsimp only [dat1]

/-- The invariant at a point's start, restated at `t.val`. -/
theorem PhiS_castSucc (c : Dev nD) (t : Fin cfg1.N) :
    (dat1 V c).Φ t.castSucc = PhiS V c t.val (Nat.le_of_lt t.isLt) := by
  dsimp only [dat1]; simp only [Fin.coe_castSucc]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]

/-- Each input's current staging buffer holds its block at every point. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
/-- The body at any point. The inputs' memrefs hold their blocks; `t % 4` says which kind of step the point is, and that
    kind's run applies. The invariant hands the body the accumulator at what the point before left (at anything at the
    very first point) and takes it back at this point's contents; the rest and the generator register pass through
    unread; the core owes nothing throughout. Where the output window is idle its buffer goes back as it came. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS V c (t.val + 1) t.isLt from rfl, PhiS_succ]
  have hN : t.val < 64 := lt_of_lt_of_eq t.isLt (show cfg1.N = 64 from N_1)
  by_cases h0 : t.val % 4 = 0
  · by_cases h1 : t.val % 4 = 3
    · exfalso; omega
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [Dat.leavesExact_idle (dat1 V c) 3 t (idleAt1_3_A t ((hcond1_0 t).mpr h0) (fun h => h1 ((hcond1_1 t).mp h))) (noFlush1_3_A t ((hcond1_0 t).mpr h0) (fun h => h1 ((hcond1_1 t).mp h)))]
      rw [outsAt1_A V c t h0 h1]
      unfold sout1_A_0; (try dsimp only)
      by_cases hz : t.val = 0
      · rw [PhiS_castSucc V c t, PhiS_zero V c _ _ hz]
        iintro ⟨HΦ, Ho, ⟨%d0, H0⟩, ⟨%d1, H1⟩, ⟨%d2, H2⟩, ⟨%d3, H3⟩⟩
        ihave HΦ' := (PhiA1_split (F := F) c) $$ HΦ
        icases HΦ' with ⟨⟨HR, HS0⟩, Hg⟩
        iapply ((kernelRun1_A c (grid1.coords t) _ _ _ _ _ _ _ _ _ _ ((hcond1_0 t).mpr h0) (fun h => h1 ((hcond1_1 t).mp h)) (iblk1 V c 0 t) (iblk1 V c 1 t) (iblk1 V c 2 t)).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HR HS0 Hg]
        · isplitl [HR HS0]
          · isplitl [HR]; · iexact HR
            unfold owns; iexists _; isplitr
            swap; · iexact HS0
            ipureintro; exact View.read_writes_of_cover _ _ _ _ _ (scover1_A_0 c _ _ _ _ _ _ _ _ _ _ _ _ _ _ _ _)
          iexact Hg
        isplitl [Ho]; · iexact Ho
        isplitl [H0]; · iexact H0
        isplitl [H1]; · iexact H1
        isplitl [H2]; · iexact H2
        iexists _; iexact H3
      · rw [PhiS_castSucc V c t, PhiS_pos V c _ _ hz]
        iintro ⟨⟨⟨HR, HS0⟩, Hg⟩, Ho, ⟨%d0, H0⟩, ⟨%d1, H1⟩, ⟨%d2, H2⟩, ⟨%d3, H3⟩⟩
        iapply ((kernelRun1_A c (grid1.coords t) _ _ _ _ _ _ _ _ _ _ ((hcond1_0 t).mpr h0) (fun h => h1 ((hcond1_1 t).mp h)) (iblk1 V c 0 t) (iblk1 V c 1 t) (iblk1 V c 2 t)).2.2 _ Set.univ _)
        isplitl [H0]; · iexact H0
        isplitl [H1]; · iexact H1
        isplitl [H2]; · iexact H2
        isplitl [H3]; · iexact H3
        isplitl [HS0]; · iexists _; iexact HS0
        iintro ⟨H0, H1, H2, H3, ⟨%es0, HS0⟩⟩
        isplitl [HR HS0 Hg]
        · isplitl [HR HS0]
          · isplitl [HR]; · iexact HR
            unfold owns; iexists _; isplitr
            swap; · iexact HS0
            ipureintro; exact View.read_writes_of_cover _ _ _ _ _ (scover1_A_0 c _ _ _ _ _ _ _ _ _ _ _ _ _ _ _ _)
          iexact Hg
        isplitl [Ho]; · iexact Ho
        isplitl [H0]; · iexact H0
        isplitl [H1]; · iexact H1
        isplitl [H2]; · iexact H2
        iexists _; iexact H3
  · by_cases h1 : t.val % 4 = 3
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3_C t (fun h => h0 ((hcond1_0 t).mp h)) ((hcond1_1 t).mpr h1)], after1_3]
      rw [outsAt1_C V c t h0 h1]
      unfold out1_C_3 sout1_C_0; (try dsimp only)
      have hz : t.val ≠ 0 := fun e => h0 (by rw [e])
      rw [PhiS_castSucc V c t, PhiS_pos V c _ _ hz]
      iintro ⟨⟨⟨HR, HS0⟩, Hg⟩, Ho, ⟨%d0, H0⟩, ⟨%d1, H1⟩, ⟨%d2, H2⟩, ⟨%d3, H3⟩⟩
      iapply ((kernelRun1_C c (grid1.coords t) _ _ _ _ _ _ _ _ _ _ (fun h => h0 ((hcond1_0 t).mp h)) ((hcond1_1 t).mpr h1) (iblk1 V c 0 t) (iblk1 V c 1 t) (iblk1 V c 2 t) _).2.2 Set.univ _)
      isplitl [H0]; · iexact H0
      isplitl [H1]; · iexact H1
      isplitl [H2]; · iexact H2
      isplitl [H3]; · iexists _; iexact H3
      isplitl [HS0]; · iexact HS0
      iintro ⟨H0, H1, H2, ⟨%e3, H3⟩, ⟨%es0, HS0⟩⟩
      isplitl [HR HS0 Hg]
      · isplitl [HR HS0]
        · isplitl [HR]; · iexact HR
          unfold owns; iexists _; isplitr
          swap; · iexact HS0
          ipureintro; exact View.read_writes_of_cover _ _ _ _ _ (scover1_C_0 c _ _ _ _ _ _ _ _ _ _ _ _ _ _ _ _ _)
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover1_C_3 c _ _ _ _ _ _ _ _ _ _ _ _ _ _ _ _ _)
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [Dat.leavesExact_idle (dat1 V c) 3 t (idleAt1_3_B t (fun h => h0 ((hcond1_0 t).mp h)) (fun h => h1 ((hcond1_1 t).mp h))) (noFlush1_3_B t (fun h => h0 ((hcond1_0 t).mp h)) (fun h => h1 ((hcond1_1 t).mp h)))]
      rw [outsAt1_B V c t h0 h1]
      unfold sout1_B_0; (try dsimp only)
      have hz : t.val ≠ 0 := fun e => h0 (by rw [e])
      rw [PhiS_castSucc V c t, PhiS_pos V c _ _ hz]
      iintro ⟨⟨⟨HR, HS0⟩, Hg⟩, Ho, ⟨%d0, H0⟩, ⟨%d1, H1⟩, ⟨%d2, H2⟩, ⟨%d3, H3⟩⟩
      iapply ((kernelRun1_B c (grid1.coords t) _ _ _ _ _ _ _ _ _ _ (fun h => h0 ((hcond1_0 t).mp h)) (fun h => h1 ((hcond1_1 t).mp h)) (iblk1 V c 0 t) (iblk1 V c 1 t) (iblk1 V c 2 t) _).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HR HS0 Hg]
      · isplitl [HR HS0]
        · isplitl [HR]; · iexact HR
          unfold owns; iexists _; isplitr
          swap; · iexact HS0
          ipureintro; exact View.read_writes_of_cover _ _ _ _ _ (scover1_B_0 c _ _ _ _ _ _ _ _ _ _ _ _ _ _ _ _ _)
        iexact Hg
      isplitl [Ho]; · iexact Ho
      isplitl [H0]; · iexact H0
      isplitl [H1]; · iexact H1
      isplitl [H2]; · iexact H2
      iexists _; iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After any point but the first the invariant gives the plain one back: the accumulator's contents are forgotten. -/
theorem Phi_out1 (c : Dev nD) (t : Fin (cfg1.N + 1)) (ht : t.val ≠ 0) : (dat1 V c).Φ t ⊢ Pipeline.ΦA spec1 c := by
  rw [show (dat1 V c).Φ t = PhiS V c t.val (Nat.le_of_lt_succ t.isLt) from rfl, PhiS_pos V c _ _ ht]
  refine BIBase.Entails.trans ?_ (PhiA1_join c)
  iintro ⟨⟨HR, HS0⟩, Hg⟩
  isplitl [HR HS0]
  · isplitl [HR]; · iexact HR
    iexists _; iexact HS0
  iexact Hg

/-- The same after the last point. -/
theorem hout1 (c : Dev nD) : (dat1 V c).Φ (Fin.last cfg1.N) ⊢ Pipeline.ΦA spec1 c :=
  Phi_out1 V c _ (by rw [Fin.val_last]; have : cfg1.N = 64 := N_1; omega)

/-! ## The three equations the value is computed from -/

/-- The offsets of a rectangle that is the whole block are zero. -/
theorem hz2 : (![0, 0] : Fin 2 → Nat) = fun _ => 0 := by funext a; fin_cases a <;> rfl

/-- A first step's accumulator: the zeros stored first are what the later load reads back, and the last store covers
    the block, so the accumulator ends at zero plus the product of the two input blocks. -/
theorem sout1_A_0_eq (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : cond1_0 i) (hc1 : ¬cond1_1 i)
    (x0 : Vec F S1024x1024 .bf16) (x1 : Vec F S1024x1024 .bf16) (x2 : Vec F S1x1024 .f32) : sout1_A_0 c i arg3 harg3 arg4 harg4 arg5 harg5 arg6 harg6 arg7 harg7 hc0 hc1 x0 x1 x2 = k1_pay2 (k1_pay1 (F := F)) x0 x1 := by
  unfold sout1_A_0
  rw [View.read_writes_eq_canon _ _ _ (scover1_A_0 c i arg3 harg3 arg4 harg4 arg5 harg5 arg6 harg6 arg7 harg7 hc0 hc1 x0 x1 x2)]
  unfold kernelRun1_A
  dsimp only
  sl_unfold_words
  rw [View.canon_cons_unit_zero (S := S1024x1024) hz2, View.readCov_unit_zero (S := S1024x1024) _ hz2]
  simp only [View.readAt_eq_ld, harg3.read_unread, harg4.read_unread, View.ld_unit_zero (S := S1024x1024) hz2]

/-- A middle step's accumulator: its one store covers the block with what came in plus the product. -/
theorem sout1_B_0_eq (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond1_0 i) (hc1 : ¬cond1_1 i)
    (x0 : Vec F S1024x1024 .bf16) (x1 : Vec F S1024x1024 .bf16) (x2 : Vec F S1x1024 .f32) (xs0 : Vec F S1024x1024 .f32) : sout1_B_0 c i arg3 harg3 arg4 harg4 arg5 harg5 arg6 harg6 arg7 harg7 hc0 hc1 x0 x1 x2 xs0 = k1_pay2 xs0 x0 x1 := by
  unfold sout1_B_0
  rw [View.read_writes_eq_canon _ _ _ (scover1_B_0 c i arg3 harg3 arg4 harg4 arg5 harg5 arg6 harg6 arg7 harg7 hc0 hc1 x0 x1 x2 xs0)]
  unfold kernelRun1_B
  dsimp only
  sl_unfold_words
  rw [View.canon_unit_zero (S := S1024x1024) hz2]
  simp only [View.readAt_eq_ld, harg3.read_unread, harg4.read_unread, harg7.read_unread, View.ld_unit_zero (S := S1024x1024) hz2]

/-- A last step's accumulator: the same. -/
theorem sout1_C_0_eq (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond1_0 i) (hc1 : cond1_1 i)
    (x0 : Vec F S1024x1024 .bf16) (x1 : Vec F S1024x1024 .bf16) (x2 : Vec F S1x1024 .f32) (xs0 : Vec F S1024x1024 .f32) : sout1_C_0 c i arg3 harg3 arg4 harg4 arg5 harg5 arg6 harg6 arg7 harg7 hc0 hc1 x0 x1 x2 xs0 = k1_pay2 xs0 x0 x1 := by
  unfold sout1_C_0
  rw [View.read_writes_eq_canon _ _ _ (scover1_C_0 c i arg3 harg3 arg4 harg4 arg5 harg5 arg6 harg6 arg7 harg7 hc0 hc1 x0 x1 x2 xs0)]
  unfold kernelRun1_C
  dsimp only
  sl_unfold_words
  rw [View.canon_unit_zero (S := S1024x1024) hz2]
  simp only [View.readAt_eq_ld, harg3.read_unread, harg4.read_unread, harg7.read_unread, View.ld_unit_zero (S := S1024x1024) hz2]

/-- A last step's output block: the new accumulator read back, plus the bias row. -/
theorem out1_C_3_eq (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond1_0 i) (hc1 : cond1_1 i)
    (x0 : Vec F S1024x1024 .bf16) (x1 : Vec F S1024x1024 .bf16) (x2 : Vec F S1x1024 .f32) (xs0 : Vec F S1024x1024 .f32) : out1_C_3 c i arg3 harg3 arg4 harg4 arg5 harg5 arg6 harg6 arg7 harg7 hc0 hc1 x0 x1 x2 xs0 = k1_pay3 (k1_pay2 xs0 x0 x1) x2 := by
  unfold out1_C_3
  rw [View.read_writes_eq_canon _ _ _ (cover1_C_3 c i arg3 harg3 arg4 harg4 arg5 harg5 arg6 harg6 arg7 harg7 hc0 hc1 x0 x1 x2 xs0)]
  unfold kernelRun1_C
  dsimp only
  sl_unfold_words
  rw [View.canon_unit_zero (S := S1024x1024) hz2]
  simp only [View.readCov_unit_zero (S := S1024x1024) _ hz2, View.readAt_eq_ld, harg3.read_unread, harg4.read_unread, harg5.read_unread, harg7.read_unread, View.ld_unit_zero (S := S1024x1024) hz2, View.ld_unit_zero (S := S1x1024) hz2]

/-- At a first reduction step the accumulator ends at zero plus the product of the two blocks. -/
theorem outsAt1_first (c : Dev nD) (t : Fin cfg1.N) (h : t.val % 4 = 0) :
    (outsAt1 V c t.val t.isLt).2 = k1_pay2 (k1_pay1 (F := F)) (iblk1 V c 0 t) (iblk1 V c 1 t) := by
  have h0 : t.val % 4 = 0 := h
  have h1 : ¬t.val % 4 = 3 := by omega
  rw [outsAt1_A V c t h0 h1]; dsimp only
  exact sout1_A_0_eq c (grid1.coords t) (ms1_0 t) (hs1_0 t) (ms1_1 t) (hs1_1 t) (ms1_2 t) (hs1_2 t) (ms1_3 t) (hs1_3 t) scM1_0 (Memref.isWhole_whole _) ((hcond1_0 t).mpr h0) (fun h => h1 ((hcond1_1 t).mp h)) (iblk1 V c 0 t) (iblk1 V c 1 t) (iblk1 V c 2 t)

/-- At any other step it ends at what the point before left plus the product of the two blocks. -/
theorem outsAt1_step (c : Dev nD) (t : Fin cfg1.N) (h : t.val % 4 ≠ 0) :
    (outsAt1 V c t.val t.isLt).2 = k1_pay2 (outsAt1 V c (t.val - 1) (Nat.lt_of_le_of_lt (Nat.sub_le _ _) t.isLt)).2 (iblk1 V c 0 t) (iblk1 V c 1 t) := by
  have h0 : ¬t.val % 4 = 0 := h
  by_cases h1 : t.val % 4 = 3
  · rw [outsAt1_C V c t h0 h1]; dsimp only
    exact sout1_C_0_eq c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2
  · rw [outsAt1_B V c t h0 h1]; dsimp only
    exact sout1_B_0_eq c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2

/-- At a last reduction step the output block is the accumulator plus the bias row. -/
theorem outsAt1_flush (c : Dev nD) (t : Fin cfg1.N) (h : t.val % 4 = 3) :
    (outsAt1 V c t.val t.isLt).1 = k1_pay3 (outsAt1 V c t.val t.isLt).2 (iblk1 V c 2 t) := by
  have h1 : t.val % 4 = 3 := h
  have h0 : ¬t.val % 4 = 0 := by omega
  rw [outsAt1_C V c t h0 h1]; dsimp only
  exact (out1_C_3_eq c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2).trans
    (congrArg (fun a => k1_pay3 a (iblk1 V c 2 t)) (sout1_C_0_eq c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2).symm)

end Cert.Kernel.Hand

end
-- ==== Proof.KernelRunBits.lean ====
/-
  The kernel program's run: its two regions and the host stretch between them, from the launch to the return.

  Region 0 (the dequantizing kernel) is entered from the launch memory and leaves the dequantized weight in its
  output array; the host stretch narrows `x` and reshapes the bias into a row; region 1 (the matmul kernel) is
  entered from what those leave and writes the result. The buffer contents at each boundary are a fold from the
  launch memory: a region's arrays at what its write-backs leave, every other buffer as it was. Every weakly fair
  execution terminates with every unscoped buffer at the last boundary's contents; the arguments are never
  written, so they end as launched.
-/
import proofs.«426883_j77292231459026_3_alg».proof.Proof.Gen.Kernel.Regions
import proofs.«426883_j77292231459026_3_alg».proof.Proof.DequantRegionBits
import proofs.«426883_j77292231459026_3_alg».proof.Proof.MatmulRegionBits

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch (region 0's entry: no host operation comes before it). -/
abbrev W0 : Dev nD → Valuation τ sig (Elt F) := fun c b => (s₀ m ρ).mem ((c : Dev nD), b)
/-- The same read at the TensorCore's references: what region 0's proof data take. -/
abbrev V0e : (c : Dev nD) → (b : Ref sig .tc) → Buf (Elt F) ((c : Thread nD τ).loc b) := fun c b => W0 m ρ c b
/-- At region 0's exit: its arrays at what the pipeline leaves, every other buffer as entered. -/
def W1 (c : Dev nD) : Valuation τ sig (Elt F) :=
  Pipeline.withArrays spec0 c (W0 m ρ c) fun w => (dat0 (V0e m ρ) c).arrAt w cfg0.N
theorem W1_arr (c : Dev nD) (w : Fin cfg0.W) :
    W1 m ρ c (Proc.devRef .tc (Pipeline.arrRef spec0 w)) = (dat0 (V0e m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
abbrev V1x : (c : Dev nD) → (b : Ref sig .tc) → Buf (Elt F) ((c : Thread nD τ).loc b) := fun c b => W1 m ρ c b
theorem hF0 (c : Dev nD) (w : Fin cfg0.W) : (dat0 (V0e m ρ) c).arrAt w cfg0.N = V1x m ρ c (Pipeline.arrRef spec0 w) :=
  (W1_arr m ρ c w).symm
theorem hrest0 (c : Dev nD) : ∀ b, b ∉ Finset.univ.image (Pipeline.arrRef spec0) → V1x m ρ c b = V0e m ρ c b :=
  fun b hb => W1_of_ne m ρ c b fun w e => hb (Finset.mem_image.mpr ⟨w, Finset.mem_univ _, e⟩)

/-- After the host stretch (region 1's entry). -/
abbrev W2 : Dev nD → Valuation τ sig (Elt F) := fun c => StableHlo.after hostOps1 (W1 m ρ c)
abbrev V2e : (c : Dev nD) → (b : Ref sig .tc) → Buf (Elt F) ((c : Thread nD τ).loc b) := fun c b => W2 m ρ c b
/-- At region 1's exit. -/
def W3 (c : Dev nD) : Valuation τ sig (Elt F) :=
  Pipeline.withArrays spec1 c (W2 m ρ c) fun w => (dat1 (V2e m ρ) c).arrAt w cfg1.N
theorem W3_arr (c : Dev nD) (w : Fin cfg1.W) :
    W3 m ρ c (Proc.devRef .tc (Pipeline.arrRef spec1 w)) = (dat1 (V2e m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3x : (c : Dev nD) → (b : Ref sig .tc) → Buf (Elt F) ((c : Thread nD τ).loc b) := fun c b => W3 m ρ c b
theorem hF1 (c : Dev nD) (w : Fin cfg1.W) : (dat1 (V2e m ρ) c).arrAt w cfg1.N = V3x m ρ c (Pipeline.arrRef spec1 w) :=
  (W3_arr m ρ c w).symm
theorem hrest1 (c : Dev nD) : ∀ b, b ∉ Finset.univ.image (Pipeline.arrRef spec1) → V3x m ρ c b = V2e m ρ c b :=
  fun b hb => W3_of_ne m ρ c b fun w e => hb (Finset.mem_image.mpr ⟨w, Finset.mem_univ _, e⟩)

/-! ### The arguments end as launched -/

/-- `main_arg0` ends as launched: region 1 and the host stretch bypass it, region 0 bypasses it. -/
theorem W3_main_arg0 (c : Dev nD) : W3 m ρ c (Proc.devRef .tc main_arg0) = m ((c : Thread nD τ).loc main_arg0) :=
  (W3_of_ne m ρ c main_arg0 (by decide)).trans <| (StableHlo.after_of_writes_sub hostOps1 _ hostOps1_writes (by decide : main_arg0 ∉ hostOps1_W)).trans <|
    (W1_of_ne m ρ c main_arg0 (by decide)).trans rfl

/-- `main_arg1` ends as launched: region 1 and the host stretch bypass it, region 0 only reads it, through window 0. -/
theorem W3_main_arg1 (c : Dev nD) : W3 m ρ c (Proc.devRef .tc main_arg1) = m ((c : Thread nD τ).loc main_arg1) :=
  (W3_of_ne m ρ c main_arg1 (by decide)).trans <| (StableHlo.after_of_writes_sub hostOps1 _ hostOps1_writes (by decide : main_arg1 ∉ hostOps1_W)).trans <|
    ((W1_arr m ρ c 0).trans (((dat0 (V0e m ρ) c).arrAt_in 0 rfl _).trans (A_eq0 (V0e m ρ) c 0))).trans rfl

/-- `main_arg2` ends as launched: region 1 and the host stretch bypass it, region 0 only reads it, through window 1. -/
theorem W3_main_arg2 (c : Dev nD) : W3 m ρ c (Proc.devRef .tc main_arg2) = m ((c : Thread nD τ).loc main_arg2) :=
  (W3_of_ne m ρ c main_arg2 (by decide)).trans <| (StableHlo.after_of_writes_sub hostOps1 _ hostOps1_writes (by decide : main_arg2 ∉ hostOps1_W)).trans <|
    ((W1_arr m ρ c 1).trans (((dat0 (V0e m ρ) c).arrAt_in 1 rfl _).trans (A_eq0 (V0e m ρ) c 1))).trans rfl

/-- `main_arg3` ends as launched: region 1 and the host stretch bypass it, region 0 only reads it, through window 2. -/
theorem W3_main_arg3 (c : Dev nD) : W3 m ρ c (Proc.devRef .tc main_arg3) = m ((c : Thread nD τ).loc main_arg3) :=
  (W3_of_ne m ρ c main_arg3 (by decide)).trans <| (StableHlo.after_of_writes_sub hostOps1 _ hostOps1_writes (by decide : main_arg3 ∉ hostOps1_W)).trans <|
    ((W1_arr m ρ c 2).trans (((dat0 (V0e m ρ) c).arrAt_in 2 rfl _).trans (A_eq0 (V0e m ρ) c 2))).trans rfl

/-- `main_arg4` ends as launched: region 1 and the host stretch bypass it, region 0 bypasses it. -/
theorem W3_main_arg4 (c : Dev nD) : W3 m ρ c (Proc.devRef .tc main_arg4) = m ((c : Thread nD τ).loc main_arg4) :=
  (W3_of_ne m ρ c main_arg4 (by decide)).trans <| (StableHlo.after_of_writes_sub hostOps1 _ hostOps1_writes (by decide : main_arg4 ∉ hostOps1_W)).trans <|
    (W1_of_ne m ρ c main_arg4 (by decide)).trans rfl

/-- The result buffer ends at what region 1's write-backs leave in its output array. -/
theorem W3_main_v3 (c : Dev nD) : W3 m ρ c (Proc.devRef .tc main_v3) = (dat1 (V2e m ρ) c).arrAt 3 cfg1.N :=
  W3_arr m ρ c 3

/-- Region 1 finds the weight array as region 0 left it: the host stretch does not write it. -/
theorem V2e_main_v0 (c : Dev nD) : V2e m ρ c main_v0 = (dat0 (V0e m ρ) c).arrAt 3 cfg0.N :=
  (StableHlo.after_of_writes_sub hostOps1 _ hostOps1_writes (by decide : main_v0 ∉ hostOps1_W)).trans (W1_arr m ρ c 3)

/-! ## The proof data family and the thread state -/

/-- No pipeline has a prefetched table. -/
abbrev adm' : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm' p) c
  | ⟨0, _⟩ => fun c => dat0 (V0e m ρ) c
  | ⟨1, _⟩ => fun c => dat1 (V2e m ρ) c
abbrev 𝒱₀ : Variants := Variants.none
/-- No core owes another anything. -/
abbrev L₀ : GSem nD τ sig → Finset Unit := fun _ => ∅
abbrev lv₀ : GSem nD τ sig → Unit → ℕ := fun _ _ => 0
/-- What rides beside the buffers through every segment: the core's generator register at some state and its
    `owes`, at nothing. -/
abbrev R (c : Dev nD) : sProp 𝕄 := iprop((∃ r, prngReg c r) ∗ ∃ W, owes (c : Thread nD τ) (0 : CellTallies nD τ sig Unit) W)
/-- The host stretch as a segment over the unscoped references from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L₀ lv₀ :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W3 m ρ c) ∗ ∃ r, prngReg c r)

/-! ## The regions as segments -/

set_option backward.isDefEq.respectTransparency.types false in
/-- Region 0 over the thread state: entered from every unscoped buffer at the launch contents, left at `W1`. -/
def reg0 : Pipeline.RegionSeg (pcfgs (F := F)) adm' (pdats m ρ) () defs₀ 𝒱₀ L₀ lv₀ 0 where
  win := launch0.win.to₀
  block_pos := launch0.block_pos
  stage_whole := launch0.stage_whole
  K := PEmpty
  osem k := k.elim
  ho := Pipeline.OwnSemFacts.none _
  hbody c := (body_obligation0 (V0e m ρ) c).loose
  hwaits := Pipeline.hwaits_of_owed_zero _ _ _ _ L₀ lv₀ 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0e m ρ c)
  hentry c := by
    rw [Pipeline.ownSems0_none]
    have hsplit := Pipeline.arrays_of_unscopedBufs (p := 0) (pcfgs (F := F)) adm' (pdats m ρ) launch0.win launch0.arr_whole c
      ((pdats m ρ 0 c).share_full fun _ => rfl) (V0e m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm' (Ix := Unit) (Name := ℕ) (U := UR sig nD τ) (Lvl := ℕ)
      launch0.win launch0.arr_whole c (pdats m ρ) ((pdats m ρ 0 c).share_full fun _ => rfl)
      (V0e m ρ c) (V1x m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- What the launch hands region 1 makes the class's invariant (the scoped rest and the generator register). -/
theorem toΦA1 (c : Dev nD) :
    (iprop((∃ r, prngReg c r) ∗ Pipeline.prefHeld (pcfgs (F := F) 1).pre c (fun _ => fullShare) (adm' (F := F) 1).1 ∗ Pipeline.scopedRest (Pipeline.pin (pcfgs (F := F)) adm' 1).spec c) : sProp 𝕄)
      ⊢ Pipeline.ΦA spec1 c := by
  unfold Pipeline.ΦA
  iintro ⟨Hp, -, Hr⟩
  isplitl [Hr]; · iexact Hr
  iexact Hp

/-- and the class's invariant gives them back. -/
theorem ofΦA1 (c : Dev nD) :
    (Pipeline.ΦA spec1 c : sProp 𝕄) ⊢ iprop((∃ r, prngReg c r) ∗ Pipeline.ownSems0 (fun k : PEmpty => k.elim) c ∗ Pipeline.scopedRest (Pipeline.pin (pcfgs (F := F)) adm' 1).spec c) := by
  rw [Pipeline.ownSems0_none]; unfold Pipeline.ΦA
  iintro ⟨Hr, Hp⟩
  isplitl [Hp]; · iexact Hp
  isplitr; · iempintro
  iexact Hr

set_option backward.isDefEq.respectTransparency.types false in
/-- Region 1 over the thread state: entered from every unscoped buffer at `W2`, left at `W3`. Its invariant carries
    the accumulator between points: it starts as the class's and ends giving the class's back. -/
def reg1 : Pipeline.RegionSeg (pcfgs (F := F)) adm' (pdats m ρ) () defs₀ 𝒱₀ L₀ lv₀ 1 where
  win := launch1.win.to₀
  block_pos := launch1.block_pos
  stage_whole := launch1.stage_whole
  K := PEmpty
  osem k := k.elim
  ho := Pipeline.OwnSemFacts.none _
  hbody c := (body_obligation1 (V2e m ρ) c).loose
  hwaits := Pipeline.hwaits_of_owed_zero _ _ _ _ L₀ lv₀ 1 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2e m ρ c)
  hentry c := by
    rw [Pipeline.ownSems0_none]
    have hsplit := Pipeline.arrays_of_unscopedBufs (p := 1) (pcfgs (F := F)) adm' (pdats m ρ) launch1.win launch1.arr_whole c
      ((pdats m ρ 1 c).share_full fun _ => rfl) (V2e m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := (toΦA1 c).trans (hin1 (V2e m ρ) c)
  hout c := (hout1 (V2e m ρ) c).trans (ofΦA1 c)
  hexit c := by
    have hjoin := Pipeline.unscopedBufs_of_arrays (p := 1) (pcfgs (F := F)) adm' (Ix := Unit) (Name := ℕ) (U := UR sig nD τ) (Lvl := ℕ)
      launch1.win launch1.arr_whole c (pdats m ρ) ((pdats m ρ 1 c).share_full fun _ => rfl)
      (V2e m ρ c) (V3x m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's three segments in order. -/
abbrev segs : List (Pipeline.Seg (pcfgs (F := F)) adm' (pdats m ρ) () defs₀ 𝒱₀ L₀ lv₀) :=
  [ .region (reg0 m ρ),
    .host (hseg hostOps1 hostOps1_sub hostOps1_fresh (W1 m ρ)),
    .region (reg1 m ρ) ]
/-- @main is the run of the segments. -/
theorem main_run (c : Dev nD) : main (F := F) c = Pipeline.Seg.run (segs m ρ) := (main_chain c).trans (by chain_rfl)

set_option backward.isDefEq.respectTransparency.types false in
/-- THE RUN: from any memory with zero counters every weakly fair execution of @main terminates, nothing faulting,
    and every final state has every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit (pcfgs (F := F)) adm' (pdats m ρ) () cellOf_inj emb₁ defs₀ 𝒱₀ L₀ lv₀ m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L₀ lv₀ fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c => h c)

/-- The frame: the arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨(h c _ (mem_uc main_arg0 (by decide))).trans (W3_main_arg0 m ρ c),
     (h c _ (mem_uc main_arg1 (by decide))).trans (W3_main_arg1 m ρ c),
     (h c _ (mem_uc main_arg2 (by decide))).trans (W3_main_arg2 m ρ c),
     (h c _ (mem_uc main_arg3 (by decide))).trans (W3_main_arg3 m ρ c),
     (h c _ (mem_uc main_arg4 (by decide))).trans (W3_main_arg4 m ρ c)⟩) (run_all m ρ)

/-- The run with the result named: the result buffer ends at what region 1's write-backs leave in its output array,
    the arguments as launched. -/
theorem run_result : θ_run defs (onTc (τ := τ) (main (F := F))) ⟨m, fun _ => 0, ρ⟩ (fun r => ∀ c : Dev nD,
      r.2.mem ((c.tc : Thread nD τ).loc main_v3) = (dat1 (V2e m ρ) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨(h c _ (mem_uc main_v3 (by decide))).trans (W3_main_v3 m ρ c),
     (h c _ (mem_uc main_arg0 (by decide))).trans (W3_main_arg0 m ρ c),
     (h c _ (mem_uc main_arg1 (by decide))).trans (W3_main_arg1 m ρ c),
     (h c _ (mem_uc main_arg2 (by decide))).trans (W3_main_arg2 m ρ c),
     (h c _ (mem_uc main_arg3 (by decide))).trans (W3_main_arg3 m ρ c),
     (h c _ (mem_uc main_arg4 (by decide))).trans (W3_main_arg4 m ρ c)⟩) (run_all m ρ)

end Cert.Kernel.Hand

end
-- ==== Proof.DequantOut.lean ====
/-
  What the dequantizing kernel leaves in its output block, as a function of its three input blocks.

  A grid point handles 256 weight rows. The body walks the 4096 columns in four chunks of 1024: chunk `g` reads the
  128 packed words `[128 g, 128 g + 128)` of each row, the row's zero-point word `g` and its eight scales
  `[8 g, 8 g + 8)`, and stores the 256 × 1024 dequantized values at columns `[1024 g, 1024 g + 1024)`. The four stores
  tile the block, so the block after the body is their pieces read back.
-/
import proofs.«426883_j77292231459026_3_alg».proof.Proof.Gen.KernelIdeal.Skeleton
import Idealize.ShloMosaic.Lib.Pipeline.FrameBody

noncomputable section

namespace Cert.KernelIdeal.Hand

open Cert.KernelIdeal Cert.KernelIdeal.Gen Idealize.ShloMosaic

variable {F : FTy → Type} [FloatOps F]

/-- Chunk `g`'s packed words: columns `[128 g, 128 g + 128)` of the 256 × 512 block. -/
abbrev rQ0 : Rect S256x512 := Rect.unit (s := S256x512) ![0, 0] S256x128.size inb_S256x512_S256x128_0_0
abbrev rQ1 : Rect S256x512 := Rect.unit (s := S256x512) ![0, 128] S256x128.size inb_S256x512_S256x128_0_128
abbrev rQ2 : Rect S256x512 := Rect.unit (s := S256x512) ![0, 256] S256x128.size inb_S256x512_S256x128_0_256
abbrev rQ3 : Rect S256x512 := Rect.unit (s := S256x512) ![0, 384] S256x128.size inb_S256x512_S256x128_0_384
/-- Chunk `g`'s zero-point word: column `g` of the 256 × 4 block. -/
abbrev rZ0 : Rect S256x4 := Rect.unit (s := S256x4) ![0, 0] S256x1.size inb_S256x4_S256x1_0_0
abbrev rZ1 : Rect S256x4 := Rect.unit (s := S256x4) ![0, 1] S256x1.size inb_S256x4_S256x1_0_1
abbrev rZ2 : Rect S256x4 := Rect.unit (s := S256x4) ![0, 2] S256x1.size inb_S256x4_S256x1_0_2
abbrev rZ3 : Rect S256x4 := Rect.unit (s := S256x4) ![0, 3] S256x1.size inb_S256x4_S256x1_0_3
/-- Chunk `g`'s scales: columns `[8 g, 8 g + 8)` of the 256 × 32 block. -/
abbrev rS0 : Rect S256x32 := Rect.unit (s := S256x32) ![0, 0] S256x8.size inb_S256x32_S256x8_0_0
abbrev rS1 : Rect S256x32 := Rect.unit (s := S256x32) ![0, 8] S256x8.size inb_S256x32_S256x8_0_8
abbrev rS2 : Rect S256x32 := Rect.unit (s := S256x32) ![0, 16] S256x8.size inb_S256x32_S256x8_0_16
abbrev rS3 : Rect S256x32 := Rect.unit (s := S256x32) ![0, 24] S256x8.size inb_S256x32_S256x8_0_24
/-- Chunk `g`'s output columns `[1024 g, 1024 g + 1024)` of the 256 × 4096 block. -/
abbrev rO0 : Rect S256x4096 := Rect.unit (s := S256x4096) ![0, 0] S256x1024.size inb_S256x4096_S256x1024_0_0
abbrev rO1 : Rect S256x4096 := Rect.unit (s := S256x4096) ![0, 1024] S256x1024.size inb_S256x4096_S256x1024_0_1024
abbrev rO2 : Rect S256x4096 := Rect.unit (s := S256x4096) ![0, 2048] S256x1024.size inb_S256x4096_S256x1024_0_2048
abbrev rO3 : Rect S256x4096 := Rect.unit (s := S256x4096) ![0, 3072] S256x1024.size inb_S256x4096_S256x1024_0_3072

/-- The four chunks' stored values, from the input blocks (packed words, zero-point words, scales). -/
def chunk0 (x0 : Vec F S256x512 .i32) (x1 : Vec F S256x4 .i32) (x2 : Vec F S256x32 .f32) : FVec F S256x1024 .bf16 :=
  k0_pay5 (View.ld x0 rQ0) (View.ld x1 rZ0) (View.ld x2 rS0)
def chunk1 (x0 : Vec F S256x512 .i32) (x1 : Vec F S256x4 .i32) (x2 : Vec F S256x32 .f32) : FVec F S256x1024 .bf16 :=
  k0_pay8 k0_pay4 (k0_pay6 (F := F) (View.ld x0 rQ1)) k0_pay7 (View.ld x1 rZ1) (View.ld x2 rS1)
def chunk2 (x0 : Vec F S256x512 .i32) (x1 : Vec F S256x4 .i32) (x2 : Vec F S256x32 .f32) : FVec F S256x1024 .bf16 :=
  k0_pay1 (k0_pay9 k0_pay3 (View.ld x0 rQ2)) (k0_pay10 k0_pay4 (View.ld x1 rZ2)) (View.ld x2 rS2)
def chunk3 (x0 : Vec F S256x512 .i32) (x1 : Vec F S256x4 .i32) (x2 : Vec F S256x32 .f32) : FVec F S256x1024 .bf16 :=
  k0_pay2 k0_pay3 k0_pay4 (View.ld x0 rQ3) (View.ld x1 rZ3) (View.ld x2 rS3)

/-- The output block after the body: the four stores as pieces, last first. -/
def out0_3 (x0 : Vec F S256x512 .i32) (x1 : Vec F S256x4 .i32) (x2 : Vec F S256x32 .f32) : Vec F S256x4096 .bf16 :=
  View.canon [⟨rO3, chunk3 x0 x1 x2⟩, ⟨rO2, chunk2 x0 x1 x2⟩, ⟨rO1, chunk1 x0 x1 x2⟩, ⟨rO0, chunk0 x0 x1 x2⟩]

end Cert.KernelIdeal.Hand

end
-- ==== Proof.DequantRegion.lean ====
/-
  The dequantizing kernel's region: its proof data and its body obligation, at any contents `V` of the buffers
  when the region is entered, and at any float instance.

  At every one of the 16 grid points the three input windows (packed words, zero-point words, scales) are fetched
  and the output window is written back. The body reads the inputs' blocks and overwrites the whole output block
  with four stores of 256 × 1024 values; what it leaves there is `out0_3` of the three input blocks.
-/
import proofs.«426883_j77292231459026_3_alg».proof.Proof.Gen.KernelIdeal.Launch
import proofs.«426883_j77292231459026_3_alg».proof.Proof.Gen.KernelIdeal.Skeleton
import proofs.«426883_j77292231459026_3_alg».proof.Proof.Gen.KernelIdeal.Points
import proofs.«426883_j77292231459026_3_alg».proof.Proof.DequantOut
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents when the region is entered
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! ## The pipeline's proof data -/

/-- The proof data of the region on core `c`: the arrays as the region finds them (`V`); after the body at point `t`
    each input's buffer at its block and the output's at `out0_3` of the three input blocks; the invariant is the
    untouched rest; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

/-- Each input window's current staging buffer holds its block at every point, fetched there or not, for any proof
    data whose array is `V`'s (`hA`) and whose body leaves the block in place (`hafter`): the window is uncut and
    never idle, so an unfetched buffer still holds the block the index has not moved off. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## What the body leaves in the output window's buffer -/

/-- The four stores' rectangles tile the 256 × 4096 block, so they cover it. -/
theorem cover0_3 (p3 p2 p1 p0 : Vec F S256x1024 .bf16) (y : S256x4096.Idx) :
    ∃ pc ∈ ([⟨rO3, p3⟩, ⟨rO2, p2⟩, ⟨rO1, p1⟩, ⟨rO0, p0⟩] : List (View.Piece (Elt F) S256x4096 .bf16)), y ∈ pc.1.set :=
  View.cover_of_tiled [⟨rO3, p3⟩, ⟨rO2, p2⟩, ⟨rO1, p1⟩, ⟨rO0, p0⟩] S256x1024.size (by rfl) y

/-! ## The body's triple -/

set_option maxHeartbeats 4000000 in
/-- The kernel body on whole staging memrefs, the inputs' at read contents `x0`, `x1`, `x2` and the output's at
    anything, runs to the continuation holding the inputs' as they were and the output's at `out0_3` of the inputs':
    every load of an input reads the block through its rectangle, each of the four loads of the output is of a value
    nobody uses, and the four stores tile the output block, so what the block read before is gone. -/
theorem sound_kernel0 (c : Dev nD) (E : Set ℕ) (i : grid0.Coords)
    (arg1 : Memref sig .tc .vmem S256x512 .i32) (harg1 : arg1.IsWhole) (arg2 : Memref sig .tc .vmem S256x4 .i32) (harg2 : arg2.IsWhole)
    (arg3 : Memref sig .tc .vmem S256x32 .f32) (harg3 : arg3.IsWhole) (arg4 : Memref sig .tc .vmem S256x4096 .bf16) (harg4 : arg4.IsWhole)
    (x0 : Vec F S256x512 .i32) (x1 : Vec F S256x4 .i32) (x2 : Vec F S256x32 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__dequant_kernel i arg1 harg1 arg2 harg2 arg3 harg3 arg4 harg4) K := by
  unfold owns
  iintro ⟨⟨%f0, %hf0, H0⟩, ⟨%f1, %hf1, H1⟩, ⟨%f2, %hf2, H2⟩, ⟨%d3, %f3, -, H3⟩, Hk⟩
  subst hf0; subst hf1; subst hf2
  sl_unfold [cc0__dequant_kernel]
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _ _ _ _)

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t`: the invariant, what the core owes, and the four windows' current
    staging buffers, each whole at what the pipeline left there, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns: the same, the buffers at what the proof data says the body leaves. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks (`before0_W`), so `sound_kernel0` applies at the three
    blocks; the invariant and what the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.MatmulRuns.lean ====
/-
  The matmul kernel's region: what its three kinds of grid point share.

  The kernel walks a 4 × 4 × 4 grid; the last coordinate `k` is the reduction step. At every point it adds the product
  of an x block and a weight block (both 1024 × 1024, contracted along their second axes) to a 1024 × 1024 accumulator
  that lives in a scratch buffer and is carried from point to point. At `k = 0` it first zeroes the accumulator; at
  `k = 3` it stores accumulator plus bias row into the output block, which is written back there and nowhere else.
  So a point is of one of three kinds: first (`k = 0`), middle (`k = 1, 2`), last (`k = 3`).

  Here: the two conditions in closed form over the grid, where the output window is idle, the memrefs the body is
  called with, and the region's invariant taken apart into the accumulator and the rest.
-/
import proofs.«426883_j77292231459026_3_alg».proof.Proof.Gen.KernelIdeal.Launch
import proofs.«426883_j77292231459026_3_alg».proof.Proof.Gen.KernelIdeal.Skeleton
import proofs.«426883_j77292231459026_3_alg».proof.Proof.Gen.KernelIdeal.Points
import Idealize.ShloMosaic.Lib.Pipeline.FrameBody
import Idealize.ShloMosaic.Lib.Ring
import Idealize.ShloMosaic.Lib.Tactic

-- membership in a rectangle of these extents is decided by a structural look that recurses once per coordinate
-- of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's two conditions, in closed form over the grid

The grid is 4 × 4 × 4, walked row-major: point `t` has coordinates `(t / 16, t / 4 % 4, t % 4)`, the last one the
reduction step `k`. The body resets the accumulator when `k = 0` and stores the output block when `k = 3`. -/

/-- The reduction step is the first (`k = 0`): the body zeroes the accumulator before it adds. -/
abbrev cond1_0 (i : grid1.Coords) : Prop := (Scalar.cmpi .ne (Scalar.extui (Scalar.cmpi .eq (BitVec.ofNat 32 (i 2).val) 0#32)) 0#32) = 1#1
/-- It holds exactly at the points `≡ 0 (mod 4)`. -/
theorem hcond1_0 : ∀ t : Fin cfg1.N, cond1_0 (grid1.coords t) ↔ t.val % 4 = 0 :=
  (by decide +kernel : ∀ t : Fin grid1.N, cond1_0 (grid1.coords t) ↔ t.val % 4 = 0)

/-- The reduction step is the last (`k = 3`): the body stores accumulator plus bias into the output block. -/
abbrev cond1_1 (i : grid1.Coords) : Prop := k1_cond2 i = 1#1
/-- It holds exactly at the points `≡ 3 (mod 4)`. -/
theorem hcond1_1 : ∀ t : Fin cfg1.N, cond1_1 (grid1.coords t) ↔ t.val % 4 = 3 :=
  (by decide +kernel : ∀ t : Fin grid1.N, cond1_1 (grid1.coords t) ↔ t.val % 4 = 3)

/-! ## Where the windows are idle

The three inputs are never idle. The output window is idle wherever `k ≠ 3`: the body stores nothing into it there and
its block is not written back; at `k = 3` it is live. -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem idleAt1_3_A : ∀ t : Fin cfg1.N, cond1_0 (grid1.coords t) → ¬cond1_1 (grid1.coords t) → cfg1.idle 3 (grid1.coords t) = true := by decide +kernel
theorem noFlush1_3_A : ∀ t : Fin cfg1.N, cond1_0 (grid1.coords t) → ¬cond1_1 (grid1.coords t) → (cfg1.win 3).flush t = false := by decide +kernel
theorem idleAt1_3_B : ∀ t : Fin cfg1.N, ¬cond1_0 (grid1.coords t) → ¬cond1_1 (grid1.coords t) → cfg1.idle 3 (grid1.coords t) = true := by decide +kernel
theorem noFlush1_3_B : ∀ t : Fin cfg1.N, ¬cond1_0 (grid1.coords t) → ¬cond1_1 (grid1.coords t) → (cfg1.win 3).flush t = false := by decide +kernel
theorem liveAt1_3_C : ∀ t : Fin cfg1.N, ¬cond1_0 (grid1.coords t) → cond1_1 (grid1.coords t) → cfg1.idle 3 (grid1.coords t) = false := by decide +kernel

/-! ## The memrefs the body is called with -/

/-- One staging buffer of the output window, through which its contents are stated (the choice does not matter). -/
abbrev VO1_3 : View sig .tc .vmem S1024x1024 .f32 := (Memref.whole cc1_stg3_0 : Memref sig .tc .vmem S1024x1024 .f32).view
/-- Each window's current staging memref at point `t`, and its wholeness. -/
abbrev ms1_0 (t : Fin cfg1.N) : Memref sig .tc .vmem S1024x1024 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x1024 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1024 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x1024 .f32 := win1_3.stage (cfg1.slots t 3)
abbrev hs1_3 (t : Fin cfg1.N) : (ms1_3 t).IsWhole := hstage1_3 ((cfg1.slots t 3).cast nbuf1_3)
/-- The accumulator: a whole scoped buffer of the kernel's own, passed beside the windows and carried from point to point. -/
abbrev scM1_0 : Memref sig .tc .vmem S1024x1024 .f32 := Memref.whole cc1_scratch0
/-- The accumulator as a view: what it holds is stated through it. -/
abbrev VS1_0 : View sig .tc .vmem S1024x1024 .f32 := scM1_0.view

/-! ## The region's invariant, taken apart

Besides the accumulator the core's scoped buffers that this region does not stage are the eight staging buffers of
the other region; the body never touches them. -/

/-- The other region's eight staging buffers, each at some contents. -/
def rest1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f))

/-- The region's invariant with the accumulator as a memref owned at some contents. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ d, owns (c : Thread nD τ) scM1_0 fullShare d)) ∗ (∃ r, prngReg c r)) := by
  unfold Pipeline.ΦA; rw [scopedRest1_eq]; simp only [scM1_0, owns_whole]; try rfl

/-- The invariant hands out the untouched rest, the accumulator at some contents, and the generator register. -/
theorem PhiA1_split (c : Dev nD) :
    (Pipeline.ΦA spec1 c : sProp 𝕄)
      ⊢ iprop(iprop(rest1 (F := F) c ∗ (∃ d, owns (c : Thread nD τ) scM1_0 fullShare d)) ∗ (∃ r, prngReg c r)) := by
  rw [PhiA1_eq]; unfold rest1
  iintro ⟨⟨H0, H1, H2, H3, H4, H5, H6, H7, HS⟩, Hg⟩
  isplitl [H0 H1 H2 H3 H4 H5 H6 H7 HS]
  · isplitl [H0 H1 H2 H3 H4 H5 H6 H7]
    · isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
    iexact HS
  iexact Hg

/-- and takes them back. -/
theorem PhiA1_join (c : Dev nD) :
    iprop(iprop(rest1 (F := F) c ∗ (∃ d, owns (c : Thread nD τ) scM1_0 fullShare d)) ∗ (∃ r, prngReg c r))
      ⊢ (Pipeline.ΦA spec1 c : sProp 𝕄) := by
  rw [PhiA1_eq]; unfold rest1
  iintro ⟨⟨⟨H0, H1, H2, H3, H4, H5, H6, H7⟩, HS⟩, Hg⟩
  isplitl [H0 H1 H2 H3 H4 H5 H6 H7 HS]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact HS
  iexact Hg

end Cert.KernelIdeal.Hand

end
-- ==== Proof.MatmulRunA.lean ====
/-
  The matmul kernel's body at a first reduction step (`k = 0`): the accumulator is zeroed, then gets the product of
  the two blocks added; the output buffer is not touched.
-/
import proofs.«426883_j77292231459026_3_alg».proof.Proof.MatmulRuns

-- membership in a rectangle of these extents is decided by a structural look that recurses once per coordinate
-- of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- THE BODY AT A FIRST REDUCTION STEP (`k = 0`). On whole memrefs — the three input blocks at their contents, the
    output buffer at contents `xi3` that it does not touch, the accumulator at anything — the body runs to a
    continuation holding the inputs and the output buffer as they were and the accumulator with the pieces `LS0`
    written: first the zeros, then the zeros read back plus the product of the two blocks. No piece goes to the
    output buffer. -/
noncomputable def kernelRun1_A (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : cond1_0 i) (hc1 : ¬cond1_1 i)
    (x0 : Vec F S1024x1024 .bf16) (x1 : Vec F S1024x1024 .bf16) (x2 : Vec F S1x1024 .f32) :
    Σ' (L3 : List (View.Piece (Elt F) S1024x1024 .f32)), { LS0 : List (View.Piece (Elt F) S1024x1024 .f32) //
      ∀ (xi3 : Vec F S1024x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ (∃ d, owns (c : Thread nD τ) arg7 fullShare d)
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0)) -∗ K ⟨⟩))
          ⊢ wp frame (wpE (defs₀ (F := F)) Variants.none c none) E (cc1__matmul_kernel i arg3 harg3 arg4 harg4 arg5 harg5 arg6 harg6 arg7 harg7) K } := by
  refine ⟨[], ?_, fun xi3 E K => ?run⟩
  case run =>
    simp only [cc1__matmul_kernel_eq_skeleton]; unfold cc1__matmul_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg3.eq_unread hf0; obtain rfl := harg4.eq_unread hf1; obtain rfl := harg5.eq_unread hf2; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS0

end Cert.KernelIdeal.Hand

end
-- ==== Proof.MatmulRunB.lean ====
/-
  The matmul kernel's body at a middle reduction step (`k = 1, 2`): the accumulator gets the product of the two blocks
  added; the output buffer is not touched.
-/
import proofs.«426883_j77292231459026_3_alg».proof.Proof.MatmulRunA

-- membership in a rectangle of these extents is decided by a structural look that recurses once per coordinate
-- of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- THE BODY AT A MIDDLE REDUCTION STEP (`k = 1, 2`). The accumulator comes in at the contents `xs0` the point
    before left; the body leaves it with one piece written, `xs0` plus the product of the two blocks. The output buffer,
    at `xi3`, is not touched. -/
noncomputable def kernelRun1_B (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond1_0 i) (hc1 : ¬cond1_1 i)
    (x0 : Vec F S1024x1024 .bf16) (x1 : Vec F S1024x1024 .bf16) (x2 : Vec F S1x1024 .f32) (xs0 : Vec F S1024x1024 .f32) :
    Σ' (L3 : List (View.Piece (Elt F) S1024x1024 .f32)), { LS0 : List (View.Piece (Elt F) S1024x1024 .f32) //
      ∀ (xi3 : Vec F S1024x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ owns (c : Thread nD τ) arg7 fullShare xs0
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0)) -∗ K ⟨⟩))
          ⊢ wp frame (wpE (defs₀ (F := F)) Variants.none c none) E (cc1__matmul_kernel i arg3 harg3 arg4 harg4 arg5 harg5 arg6 harg6 arg7 harg7) K } := by
  refine ⟨[], ?_, fun xi3 E K => ?run⟩
  case run =>
    simp only [cc1__matmul_kernel_eq_skeleton]; unfold cc1__matmul_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS0

end Cert.KernelIdeal.Hand

end
-- ==== Proof.MatmulRunC.lean ====
/-
  The matmul kernel's body at a last reduction step (`k = 3`): the accumulator gets the product of the two blocks
  added, and accumulator plus bias row goes to the output buffer.
-/
import proofs.«426883_j77292231459026_3_alg».proof.Proof.MatmulRunB

-- membership in a rectangle of these extents is decided by a structural look that recurses once per coordinate
-- of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- THE BODY AT A LAST REDUCTION STEP (`k = 3`). The accumulator comes in at `xs0` and gets `xs0` plus the product
    of the two blocks; the output buffer, at anything, gets one piece `L3`: the new accumulator read back plus the
    bias row broadcast down the rows. -/
noncomputable def kernelRun1_C (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond1_0 i) (hc1 : cond1_1 i)
    (x0 : Vec F S1024x1024 .bf16) (x1 : Vec F S1024x1024 .bf16) (x2 : Vec F S1x1024 .f32) (xs0 : Vec F S1024x1024 .f32) :
    Σ' (L3 : List (View.Piece (Elt F) S1024x1024 .f32)), { LS0 : List (View.Piece (Elt F) S1024x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xs0
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f LS0)) -∗ K ⟨⟩))
          ⊢ wp frame (wpE (defs₀ (F := F)) Variants.none c none) E (cc1__matmul_kernel i arg3 harg3 arg4 harg4 arg5 harg5 arg6 harg6 arg7 harg7) K } := by
  refine ⟨?_, ?_, fun E K => ?run⟩
  case run =>
    simp only [cc1__matmul_kernel_eq_skeleton]; unfold cc1__matmul_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg3.eq_unread hf0; obtain rfl := harg4.eq_unread hf1; obtain rfl := harg5.eq_unread hf2; obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    iexists _; iexact HS0

end Cert.KernelIdeal.Hand

end
-- ==== Proof.MatmulRegion.lean ====
/-
  The matmul kernel's region: its proof data and its body obligation, at any contents `V` of the buffers when the
  region is entered, and at any float instance.

  What the output buffer and the accumulator hold after each of the 64 points is defined by recursion on the point
  (`outsAt1`): a first step starts the accumulator afresh, a middle or last step continues from what the point before
  left, a last step also fills the output block. The invariant between points carries the accumulator at exactly those
  contents. The three closing equations say what the recursion computes in terms of the kernel's arithmetic.
-/
import proofs.«426883_j77292231459026_3_alg».proof.Proof.MatmulRunC
import Idealize.ShloMosaic.Lib.Pipeline.Value

-- membership in a rectangle of these extents is decided by a structural look that recurses once per coordinate
-- of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents when the region is entered
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not (an unfetched
    window's block index has not moved), for any proof data whose array is `V`'s and whose body leaves the block in
    place. The bias row (window 2) is fetched only at the first reduction step and read at the last: this is what
    carries it across. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## What each kind of step leaves in the output buffer and in the accumulator -/

/-- A first step stores nothing into the output buffer: a placeholder that nothing consults, since at these
    points the window is neither written back nor read at the next point. -/
def out1_A_3 (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : cond1_0 i) (hc1 : ¬cond1_1 i)
    (x0 : Vec F S1024x1024 .bf16) (x1 : Vec F S1024x1024 .bf16) (x2 : Vec F S1x1024 .f32) : Vec F S1024x1024 .f32 :=
  VO1_3.read (Elt F) (VO1_3.writes (Elt F) VO1_3.junk (kernelRun1_A c i arg3 harg3 arg4 harg4 arg5 harg5 arg6 harg6 arg7 harg7 hc0 hc1 x0 x1 x2).1)

/-- The pieces a first step writes into the accumulator cover it. -/
theorem scover1_A_0 (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : cond1_0 i) (hc1 : ¬cond1_1 i)
    (x0 : Vec F S1024x1024 .bf16) (x1 : Vec F S1024x1024 .bf16) (x2 : Vec F S1x1024 .f32) (y : S1024x1024.Idx) :
    ∃ pc ∈ (kernelRun1_A c i arg3 harg3 arg4 harg4 arg5 harg5 arg6 harg6 arg7 harg7 hc0 hc1 x0 x1 x2).2.1, y ∈ pc.1.set :=
  View.cover_of_tiledL (kernelRun1_A c i arg3 harg3 arg4 harg4 arg5 harg5 arg6 harg6 arg7 harg7 hc0 hc1 x0 x1 x2).2.1 S1024x1024.size (by sl_kernel_rfl) y

/-- What a first step leaves in the accumulator: its pieces read back. -/
def sout1_A_0 (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : cond1_0 i) (hc1 : ¬cond1_1 i)
    (x0 : Vec F S1024x1024 .bf16) (x1 : Vec F S1024x1024 .bf16) (x2 : Vec F S1x1024 .f32) : Vec F S1024x1024 .f32 :=
  VS1_0.read (Elt F) (VS1_0.writes (Elt F) VS1_0.junk (kernelRun1_A c i arg3 harg3 arg4 harg4 arg5 harg5 arg6 harg6 arg7 harg7 hc0 hc1 x0 x1 x2).2.1)

/-- A middle step stores nothing into the output buffer: a placeholder that nothing consults, since at these
    points the window is neither written back nor read at the next point. -/
def out1_B_3 (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond1_0 i) (hc1 : ¬cond1_1 i)
    (x0 : Vec F S1024x1024 .bf16) (x1 : Vec F S1024x1024 .bf16) (x2 : Vec F S1x1024 .f32) (xs0 : Vec F S1024x1024 .f32) : Vec F S1024x1024 .f32 :=
  VO1_3.read (Elt F) (VO1_3.writes (Elt F) VO1_3.junk (kernelRun1_B c i arg3 harg3 arg4 harg4 arg5 harg5 arg6 harg6 arg7 harg7 hc0 hc1 x0 x1 x2 xs0).1)

/-- The pieces a middle step writes into the accumulator cover it. -/
theorem scover1_B_0 (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond1_0 i) (hc1 : ¬cond1_1 i)
    (x0 : Vec F S1024x1024 .bf16) (x1 : Vec F S1024x1024 .bf16) (x2 : Vec F S1x1024 .f32) (xs0 : Vec F S1024x1024 .f32) (y : S1024x1024.Idx) :
    ∃ pc ∈ (kernelRun1_B c i arg3 harg3 arg4 harg4 arg5 harg5 arg6 harg6 arg7 harg7 hc0 hc1 x0 x1 x2 xs0).2.1, y ∈ pc.1.set :=
  View.cover_of_tiledL (kernelRun1_B c i arg3 harg3 arg4 harg4 arg5 harg5 arg6 harg6 arg7 harg7 hc0 hc1 x0 x1 x2 xs0).2.1 S1024x1024.size (by sl_kernel_rfl) y

/-- What a middle step leaves in the accumulator: its pieces read back. -/
def sout1_B_0 (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond1_0 i) (hc1 : ¬cond1_1 i)
    (x0 : Vec F S1024x1024 .bf16) (x1 : Vec F S1024x1024 .bf16) (x2 : Vec F S1x1024 .f32) (xs0 : Vec F S1024x1024 .f32) : Vec F S1024x1024 .f32 :=
  VS1_0.read (Elt F) (VS1_0.writes (Elt F) VS1_0.junk (kernelRun1_B c i arg3 harg3 arg4 harg4 arg5 harg5 arg6 harg6 arg7 harg7 hc0 hc1 x0 x1 x2 xs0).2.1)

/-- At a last step the one piece stored into the output buffer covers it. -/
theorem cover1_C_3 (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond1_0 i) (hc1 : cond1_1 i)
    (x0 : Vec F S1024x1024 .bf16) (x1 : Vec F S1024x1024 .bf16) (x2 : Vec F S1x1024 .f32) (xs0 : Vec F S1024x1024 .f32) (y : S1024x1024.Idx) :
    ∃ pc ∈ (kernelRun1_C c i arg3 harg3 arg4 harg4 arg5 harg5 arg6 harg6 arg7 harg7 hc0 hc1 x0 x1 x2 xs0).1, y ∈ pc.1.set :=
  View.cover_of_tiledL (kernelRun1_C c i arg3 harg3 arg4 harg4 arg5 harg5 arg6 harg6 arg7 harg7 hc0 hc1 x0 x1 x2 xs0).1 S1024x1024.size (by sl_kernel_rfl) y

/-- What a last step leaves in the output buffer: its piece read back. -/
def out1_C_3 (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond1_0 i) (hc1 : cond1_1 i)
    (x0 : Vec F S1024x1024 .bf16) (x1 : Vec F S1024x1024 .bf16) (x2 : Vec F S1x1024 .f32) (xs0 : Vec F S1024x1024 .f32) : Vec F S1024x1024 .f32 :=
  VO1_3.read (Elt F) (VO1_3.writes (Elt F) VO1_3.junk (kernelRun1_C c i arg3 harg3 arg4 harg4 arg5 harg5 arg6 harg6 arg7 harg7 hc0 hc1 x0 x1 x2 xs0).1)

/-- The pieces a last step writes into the accumulator cover it. -/
theorem scover1_C_0 (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond1_0 i) (hc1 : cond1_1 i)
    (x0 : Vec F S1024x1024 .bf16) (x1 : Vec F S1024x1024 .bf16) (x2 : Vec F S1x1024 .f32) (xs0 : Vec F S1024x1024 .f32) (y : S1024x1024.Idx) :
    ∃ pc ∈ (kernelRun1_C c i arg3 harg3 arg4 harg4 arg5 harg5 arg6 harg6 arg7 harg7 hc0 hc1 x0 x1 x2 xs0).2.1, y ∈ pc.1.set :=
  View.cover_of_tiledL (kernelRun1_C c i arg3 harg3 arg4 harg4 arg5 harg5 arg6 harg6 arg7 harg7 hc0 hc1 x0 x1 x2 xs0).2.1 S1024x1024.size (by sl_kernel_rfl) y

/-- What a last step leaves in the accumulator: its pieces read back. -/
def sout1_C_0 (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond1_0 i) (hc1 : cond1_1 i)
    (x0 : Vec F S1024x1024 .bf16) (x1 : Vec F S1024x1024 .bf16) (x2 : Vec F S1x1024 .f32) (xs0 : Vec F S1024x1024 .f32) : Vec F S1024x1024 .f32 :=
  VS1_0.read (Elt F) (VS1_0.writes (Elt F) VS1_0.junk (kernelRun1_C c i arg3 harg3 arg4 harg4 arg5 harg5 arg6 harg6 arg7 harg7 hc0 hc1 x0 x1 x2 xs0).2.1)

/-! ## What the output buffer and the accumulator hold after each point -/

/-- THE ACCUMULATION. The output window's staging buffer and the accumulator after the body at position `n`: the kind
    of step `n % 4` selects, run at the point's memrefs and input blocks; a middle or last step starts from the
    accumulator position `n - 1` left (nothing touches it in between), a first step from anything. -/
def outsAt1 (c : Dev nD) : (n : ℕ) → n < cfg1.N → Vec F S1024x1024 .f32 × Vec F S1024x1024 .f32
  | 0, hn => (out1_A_3 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩))
  | n + 1, hn =>
    if h0 : (n + 1) % 4 = 0 then
      if h1 : (n + 1) % 4 = 3 then
        False.elim (by omega)
      else
        (out1_A_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩))
    else
      if h1 : (n + 1) % 4 = 3 then
        (out1_C_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2)
      else
        (out1_B_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2)

/-- `outsAt1` at a first step. -/
theorem outsAt1_A (c : Dev nD) (t : Fin cfg1.N) (h0 : t.val % 4 = 0) (h1 : ¬t.val % 4 = 3) :
    outsAt1 V c t.val t.isLt = (out1_A_3 c (grid1.coords t) (ms1_0 t) (hs1_0 t) (ms1_1 t) (hs1_1 t) (ms1_2 t) (hs1_2 t) (ms1_3 t) (hs1_3 t) scM1_0 (Memref.isWhole_whole _) ((hcond1_0 t).mpr h0) (fun h => h1 ((hcond1_1 t).mp h)) (iblk1 V c 0 t) (iblk1 V c 1 t) (iblk1 V c 2 t), sout1_A_0 c (grid1.coords t) (ms1_0 t) (hs1_0 t) (ms1_1 t) (hs1_1 t) (ms1_2 t) (hs1_2 t) (ms1_3 t) (hs1_3 t) scM1_0 (Memref.isWhole_whole _) ((hcond1_0 t).mpr h0) (fun h => h1 ((hcond1_1 t).mp h)) (iblk1 V c 0 t) (iblk1 V c 1 t) (iblk1 V c 2 t)) := by
  obtain ⟨n, hn⟩ := t
  cases n with
  | zero => exact rfl
  | succ n => exact (dif_pos h0).trans ((dif_neg h1).trans rfl)

/-- `outsAt1` at a middle step: over what the point before left in the accumulator. -/
theorem outsAt1_B (c : Dev nD) (t : Fin cfg1.N) (h0 : ¬t.val % 4 = 0) (h1 : ¬t.val % 4 = 3) :
    outsAt1 V c t.val t.isLt = (out1_B_3 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2, sout1_B_0 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt1` at a last step: over what the point before left in the accumulator. -/
theorem outsAt1_C (c : Dev nD) (t : Fin cfg1.N) (h0 : ¬t.val % 4 = 0) (h1 : t.val % 4 = 3) :
    outsAt1 V c t.val t.isLt = (out1_C_3 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2, sout1_C_0 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant: the accumulator carried from point to point -/

/-- Before position `n`: at the region's entry the plain invariant (the accumulator at anything); afterwards the
    untouched rest, the accumulator at what position `n - 1` left in it, and the generator register at some state. -/
def PhiS (c : Dev nD) : (n : ℕ) → n ≤ cfg1.N → sProp 𝕄
  | 0, _ => Pipeline.ΦA spec1 c
  | n + 1, hn => iprop(iprop(rest1 (F := F) c ∗ owns (c : Thread nD τ) scM1_0 fullShare ((outsAt1 V c n hn).2)) ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(iprop(rest1 (F := F) c ∗ owns (c : Thread nD τ) scM1_0 fullShare ((outsAt1 V c n hn).2)) ∗ (∃ r, prngReg c r)) := rfl

theorem PhiS_pos (c : Dev nD) (n : ℕ) (h : n ≤ cfg1.N) (hz : n ≠ 0) :
    PhiS V c n h = iprop(iprop(rest1 (F := F) c ∗ owns (c : Thread nD τ) scM1_0 fullShare ((outsAt1 V c (n - 1) (by omega)).2)) ∗ (∃ r, prngReg c r)) := by
  cases n with
  | zero => exact absurd rfl hz
  | succ n => rfl

/-! ## The pipeline's proof data -/

/-- The proof data of the region on core `c`: the arrays as the region finds them (`V`); after the body at point `t`
    each input's buffer at its block and the output's at `outsAt1`'s first component; the invariant carries the
    accumulator (`PhiS`); nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS V c t.val (Nat.le_of_lt_succ t.isLt)
  q _ := fullShare
  owed _ := 0

/-- The proof data's arrays are the region-entry contents. -/
theorem A_eq1 (c : Dev nD) (w : Fin cfg1.W) : (dat1 V c).A w = V c (Pipeline.arrRef spec1 w) := by
  dsimp only [dat1]

/-- The invariant at a point's start, restated at `t.val`. -/
theorem PhiS_castSucc (c : Dev nD) (t : Fin cfg1.N) :
    (dat1 V c).Φ t.castSucc = PhiS V c t.val (Nat.le_of_lt t.isLt) := by
  dsimp only [dat1]; simp only [Fin.coe_castSucc]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]

/-- Each input's current staging buffer holds its block at every point. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
/-- The body at any point. The inputs' memrefs hold their blocks; `t % 4` says which kind of step the point is, and that
    kind's run applies. The invariant hands the body the accumulator at what the point before left (at anything at the
    very first point) and takes it back at this point's contents; the rest and the generator register pass through
    unread; the core owes nothing throughout. Where the output window is idle its buffer goes back as it came. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS V c (t.val + 1) t.isLt from rfl, PhiS_succ]
  have hN : t.val < 64 := lt_of_lt_of_eq t.isLt (show cfg1.N = 64 from N_1)
  by_cases h0 : t.val % 4 = 0
  · by_cases h1 : t.val % 4 = 3
    · exfalso; omega
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [Dat.leavesExact_idle (dat1 V c) 3 t (idleAt1_3_A t ((hcond1_0 t).mpr h0) (fun h => h1 ((hcond1_1 t).mp h))) (noFlush1_3_A t ((hcond1_0 t).mpr h0) (fun h => h1 ((hcond1_1 t).mp h)))]
      rw [outsAt1_A V c t h0 h1]
      unfold sout1_A_0; (try dsimp only)
      by_cases hz : t.val = 0
      · rw [PhiS_castSucc V c t, PhiS_zero V c _ _ hz]
        iintro ⟨HΦ, Ho, ⟨%d0, H0⟩, ⟨%d1, H1⟩, ⟨%d2, H2⟩, ⟨%d3, H3⟩⟩
        ihave HΦ' := (PhiA1_split (F := F) c) $$ HΦ
        icases HΦ' with ⟨⟨HR, HS0⟩, Hg⟩
        iapply ((kernelRun1_A c (grid1.coords t) _ _ _ _ _ _ _ _ _ _ ((hcond1_0 t).mpr h0) (fun h => h1 ((hcond1_1 t).mp h)) (iblk1 V c 0 t) (iblk1 V c 1 t) (iblk1 V c 2 t)).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HR HS0 Hg]
        · isplitl [HR HS0]
          · isplitl [HR]; · iexact HR
            unfold owns; iexists _; isplitr
            swap; · iexact HS0
            ipureintro; exact View.read_writes_of_cover _ _ _ _ _ (scover1_A_0 c _ _ _ _ _ _ _ _ _ _ _ _ _ _ _ _)
          iexact Hg
        isplitl [Ho]; · iexact Ho
        isplitl [H0]; · iexact H0
        isplitl [H1]; · iexact H1
        isplitl [H2]; · iexact H2
        iexists _; iexact H3
      · rw [PhiS_castSucc V c t, PhiS_pos V c _ _ hz]
        iintro ⟨⟨⟨HR, HS0⟩, Hg⟩, Ho, ⟨%d0, H0⟩, ⟨%d1, H1⟩, ⟨%d2, H2⟩, ⟨%d3, H3⟩⟩
        iapply ((kernelRun1_A c (grid1.coords t) _ _ _ _ _ _ _ _ _ _ ((hcond1_0 t).mpr h0) (fun h => h1 ((hcond1_1 t).mp h)) (iblk1 V c 0 t) (iblk1 V c 1 t) (iblk1 V c 2 t)).2.2 _ Set.univ _)
        isplitl [H0]; · iexact H0
        isplitl [H1]; · iexact H1
        isplitl [H2]; · iexact H2
        isplitl [H3]; · iexact H3
        isplitl [HS0]; · iexists _; iexact HS0
        iintro ⟨H0, H1, H2, H3, ⟨%es0, HS0⟩⟩
        isplitl [HR HS0 Hg]
        · isplitl [HR HS0]
          · isplitl [HR]; · iexact HR
            unfold owns; iexists _; isplitr
            swap; · iexact HS0
            ipureintro; exact View.read_writes_of_cover _ _ _ _ _ (scover1_A_0 c _ _ _ _ _ _ _ _ _ _ _ _ _ _ _ _)
          iexact Hg
        isplitl [Ho]; · iexact Ho
        isplitl [H0]; · iexact H0
        isplitl [H1]; · iexact H1
        isplitl [H2]; · iexact H2
        iexists _; iexact H3
  · by_cases h1 : t.val % 4 = 3
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3_C t (fun h => h0 ((hcond1_0 t).mp h)) ((hcond1_1 t).mpr h1)], after1_3]
      rw [outsAt1_C V c t h0 h1]
      unfold out1_C_3 sout1_C_0; (try dsimp only)
      have hz : t.val ≠ 0 := fun e => h0 (by rw [e])
      rw [PhiS_castSucc V c t, PhiS_pos V c _ _ hz]
      iintro ⟨⟨⟨HR, HS0⟩, Hg⟩, Ho, ⟨%d0, H0⟩, ⟨%d1, H1⟩, ⟨%d2, H2⟩, ⟨%d3, H3⟩⟩
      iapply ((kernelRun1_C c (grid1.coords t) _ _ _ _ _ _ _ _ _ _ (fun h => h0 ((hcond1_0 t).mp h)) ((hcond1_1 t).mpr h1) (iblk1 V c 0 t) (iblk1 V c 1 t) (iblk1 V c 2 t) _).2.2 Set.univ _)
      isplitl [H0]; · iexact H0
      isplitl [H1]; · iexact H1
      isplitl [H2]; · iexact H2
      isplitl [H3]; · iexists _; iexact H3
      isplitl [HS0]; · iexact HS0
      iintro ⟨H0, H1, H2, ⟨%e3, H3⟩, ⟨%es0, HS0⟩⟩
      isplitl [HR HS0 Hg]
      · isplitl [HR HS0]
        · isplitl [HR]; · iexact HR
          unfold owns; iexists _; isplitr
          swap; · iexact HS0
          ipureintro; exact View.read_writes_of_cover _ _ _ _ _ (scover1_C_0 c _ _ _ _ _ _ _ _ _ _ _ _ _ _ _ _ _)
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover1_C_3 c _ _ _ _ _ _ _ _ _ _ _ _ _ _ _ _ _)
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [Dat.leavesExact_idle (dat1 V c) 3 t (idleAt1_3_B t (fun h => h0 ((hcond1_0 t).mp h)) (fun h => h1 ((hcond1_1 t).mp h))) (noFlush1_3_B t (fun h => h0 ((hcond1_0 t).mp h)) (fun h => h1 ((hcond1_1 t).mp h)))]
      rw [outsAt1_B V c t h0 h1]
      unfold sout1_B_0; (try dsimp only)
      have hz : t.val ≠ 0 := fun e => h0 (by rw [e])
      rw [PhiS_castSucc V c t, PhiS_pos V c _ _ hz]
      iintro ⟨⟨⟨HR, HS0⟩, Hg⟩, Ho, ⟨%d0, H0⟩, ⟨%d1, H1⟩, ⟨%d2, H2⟩, ⟨%d3, H3⟩⟩
      iapply ((kernelRun1_B c (grid1.coords t) _ _ _ _ _ _ _ _ _ _ (fun h => h0 ((hcond1_0 t).mp h)) (fun h => h1 ((hcond1_1 t).mp h)) (iblk1 V c 0 t) (iblk1 V c 1 t) (iblk1 V c 2 t) _).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HR HS0 Hg]
      · isplitl [HR HS0]
        · isplitl [HR]; · iexact HR
          unfold owns; iexists _; isplitr
          swap; · iexact HS0
          ipureintro; exact View.read_writes_of_cover _ _ _ _ _ (scover1_B_0 c _ _ _ _ _ _ _ _ _ _ _ _ _ _ _ _ _)
        iexact Hg
      isplitl [Ho]; · iexact Ho
      isplitl [H0]; · iexact H0
      isplitl [H1]; · iexact H1
      isplitl [H2]; · iexact H2
      iexists _; iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After any point but the first the invariant gives the plain one back: the accumulator's contents are forgotten. -/
theorem Phi_out1 (c : Dev nD) (t : Fin (cfg1.N + 1)) (ht : t.val ≠ 0) : (dat1 V c).Φ t ⊢ Pipeline.ΦA spec1 c := by
  rw [show (dat1 V c).Φ t = PhiS V c t.val (Nat.le_of_lt_succ t.isLt) from rfl, PhiS_pos V c _ _ ht]
  refine BIBase.Entails.trans ?_ (PhiA1_join c)
  iintro ⟨⟨HR, HS0⟩, Hg⟩
  isplitl [HR HS0]
  · isplitl [HR]; · iexact HR
    iexists _; iexact HS0
  iexact Hg

/-- The same after the last point. -/
theorem hout1 (c : Dev nD) : (dat1 V c).Φ (Fin.last cfg1.N) ⊢ Pipeline.ΦA spec1 c :=
  Phi_out1 V c _ (by rw [Fin.val_last]; have : cfg1.N = 64 := N_1; omega)

/-! ## The three equations the value is computed from -/

/-- The offsets of a rectangle that is the whole block are zero. -/
theorem hz2 : (![0, 0] : Fin 2 → Nat) = fun _ => 0 := by funext a; fin_cases a <;> rfl

/-- A first step's accumulator: the zeros stored first are what the later load reads back, and the last store covers
    the block, so the accumulator ends at zero plus the product of the two input blocks. -/
theorem sout1_A_0_eq (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : cond1_0 i) (hc1 : ¬cond1_1 i)
    (x0 : Vec F S1024x1024 .bf16) (x1 : Vec F S1024x1024 .bf16) (x2 : Vec F S1x1024 .f32) : sout1_A_0 c i arg3 harg3 arg4 harg4 arg5 harg5 arg6 harg6 arg7 harg7 hc0 hc1 x0 x1 x2 = k1_pay2 (k1_pay1 (F := F)) x0 x1 := by
  unfold sout1_A_0
  rw [View.read_writes_eq_canon _ _ _ (scover1_A_0 c i arg3 harg3 arg4 harg4 arg5 harg5 arg6 harg6 arg7 harg7 hc0 hc1 x0 x1 x2)]
  unfold kernelRun1_A
  dsimp only
  sl_unfold_words
  rw [View.canon_cons_unit_zero (S := S1024x1024) hz2, View.readCov_unit_zero (S := S1024x1024) _ hz2]
  simp only [View.readAt_eq_ld, harg3.read_unread, harg4.read_unread, View.ld_unit_zero (S := S1024x1024) hz2]

/-- A middle step's accumulator: its one store covers the block with what came in plus the product. -/
theorem sout1_B_0_eq (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond1_0 i) (hc1 : ¬cond1_1 i)
    (x0 : Vec F S1024x1024 .bf16) (x1 : Vec F S1024x1024 .bf16) (x2 : Vec F S1x1024 .f32) (xs0 : Vec F S1024x1024 .f32) : sout1_B_0 c i arg3 harg3 arg4 harg4 arg5 harg5 arg6 harg6 arg7 harg7 hc0 hc1 x0 x1 x2 xs0 = k1_pay2 xs0 x0 x1 := by
  unfold sout1_B_0
  rw [View.read_writes_eq_canon _ _ _ (scover1_B_0 c i arg3 harg3 arg4 harg4 arg5 harg5 arg6 harg6 arg7 harg7 hc0 hc1 x0 x1 x2 xs0)]
  unfold kernelRun1_B
  dsimp only
  sl_unfold_words
  rw [View.canon_unit_zero (S := S1024x1024) hz2]
  simp only [View.readAt_eq_ld, harg3.read_unread, harg4.read_unread, harg7.read_unread, View.ld_unit_zero (S := S1024x1024) hz2]

/-- A last step's accumulator: the same. -/
theorem sout1_C_0_eq (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond1_0 i) (hc1 : cond1_1 i)
    (x0 : Vec F S1024x1024 .bf16) (x1 : Vec F S1024x1024 .bf16) (x2 : Vec F S1x1024 .f32) (xs0 : Vec F S1024x1024 .f32) : sout1_C_0 c i arg3 harg3 arg4 harg4 arg5 harg5 arg6 harg6 arg7 harg7 hc0 hc1 x0 x1 x2 xs0 = k1_pay2 xs0 x0 x1 := by
  unfold sout1_C_0
  rw [View.read_writes_eq_canon _ _ _ (scover1_C_0 c i arg3 harg3 arg4 harg4 arg5 harg5 arg6 harg6 arg7 harg7 hc0 hc1 x0 x1 x2 xs0)]
  unfold kernelRun1_C
  dsimp only
  sl_unfold_words
  rw [View.canon_unit_zero (S := S1024x1024) hz2]
  simp only [View.readAt_eq_ld, harg3.read_unread, harg4.read_unread, harg7.read_unread, View.ld_unit_zero (S := S1024x1024) hz2]

/-- A last step's output block: the new accumulator read back, plus the bias row. -/
theorem out1_C_3_eq (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond1_0 i) (hc1 : cond1_1 i)
    (x0 : Vec F S1024x1024 .bf16) (x1 : Vec F S1024x1024 .bf16) (x2 : Vec F S1x1024 .f32) (xs0 : Vec F S1024x1024 .f32) : out1_C_3 c i arg3 harg3 arg4 harg4 arg5 harg5 arg6 harg6 arg7 harg7 hc0 hc1 x0 x1 x2 xs0 = k1_pay3 (k1_pay2 xs0 x0 x1) x2 := by
  unfold out1_C_3
  rw [View.read_writes_eq_canon _ _ _ (cover1_C_3 c i arg3 harg3 arg4 harg4 arg5 harg5 arg6 harg6 arg7 harg7 hc0 hc1 x0 x1 x2 xs0)]
  unfold kernelRun1_C
  dsimp only
  sl_unfold_words
  rw [View.canon_unit_zero (S := S1024x1024) hz2]
  simp only [View.readCov_unit_zero (S := S1024x1024) _ hz2, View.readAt_eq_ld, harg3.read_unread, harg4.read_unread, harg5.read_unread, harg7.read_unread, View.ld_unit_zero (S := S1024x1024) hz2, View.ld_unit_zero (S := S1x1024) hz2]

/-- At a first reduction step the accumulator ends at zero plus the product of the two blocks. -/
theorem outsAt1_first (c : Dev nD) (t : Fin cfg1.N) (h : t.val % 4 = 0) :
    (outsAt1 V c t.val t.isLt).2 = k1_pay2 (k1_pay1 (F := F)) (iblk1 V c 0 t) (iblk1 V c 1 t) := by
  have h0 : t.val % 4 = 0 := h
  have h1 : ¬t.val % 4 = 3 := by omega
  rw [outsAt1_A V c t h0 h1]; dsimp only
  exact sout1_A_0_eq c (grid1.coords t) (ms1_0 t) (hs1_0 t) (ms1_1 t) (hs1_1 t) (ms1_2 t) (hs1_2 t) (ms1_3 t) (hs1_3 t) scM1_0 (Memref.isWhole_whole _) ((hcond1_0 t).mpr h0) (fun h => h1 ((hcond1_1 t).mp h)) (iblk1 V c 0 t) (iblk1 V c 1 t) (iblk1 V c 2 t)

/-- At any other step it ends at what the point before left plus the product of the two blocks. -/
theorem outsAt1_step (c : Dev nD) (t : Fin cfg1.N) (h : t.val % 4 ≠ 0) :
    (outsAt1 V c t.val t.isLt).2 = k1_pay2 (outsAt1 V c (t.val - 1) (Nat.lt_of_le_of_lt (Nat.sub_le _ _) t.isLt)).2 (iblk1 V c 0 t) (iblk1 V c 1 t) := by
  have h0 : ¬t.val % 4 = 0 := h
  by_cases h1 : t.val % 4 = 3
  · rw [outsAt1_C V c t h0 h1]; dsimp only
    exact sout1_C_0_eq c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2
  · rw [outsAt1_B V c t h0 h1]; dsimp only
    exact sout1_B_0_eq c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2

/-- At a last reduction step the output block is the accumulator plus the bias row. -/
theorem outsAt1_flush (c : Dev nD) (t : Fin cfg1.N) (h : t.val % 4 = 3) :
    (outsAt1 V c t.val t.isLt).1 = k1_pay3 (outsAt1 V c t.val t.isLt).2 (iblk1 V c 2 t) := by
  have h1 : t.val % 4 = 3 := h
  have h0 : ¬t.val % 4 = 0 := by omega
  rw [outsAt1_C V c t h0 h1]; dsimp only
  exact (out1_C_3_eq c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2).trans
    (congrArg (fun a => k1_pay3 a (iblk1 V c 2 t)) (sout1_C_0_eq c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2).symm)

end Cert.KernelIdeal.Hand

end
-- ==== Proof.KernelRun.lean ====
/-
  The kernel program's run: its two regions and the host stretch between them, from the launch to the return.

  Region 0 (the dequantizing kernel) is entered from the launch memory and leaves the dequantized weight in its
  output array; the host stretch narrows `x` and reshapes the bias into a row; region 1 (the matmul kernel) is
  entered from what those leave and writes the result. The buffer contents at each boundary are a fold from the
  launch memory: a region's arrays at what its write-backs leave, every other buffer as it was. Every weakly fair
  execution terminates with every unscoped buffer at the last boundary's contents; the arguments are never
  written, so they end as launched.
-/
import proofs.«426883_j77292231459026_3_alg».proof.Proof.Gen.KernelIdeal.Regions
import proofs.«426883_j77292231459026_3_alg».proof.Proof.DequantRegion
import proofs.«426883_j77292231459026_3_alg».proof.Proof.MatmulRegion

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch (region 0's entry: no host operation comes before it). -/
abbrev W0 : Dev nD → Valuation τ sig (Elt F) := fun c b => (s₀ m ρ).mem ((c : Dev nD), b)
/-- The same read at the TensorCore's references: what region 0's proof data take. -/
abbrev V0e : (c : Dev nD) → (b : Ref sig .tc) → Buf (Elt F) ((c : Thread nD τ).loc b) := fun c b => W0 m ρ c b
/-- At region 0's exit: its arrays at what the pipeline leaves, every other buffer as entered. -/
def W1 (c : Dev nD) : Valuation τ sig (Elt F) :=
  Pipeline.withArrays spec0 c (W0 m ρ c) fun w => (dat0 (V0e m ρ) c).arrAt w cfg0.N
theorem W1_arr (c : Dev nD) (w : Fin cfg0.W) :
    W1 m ρ c (Proc.devRef .tc (Pipeline.arrRef spec0 w)) = (dat0 (V0e m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
abbrev V1x : (c : Dev nD) → (b : Ref sig .tc) → Buf (Elt F) ((c : Thread nD τ).loc b) := fun c b => W1 m ρ c b
theorem hF0 (c : Dev nD) (w : Fin cfg0.W) : (dat0 (V0e m ρ) c).arrAt w cfg0.N = V1x m ρ c (Pipeline.arrRef spec0 w) :=
  (W1_arr m ρ c w).symm
theorem hrest0 (c : Dev nD) : ∀ b, b ∉ Finset.univ.image (Pipeline.arrRef spec0) → V1x m ρ c b = V0e m ρ c b :=
  fun b hb => W1_of_ne m ρ c b fun w e => hb (Finset.mem_image.mpr ⟨w, Finset.mem_univ _, e⟩)

/-- After the host stretch (region 1's entry). -/
abbrev W2 : Dev nD → Valuation τ sig (Elt F) := fun c => StableHlo.after hostOps1 (W1 m ρ c)
abbrev V2e : (c : Dev nD) → (b : Ref sig .tc) → Buf (Elt F) ((c : Thread nD τ).loc b) := fun c b => W2 m ρ c b
/-- At region 1's exit. -/
def W3 (c : Dev nD) : Valuation τ sig (Elt F) :=
  Pipeline.withArrays spec1 c (W2 m ρ c) fun w => (dat1 (V2e m ρ) c).arrAt w cfg1.N
theorem W3_arr (c : Dev nD) (w : Fin cfg1.W) :
    W3 m ρ c (Proc.devRef .tc (Pipeline.arrRef spec1 w)) = (dat1 (V2e m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3x : (c : Dev nD) → (b : Ref sig .tc) → Buf (Elt F) ((c : Thread nD τ).loc b) := fun c b => W3 m ρ c b
theorem hF1 (c : Dev nD) (w : Fin cfg1.W) : (dat1 (V2e m ρ) c).arrAt w cfg1.N = V3x m ρ c (Pipeline.arrRef spec1 w) :=
  (W3_arr m ρ c w).symm
theorem hrest1 (c : Dev nD) : ∀ b, b ∉ Finset.univ.image (Pipeline.arrRef spec1) → V3x m ρ c b = V2e m ρ c b :=
  fun b hb => W3_of_ne m ρ c b fun w e => hb (Finset.mem_image.mpr ⟨w, Finset.mem_univ _, e⟩)

/-! ### The arguments end as launched -/

/-- `main_arg0` ends as launched: region 1 and the host stretch bypass it, region 0 bypasses it. -/
theorem W3_main_arg0 (c : Dev nD) : W3 m ρ c (Proc.devRef .tc main_arg0) = m ((c : Thread nD τ).loc main_arg0) :=
  (W3_of_ne m ρ c main_arg0 (by decide)).trans <| (StableHlo.after_of_writes_sub hostOps1 _ hostOps1_writes (by decide : main_arg0 ∉ hostOps1_W)).trans <|
    (W1_of_ne m ρ c main_arg0 (by decide)).trans rfl

/-- `main_arg1` ends as launched: region 1 and the host stretch bypass it, region 0 only reads it, through window 0. -/
theorem W3_main_arg1 (c : Dev nD) : W3 m ρ c (Proc.devRef .tc main_arg1) = m ((c : Thread nD τ).loc main_arg1) :=
  (W3_of_ne m ρ c main_arg1 (by decide)).trans <| (StableHlo.after_of_writes_sub hostOps1 _ hostOps1_writes (by decide : main_arg1 ∉ hostOps1_W)).trans <|
    ((W1_arr m ρ c 0).trans (((dat0 (V0e m ρ) c).arrAt_in 0 rfl _).trans (A_eq0 (V0e m ρ) c 0))).trans rfl

/-- `main_arg2` ends as launched: region 1 and the host stretch bypass it, region 0 only reads it, through window 1. -/
theorem W3_main_arg2 (c : Dev nD) : W3 m ρ c (Proc.devRef .tc main_arg2) = m ((c : Thread nD τ).loc main_arg2) :=
  (W3_of_ne m ρ c main_arg2 (by decide)).trans <| (StableHlo.after_of_writes_sub hostOps1 _ hostOps1_writes (by decide : main_arg2 ∉ hostOps1_W)).trans <|
    ((W1_arr m ρ c 1).trans (((dat0 (V0e m ρ) c).arrAt_in 1 rfl _).trans (A_eq0 (V0e m ρ) c 1))).trans rfl

/-- `main_arg3` ends as launched: region 1 and the host stretch bypass it, region 0 only reads it, through window 2. -/
theorem W3_main_arg3 (c : Dev nD) : W3 m ρ c (Proc.devRef .tc main_arg3) = m ((c : Thread nD τ).loc main_arg3) :=
  (W3_of_ne m ρ c main_arg3 (by decide)).trans <| (StableHlo.after_of_writes_sub hostOps1 _ hostOps1_writes (by decide : main_arg3 ∉ hostOps1_W)).trans <|
    ((W1_arr m ρ c 2).trans (((dat0 (V0e m ρ) c).arrAt_in 2 rfl _).trans (A_eq0 (V0e m ρ) c 2))).trans rfl

/-- `main_arg4` ends as launched: region 1 and the host stretch bypass it, region 0 bypasses it. -/
theorem W3_main_arg4 (c : Dev nD) : W3 m ρ c (Proc.devRef .tc main_arg4) = m ((c : Thread nD τ).loc main_arg4) :=
  (W3_of_ne m ρ c main_arg4 (by decide)).trans <| (StableHlo.after_of_writes_sub hostOps1 _ hostOps1_writes (by decide : main_arg4 ∉ hostOps1_W)).trans <|
    (W1_of_ne m ρ c main_arg4 (by decide)).trans rfl

/-- The result buffer ends at what region 1's write-backs leave in its output array. -/
theorem W3_main_v3 (c : Dev nD) : W3 m ρ c (Proc.devRef .tc main_v3) = (dat1 (V2e m ρ) c).arrAt 3 cfg1.N :=
  W3_arr m ρ c 3

/-- Region 1 finds the weight array as region 0 left it: the host stretch does not write it. -/
theorem V2e_main_v0 (c : Dev nD) : V2e m ρ c main_v0 = (dat0 (V0e m ρ) c).arrAt 3 cfg0.N :=
  (StableHlo.after_of_writes_sub hostOps1 _ hostOps1_writes (by decide : main_v0 ∉ hostOps1_W)).trans (W1_arr m ρ c 3)

/-! ## The proof data family and the thread state -/

/-- No pipeline has a prefetched table. -/
abbrev adm' : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm' p) c
  | ⟨0, _⟩ => fun c => dat0 (V0e m ρ) c
  | ⟨1, _⟩ => fun c => dat1 (V2e m ρ) c
abbrev 𝒱₀ : Variants := Variants.none
/-- No core owes another anything. -/
abbrev L₀ : GSem nD τ sig → Finset Unit := fun _ => ∅
abbrev lv₀ : GSem nD τ sig → Unit → ℕ := fun _ _ => 0
/-- What rides beside the buffers through every segment: the core's generator register at some state and its
    `owes`, at nothing. -/
abbrev R (c : Dev nD) : sProp 𝕄 := iprop((∃ r, prngReg c r) ∗ ∃ W, owes (c : Thread nD τ) (0 : CellTallies nD τ sig Unit) W)
/-- The host stretch as a segment over the unscoped references from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L₀ lv₀ :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W3 m ρ c) ∗ ∃ r, prngReg c r)

/-! ## The regions as segments -/

set_option backward.isDefEq.respectTransparency.types false in
/-- Region 0 over the thread state: entered from every unscoped buffer at the launch contents, left at `W1`. -/
def reg0 : Pipeline.RegionSeg (pcfgs (F := F)) adm' (pdats m ρ) () defs₀ 𝒱₀ L₀ lv₀ 0 where
  win := launch0.win.to₀
  block_pos := launch0.block_pos
  stage_whole := launch0.stage_whole
  K := PEmpty
  osem k := k.elim
  ho := Pipeline.OwnSemFacts.none _
  hbody c := (body_obligation0 (V0e m ρ) c).loose
  hwaits := Pipeline.hwaits_of_owed_zero _ _ _ _ L₀ lv₀ 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0e m ρ c)
  hentry c := by
    rw [Pipeline.ownSems0_none]
    have hsplit := Pipeline.arrays_of_unscopedBufs (p := 0) (pcfgs (F := F)) adm' (pdats m ρ) launch0.win launch0.arr_whole c
      ((pdats m ρ 0 c).share_full fun _ => rfl) (V0e m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm' (Ix := Unit) (Name := ℕ) (U := UR sig nD τ) (Lvl := ℕ)
      launch0.win launch0.arr_whole c (pdats m ρ) ((pdats m ρ 0 c).share_full fun _ => rfl)
      (V0e m ρ c) (V1x m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- What the launch hands region 1 makes the class's invariant (the scoped rest and the generator register). -/
theorem toΦA1 (c : Dev nD) :
    (iprop((∃ r, prngReg c r) ∗ Pipeline.prefHeld (pcfgs (F := F) 1).pre c (fun _ => fullShare) (adm' (F := F) 1).1 ∗ Pipeline.scopedRest (Pipeline.pin (pcfgs (F := F)) adm' 1).spec c) : sProp 𝕄)
      ⊢ Pipeline.ΦA spec1 c := by
  unfold Pipeline.ΦA
  iintro ⟨Hp, -, Hr⟩
  isplitl [Hr]; · iexact Hr
  iexact Hp

/-- and the class's invariant gives them back. -/
theorem ofΦA1 (c : Dev nD) :
    (Pipeline.ΦA spec1 c : sProp 𝕄) ⊢ iprop((∃ r, prngReg c r) ∗ Pipeline.ownSems0 (fun k : PEmpty => k.elim) c ∗ Pipeline.scopedRest (Pipeline.pin (pcfgs (F := F)) adm' 1).spec c) := by
  rw [Pipeline.ownSems0_none]; unfold Pipeline.ΦA
  iintro ⟨Hr, Hp⟩
  isplitl [Hp]; · iexact Hp
  isplitr; · iempintro
  iexact Hr

set_option backward.isDefEq.respectTransparency.types false in
/-- Region 1 over the thread state: entered from every unscoped buffer at `W2`, left at `W3`. Its invariant carries
    the accumulator between points: it starts as the class's and ends giving the class's back. -/
def reg1 : Pipeline.RegionSeg (pcfgs (F := F)) adm' (pdats m ρ) () defs₀ 𝒱₀ L₀ lv₀ 1 where
  win := launch1.win.to₀
  block_pos := launch1.block_pos
  stage_whole := launch1.stage_whole
  K := PEmpty
  osem k := k.elim
  ho := Pipeline.OwnSemFacts.none _
  hbody c := (body_obligation1 (V2e m ρ) c).loose
  hwaits := Pipeline.hwaits_of_owed_zero _ _ _ _ L₀ lv₀ 1 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2e m ρ c)
  hentry c := by
    rw [Pipeline.ownSems0_none]
    have hsplit := Pipeline.arrays_of_unscopedBufs (p := 1) (pcfgs (F := F)) adm' (pdats m ρ) launch1.win launch1.arr_whole c
      ((pdats m ρ 1 c).share_full fun _ => rfl) (V2e m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := (toΦA1 c).trans (hin1 (V2e m ρ) c)
  hout c := (hout1 (V2e m ρ) c).trans (ofΦA1 c)
  hexit c := by
    have hjoin := Pipeline.unscopedBufs_of_arrays (p := 1) (pcfgs (F := F)) adm' (Ix := Unit) (Name := ℕ) (U := UR sig nD τ) (Lvl := ℕ)
      launch1.win launch1.arr_whole c (pdats m ρ) ((pdats m ρ 1 c).share_full fun _ => rfl)
      (V2e m ρ c) (V3x m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's three segments in order. -/
abbrev segs : List (Pipeline.Seg (pcfgs (F := F)) adm' (pdats m ρ) () defs₀ 𝒱₀ L₀ lv₀) :=
  [ .region (reg0 m ρ),
    .host (hseg hostOps1 hostOps1_sub hostOps1_fresh (W1 m ρ)),
    .region (reg1 m ρ) ]
/-- @main is the run of the segments. -/
theorem main_run (c : Dev nD) : main (F := F) c = Pipeline.Seg.run (segs m ρ) := (main_chain c).trans (by chain_rfl)

set_option backward.isDefEq.respectTransparency.types false in
/-- THE RUN: from any memory with zero counters every weakly fair execution of @main terminates, nothing faulting,
    and every final state has every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit (pcfgs (F := F)) adm' (pdats m ρ) () cellOf_inj emb₁ defs₀ 𝒱₀ L₀ lv₀ m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L₀ lv₀ fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c => h c)

/-- The frame: the arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨(h c _ (mem_uc main_arg0 (by decide))).trans (W3_main_arg0 m ρ c),
     (h c _ (mem_uc main_arg1 (by decide))).trans (W3_main_arg1 m ρ c),
     (h c _ (mem_uc main_arg2 (by decide))).trans (W3_main_arg2 m ρ c),
     (h c _ (mem_uc main_arg3 (by decide))).trans (W3_main_arg3 m ρ c),
     (h c _ (mem_uc main_arg4 (by decide))).trans (W3_main_arg4 m ρ c)⟩) (run_all m ρ)

/-- The run with the result named: the result buffer ends at what region 1's write-backs leave in its output array,
    the arguments as launched. -/
theorem run_result : θ_run defs (onTc (τ := τ) (main (F := F))) ⟨m, fun _ => 0, ρ⟩ (fun r => ∀ c : Dev nD,
      r.2.mem ((c.tc : Thread nD τ).loc main_v3) = (dat1 (V2e m ρ) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨(h c _ (mem_uc main_v3 (by decide))).trans (W3_main_v3 m ρ c),
     (h c _ (mem_uc main_arg0 (by decide))).trans (W3_main_arg0 m ρ c),
     (h c _ (mem_uc main_arg1 (by decide))).trans (W3_main_arg1 m ρ c),
     (h c _ (mem_uc main_arg2 (by decide))).trans (W3_main_arg2 m ρ c),
     (h c _ (mem_uc main_arg3 (by decide))).trans (W3_main_arg3 m ρ c),
     (h c _ (mem_uc main_arg4 (by decide))).trans (W3_main_arg4 m ρ c)⟩) (run_all m ρ)

end Cert.KernelIdeal.Hand

end
-- ==== Proof.Spec.lean ====
/-
  The two programs' common value, as ONE function of the argument arrays.

  A weight word packs eight 4-bit fields; field `s` of a word `v` is `(v >>ₛ 4 s) &&& 15` (an arithmetic shift, then
  the mask). Column `k` of the dequantized weight's row `n` is field `k % 8` of the packed word `k / 8` of that row,
  less the group's zero point — field `(k / 128) % 8` of zero-point word `k / 1024` —, times the group's scale
  `scales[n, k / 128]` (groups of 128 columns). The layer's output is `x · wᵀ + bias`:
  `out[p, n] = (∑ k, x[p, k] · w[n, k]) + bias[n]`, all of it on the extended reals.
-/
import Idealize.ShloMosaic.PureOps.Ideal
import Idealize.ShloMosaic.Lib.ValueIdx

noncomputable section

open scoped BigOperators

namespace Cert.QLinear

open Idealize.ShloMosaic Idealize.ShloMosaic.ValueIdx

/-- Field `s` (of eight, four bits each) of a 32-bit word: shifted down arithmetically by `4 s`, masked with 15. -/
def nib (v : BitVec 32) (s : Fin 8) : BitVec 32 :=
  IntOp.andi (IntOp.shrsi .vector v (BitVec.ofNat 32 (4 * s.val))) 15#32

/-- The dequantized weight at row `n`, column `k`: (packed field − group zero point) · group scale. -/
def wq (qw : IVec ⟨2, ![4096, 512]⟩ 32) (qz : IVec ⟨2, ![4096, 4]⟩ 32) (sc : FVec Ideal ⟨2, ![4096, 32]⟩ .f32)
    (n k : Fin 4096) : EReal :=
  ((((nib (qw (ix2 n (⟨k.val / 8, by omega⟩ : Fin 512))) ⟨k.val % 8, by omega⟩).toInt : ℝ) : EReal)
      - (((nib (qz (ix2 n (⟨k.val / 1024, by omega⟩ : Fin 4))) ⟨k.val / 128 % 8, by omega⟩).toInt : ℝ) : EReal))
    * sc (ix2 n (⟨k.val / 128, by omega⟩ : Fin 32))

/-- The whole dequantized weight, `[out_features, in_features]`. -/
def wArr (qw : IVec ⟨2, ![4096, 512]⟩ 32) (qz : IVec ⟨2, ![4096, 4]⟩ 32) (sc : FVec Ideal ⟨2, ![4096, 32]⟩ .f32) :
    (⟨2, ![4096, 4096]⟩ : Shape).Idx → EReal :=
  fun j => wq qw qz sc ⟨(j 0).val, idx2_lt0 j⟩ ⟨(j 1).val, idx2_lt1 j⟩

/-- `a · bᵀ + bias` for `a : [4096, 4096]`, `b : [4096, 4096]` (both contracted along their second axis) and a bias row. -/
def mmBias (a b : (⟨2, ![4096, 4096]⟩ : Shape).Idx → EReal) (bias : Fin 4096 → EReal) :
    (⟨2, ![4096, 4096]⟩ : Shape).Idx → EReal :=
  fun j => (∑ k : Fin 4096, a (ix2 (⟨(j 0).val, idx2_lt0 j⟩ : Fin 4096) k) * b (ix2 (⟨(j 1).val, idx2_lt1 j⟩ : Fin 4096) k))
    + bias ⟨(j 1).val, idx2_lt1 j⟩

/-- The layer: `x · wᵀ + bias` with `w` the dequantized weight. -/
def outSpec (x : FVec Ideal ⟨2, ![4096, 4096]⟩ .f32) (qw : IVec ⟨2, ![4096, 512]⟩ 32) (qz : IVec ⟨2, ![4096, 4]⟩ 32)
    (sc : FVec Ideal ⟨2, ![4096, 32]⟩ .f32) (bias : FVec Ideal ⟨1, ![4096]⟩ .f32) : (⟨2, ![4096, 4096]⟩ : Shape).Idx → EReal :=
  mmBias x (wArr qw qz sc) (fun n => bias (ix1 n))

end Cert.QLinear

end
-- ==== Proof.DequantValue.lean ====
/-
  The dequantizing kernel's region, as a VALUE: what its output array holds after the 16 grid points, as one
  function of the arrays the region found.

  A grid point handles 256 weight rows and writes its 256 × 4096 output block in four chunks of 1024 columns.
  Column `kk` of chunk `g` is
      (field `kk % 8` of packed word `128 g + kk / 8`  −  field `kk / 128` of zero-point word `g`) · scale `8 g + kk / 128`,
  the fields read as signed integers. Put side by side the four chunks give, at column `k` of the block,
      (field `k % 8` of word `k / 8`  −  field `(k / 128) % 8` of zero-point word `k / 1024`) · scale `k / 128`,
  and the 16 blocks, stacked by rows, give the dequantized weight of `Cert.QLinear.wArr`.
-/
import proofs.«426883_j77292231459026_3_alg».proof.Proof.DequantOut
import proofs.«426883_j77292231459026_3_alg».proof.Proof.DequantRegion
import proofs.«426883_j77292231459026_3_alg».proof.Proof.Spec
import Idealize.ShloMosaic.Lib.ValueIdx
import Idealize.ShloMosaic.Lib.Pipeline.Value
import Idealize.ShloMosaic.Lib.ValueLayout

set_option maxRecDepth 16384

noncomputable section

namespace Cert.KernelIdeal.Hand

open Cert.KernelIdeal Cert.KernelIdeal.Gen
open Idealize.ShloMosaic Idealize.ShloMosaic.ValueIdx Idealize.ShloMosaic.TcCoe
open Idealize.SL Idealize.SL.Sem
open Idealize.ShloMosaic.Pipeline (Dat Cfg Window)

/-! ## The body's arithmetic, named once

The four chunks run the same chain of operations on their three loads: the packed words' fields spread one per column,
the zero-point word's fields and the scales spread one per group of 128 columns, then `(w − z) · s`. -/

section Chain

variable {F : FTy → Type} [FloatOps F]

/-- The packed words' fields, one per column: word `p` of a row fills columns `8 p … 8 p + 7`, column `8 p + s` holding
    the word shifted down by the table's entry `s`, masked with 15, as a float. -/
def fields128 (tb : IVec S1x1x8 32) (q : IVec S256x128 32) : FVec F S256x1024 .f32 :=
  shapeCast S256x1024
    (sitofp .f32 (andi (shrsi (broadcastTo S256x128x8 (shapeCast S256x128x1 q shapeCasts_S256x128_S256x128x1) broadcasts_S256x128x1_S256x128x8)
      (broadcastTo S256x128x8 tb broadcasts_S1x1x8_S256x128x8)) (broadcast S256x128x8 15#32)))
    shapeCasts_S256x128x8_S256x1024

/-- The zero-point word's eight fields, one per group: entry `g` of a row is the row's word shifted down by the table's
    entry `g`, masked with 15, as a float. -/
def fields1 (tb : IVec S1x1x8 32) (z : IVec S256x1 32) : FVec F S256x8 .f32 :=
  shapeCast S256x8
    (sitofp .f32 (andi (shrsi (broadcastTo S256x1x8 (shapeCast S256x1x1 z shapeCasts_S256x1_S256x1x1) broadcasts_S256x1x1_S256x1x8)
      (broadcastTo S256x1x8 tb broadcasts_S1x1x8_S256x1x8)) (broadcast S256x1x8 15#32)))
    shapeCasts_S256x1x8_S256x8

/-- Eight per-group values of a row spread over the row's 1024 columns: column `128 g + l` holds group `g`'s. -/
def spread8 (v : FVec F S256x8 .f32) : FVec F S256x1024 .f32 :=
  shapeCast S256x1024
    (broadcastTo S256x8x128
      (shapeCast S256x8x1 (shapeCast S256x8x1 v shapeCasts_S256x8_S256x8x1) shapeCasts_S256x8x1_S256x8x1)
      broadcasts_S256x8x1_S256x8x128)
    shapeCasts_S256x8x128_S256x1024

/-- `(w − z) · s`, narrowed to the output's format. -/
def deq (w z s : FVec F S256x1024 .f32) : FVec F S256x1024 .bf16 :=
  truncf .bf16 (mulf (subf w z) s) bitsLt_bf16_f32

/-- A chunk's stored value from its three loads. -/
def deqChunk (q : IVec S256x128 32) (z : IVec S256x1 32) (sc : FVec F S256x8 .f32) : FVec F S256x1024 .bf16 :=
  deq (fields128 k0_pay3 q) (spread8 (fields1 k0_pay4 z)) (spread8 sc)

/-- Each of the four printed payloads is that chain (the second and third are printed in parts). -/
theorem pay5_eq (q : Vec F S256x128 .i32) (z : Vec F S256x1 .i32) (sc : Vec F S256x8 .f32) :
    k0_pay5 q z sc = deqChunk q z sc := rfl
theorem pay8_eq (q : Vec F S256x128 .i32) (z : Vec F S256x1 .i32) (sc : Vec F S256x8 .f32) :
    k0_pay8 k0_pay4 (k0_pay6 (F := F) q) k0_pay7 z sc = deqChunk q z sc := rfl
theorem pay1_eq (q : Vec F S256x128 .i32) (z : Vec F S256x1 .i32) (sc : Vec F S256x8 .f32) :
    k0_pay1 (k0_pay9 k0_pay3 q) (k0_pay10 k0_pay4 z) sc = deqChunk q z sc := rfl
theorem pay2_eq (q : Vec F S256x128 .i32) (z : Vec F S256x1 .i32) (sc : Vec F S256x8 .f32) :
    k0_pay2 k0_pay3 k0_pay4 q z sc = deqChunk q z sc := rfl

end Chain

/-! ## The chain read at an index -/

section ChainAt

variable {F : FTy → Type} [FloatOps F]

/-- The shift table: entry `s` is `4 s`. -/
theorem shiftTab3_apply (s : Fin 8) : k0_pay3 (ix3 (0 : Fin 1) (0 : Fin 1) s) = BitVec.ofNat 32 (4 * s.val) := by
  unfold k0_pay3
  show IntOp.muli (iota .tc S1x1x8 32 [2] iota_S1x1x8_d2_w32 (ix3 (0 : Fin 1) (0 : Fin 1) s)) 4#32 = _
  rw [iota_single_apply]
  show IntOp.muli (BitVec.ofNat 32 s.val) 4#32 = _
  match s with
  | ⟨0, _⟩ => rfl | ⟨1, _⟩ => rfl | ⟨2, _⟩ => rfl | ⟨3, _⟩ => rfl
  | ⟨4, _⟩ => rfl | ⟨5, _⟩ => rfl | ⟨6, _⟩ => rfl | ⟨7, _⟩ => rfl

/-- The second copy of the table is the same. -/
theorem shiftTab4_apply (s : Fin 8) : k0_pay4 (ix3 (0 : Fin 1) (0 : Fin 1) s) = BitVec.ofNat 32 (4 * s.val) :=
  shiftTab3_apply s

/-- Column `kk` of the spread-out packed words is word `kk / 8` shifted by the table's entry `kk % 8`, masked, as a float. -/
theorem fields128_apply (tb : IVec S1x1x8 32) (q : IVec S256x128 32) (r : Fin 256) (kk : Fin 1024)
    (p : Fin 128) (s : Fin 8) (hp : p.val = kk.val / 8) (hs : s.val = kk.val % 8) :
    fields128 (F := F) tb q (ix2 r kk)
      = FloatOps.sitofp .f32 (IntOp.andi (IntOp.shrsi .vector (q (ix2 r p)) (tb (ix3 (0 : Fin 1) (0 : Fin 1) s))) 15#32) := by
  unfold fields128
  refine (shapeCast_apply _ _ (ix2 r kk) (ix3 r p s) ?_).trans ?_
  · rw [Shape.rowMajor_val_three, Shape.rowMajor_val_two]
    show (r.val * 128 + p.val) * 8 + s.val = r.val * 1024 + kk.val
    omega
  · show FloatOps.sitofp .f32 (IntOp.andi (IntOp.shrsi .vector
        (broadcastTo S256x128x8 (shapeCast S256x128x1 q shapeCasts_S256x128_S256x128x1) broadcasts_S256x128x1_S256x128x8 (ix3 r p s))
        (broadcastTo S256x128x8 tb broadcasts_S1x1x8_S256x128x8 (ix3 r p s))) 15#32) = _
    have e1 : broadcastTo S256x128x8 (shapeCast S256x128x1 q shapeCasts_S256x128_S256x128x1) broadcasts_S256x128x1_S256x128x8 (ix3 r p s)
        = q (ix2 r p) := by
      refine (broadcastTo_apply _ _ (ix3 r p s) (ix3 r p (0 : Fin 1)) fun a => ?_).trans ?_
      · match a with
        | ⟨0, _⟩ => rfl
        | ⟨1, _⟩ => rfl
        | ⟨2, _⟩ => rfl
      · refine shapeCast_apply _ _ (ix3 r p (0 : Fin 1)) (ix2 r p) ?_
        rw [Shape.rowMajor_val_three, Shape.rowMajor_val_two]
        show r.val * 128 + p.val = (r.val * 128 + p.val) * 1 + 0
        omega
    have e2 : broadcastTo S256x128x8 tb broadcasts_S1x1x8_S256x128x8 (ix3 r p s) = tb (ix3 (0 : Fin 1) (0 : Fin 1) s) := by
      refine broadcastTo_apply _ _ (ix3 r p s) (ix3 (0 : Fin 1) (0 : Fin 1) s) fun a => ?_
      match a with
      | ⟨0, _⟩ => rfl
      | ⟨1, _⟩ => rfl
      | ⟨2, _⟩ => rfl
    rw [e1, e2]

/-- Entry `g` of the zero-point fields is the row's word shifted by the table's entry `g`, masked, as a float. -/
theorem fields1_apply (tb : IVec S1x1x8 32) (z : IVec S256x1 32) (r : Fin 256) (g : Fin 8) :
    fields1 (F := F) tb z (ix2 r g)
      = FloatOps.sitofp .f32 (IntOp.andi (IntOp.shrsi .vector (z (ix2 r (0 : Fin 1))) (tb (ix3 (0 : Fin 1) (0 : Fin 1) g))) 15#32) := by
  unfold fields1
  refine (shapeCast_apply _ _ (ix2 r g) (ix3 r (0 : Fin 1) g) ?_).trans ?_
  · rw [Shape.rowMajor_val_three, Shape.rowMajor_val_two]
    show (r.val * 1 + 0) * 8 + g.val = r.val * 8 + g.val
    omega
  · show FloatOps.sitofp .f32 (IntOp.andi (IntOp.shrsi .vector
        (broadcastTo S256x1x8 (shapeCast S256x1x1 z shapeCasts_S256x1_S256x1x1) broadcasts_S256x1x1_S256x1x8 (ix3 r (0 : Fin 1) g))
        (broadcastTo S256x1x8 tb broadcasts_S1x1x8_S256x1x8 (ix3 r (0 : Fin 1) g))) 15#32) = _
    have e1 : broadcastTo S256x1x8 (shapeCast S256x1x1 z shapeCasts_S256x1_S256x1x1) broadcasts_S256x1x1_S256x1x8 (ix3 r (0 : Fin 1) g)
        = z (ix2 r (0 : Fin 1)) := by
      refine (broadcastTo_apply _ _ (ix3 r (0 : Fin 1) g) (ix3 r (0 : Fin 1) (0 : Fin 1)) fun a => ?_).trans ?_
      · match a with
        | ⟨0, _⟩ => rfl
        | ⟨1, _⟩ => rfl
        | ⟨2, _⟩ => rfl
      · refine shapeCast_apply _ _ (ix3 r (0 : Fin 1) (0 : Fin 1)) (ix2 r (0 : Fin 1)) ?_
        rw [Shape.rowMajor_val_three, Shape.rowMajor_val_two]
        show r.val * 1 + 0 = (r.val * 1 + 0) * 1 + 0
        omega
    have e2 : broadcastTo S256x1x8 tb broadcasts_S1x1x8_S256x1x8 (ix3 r (0 : Fin 1) g) = tb (ix3 (0 : Fin 1) (0 : Fin 1) g) := by
      refine broadcastTo_apply _ _ (ix3 r (0 : Fin 1) g) (ix3 (0 : Fin 1) (0 : Fin 1) g) fun a => ?_
      match a with
      | ⟨0, _⟩ => rfl
      | ⟨1, _⟩ => rfl
      | ⟨2, _⟩ => rfl
    rw [e1, e2]

/-- Column `kk` of the spread-out per-group values is group `kk / 128`'s. -/
theorem spread8_apply (v : FVec F S256x8 .f32) (r : Fin 256) (kk : Fin 1024) (g : Fin 8) (hg : g.val = kk.val / 128) :
    spread8 v (ix2 r kk) = v (ix2 r g) := by
  unfold spread8
  rw [shapeCast_self]
  refine (shapeCast_apply _ _ (ix2 r kk) (ix3 r g (⟨kk.val % 128, Nat.mod_lt _ (by decide)⟩ : Fin 128)) ?_).trans ?_
  · rw [Shape.rowMajor_val_three, Shape.rowMajor_val_two]
    show (r.val * 8 + g.val) * 128 + kk.val % 128 = r.val * 1024 + kk.val
    omega
  · refine (broadcastTo_apply _ _ (ix3 r g (⟨kk.val % 128, Nat.mod_lt _ (by decide)⟩ : Fin 128)) (ix3 r g (0 : Fin 1)) fun a => ?_).trans ?_
    · match a with
      | ⟨0, _⟩ => rfl
      | ⟨1, _⟩ => rfl
      | ⟨2, _⟩ => rfl
    · refine shapeCast_apply _ _ (ix3 r g (0 : Fin 1)) (ix2 r g) ?_
      rw [Shape.rowMajor_val_three, Shape.rowMajor_val_two]
      show r.val * 8 + g.val = (r.val * 8 + g.val) * 1 + 0
      omega

end ChainAt

/-- A chunk at column `kk`, on the extended reals: field `kk % 8` of packed word `kk / 8`, less field `kk / 128` of the
    zero-point word, times scale `kk / 128`. -/
theorem deqChunk_apply (q : IVec S256x128 32) (z : IVec S256x1 32) (sc : FVec Ideal S256x8 .f32) (r : Fin 256) (kk : Fin 1024)
    (p : Fin 128) (s g : Fin 8) (hp : p.val = kk.val / 8) (hs : s.val = kk.val % 8) (hg : g.val = kk.val / 128) :
    deqChunk (F := Ideal) q z sc (ix2 r kk)
      = ((((Cert.QLinear.nib (q (ix2 r p)) s).toInt : ℝ) : EReal)
          - (((Cert.QLinear.nib (z (ix2 r (0 : Fin 1))) g).toInt : ℝ) : EReal)) * sc (ix2 r g) := by
  unfold deqChunk deq
  rw [truncf_apply, mulf_apply, subf_apply, fields128_apply k0_pay3 q r kk p s hp hs, spread8_apply _ r kk g hg,
    spread8_apply sc r kk g hg, fields1_apply, shiftTab3_apply, shiftTab4_apply]
  rfl

/-! ## The four chunks of the block, and the block -/

/-- A load through a unit-stride rectangle of a rank-2 block reads the block at the rectangle's offsets plus the index. -/
theorem ld_unit_ix2 {Val : EltTy → Type} {e : EltTy} {n0 n1 m0 m1 : ℕ} (X : (⟨2, ![n0, n1]⟩ : Shape).Idx → Val e) (o0 o1 : ℕ)
    (inb : ∀ a, (![o0, o1] : Fin 2 → ℕ) a + (⟨2, ![m0, m1]⟩ : Shape).size a ≤ (⟨2, ![n0, n1]⟩ : Shape).size a)
    (i : Fin m0) (j : Fin m1) (i' : Fin n0) (j' : Fin n1) (hi : i'.val = o0 + i.val) (hj : j'.val = o1 + j.val) :
    View.ld X (Rect.unit (s := ⟨2, ![n0, n1]⟩) ![o0, o1] (⟨2, ![m0, m1]⟩ : Shape).size inb) (ix2 i j) = X (ix2 i' j') := by
  show X ((Rect.unit (s := ⟨2, ![n0, n1]⟩) ![o0, o1] (⟨2, ![m0, m1]⟩ : Shape).size inb).idx (ix2 i j)) = X (ix2 i' j')
  refine congrArg X (funext fun a => Fin.ext ?_)
  match a with
  | ⟨0, _⟩ => show o0 + 1 * i.val = i'.val; omega
  | ⟨1, _⟩ => show o1 + 1 * j.val = j'.val; omega

/-- The block's value at row `r`, column `k`: field `k % 8` of packed word `k / 8`, less field `(k / 128) % 8` of zero-point
    word `k / 1024`, times scale `k / 128`. -/
def blkVal (x0 : Vec Ideal S256x512 .i32) (x1 : Vec Ideal S256x4 .i32) (x2 : Vec Ideal S256x32 .f32) (r : Fin 256) (k : Fin 4096) : EReal :=
  ((((Cert.QLinear.nib (x0 (ix2 r (⟨k.val / 8, by omega⟩ : Fin 512))) ⟨k.val % 8, by omega⟩).toInt : ℝ) : EReal)
      - (((Cert.QLinear.nib (x1 (ix2 r (⟨k.val / 1024, by omega⟩ : Fin 4))) ⟨k.val / 128 % 8, by omega⟩).toInt : ℝ) : EReal))
    * x2 (ix2 r (⟨k.val / 128, by omega⟩ : Fin 32))

section Chunks

variable (x0 : Vec Ideal S256x512 .i32) (x1 : Vec Ideal S256x4 .i32) (x2 : Vec Ideal S256x32 .f32)

/-- Chunk `g` at column `kk` is the block's value at column `1024 g + kk`. -/
theorem chunk0_apply (r : Fin 256) (kk : Fin 1024) (r' : Fin 256) (k : Fin 4096) (hr : r'.val = r.val) (hk : k.val = 0 + kk.val) :
    chunk0 (F := Ideal) x0 x1 x2 (ix2 r kk) = blkVal x0 x1 x2 r' k := by
  obtain rfl : r = r' := Fin.ext hr.symm
  unfold chunk0 blkVal
  rw [pay5_eq]
  refine (deqChunk_apply _ _ _ r kk ⟨kk.val / 8, by omega⟩ ⟨k.val % 8, by omega⟩ ⟨k.val / 128 % 8, by omega⟩ rfl
    (show k.val % 8 = kk.val % 8 by omega) (show k.val / 128 % 8 = kk.val / 128 by omega)).trans ?_
  rw [ld_unit_ix2 x0 0 0 inb_S256x512_S256x128_0_0 r (⟨kk.val / 8, by omega⟩ : Fin 128) r (⟨k.val / 8, by omega⟩ : Fin 512) (by omega) (show k.val / 8 = 0 + kk.val / 8 by omega),
    ld_unit_ix2 x1 0 0 inb_S256x4_S256x1_0_0 r (0 : Fin 1) r (⟨k.val / 1024, by omega⟩ : Fin 4) (by omega) (show k.val / 1024 = 0 + 0 by omega),
    ld_unit_ix2 x2 0 0 inb_S256x32_S256x8_0_0 r (⟨k.val / 128 % 8, by omega⟩ : Fin 8) r (⟨k.val / 128, by omega⟩ : Fin 32) (by omega) (show k.val / 128 = 0 + k.val / 128 % 8 by omega)]

theorem chunk1_apply (r : Fin 256) (kk : Fin 1024) (r' : Fin 256) (k : Fin 4096) (hr : r'.val = r.val) (hk : k.val = 1024 + kk.val) :
    chunk1 (F := Ideal) x0 x1 x2 (ix2 r kk) = blkVal x0 x1 x2 r' k := by
  obtain rfl : r = r' := Fin.ext hr.symm
  unfold chunk1 blkVal
  rw [pay8_eq]
  refine (deqChunk_apply _ _ _ r kk ⟨kk.val / 8, by omega⟩ ⟨k.val % 8, by omega⟩ ⟨k.val / 128 % 8, by omega⟩ rfl
    (show k.val % 8 = kk.val % 8 by omega) (show k.val / 128 % 8 = kk.val / 128 by omega)).trans ?_
  rw [ld_unit_ix2 x0 0 128 inb_S256x512_S256x128_0_128 r (⟨kk.val / 8, by omega⟩ : Fin 128) r (⟨k.val / 8, by omega⟩ : Fin 512) (by omega) (show k.val / 8 = 128 + kk.val / 8 by omega),
    ld_unit_ix2 x1 0 1 inb_S256x4_S256x1_0_1 r (0 : Fin 1) r (⟨k.val / 1024, by omega⟩ : Fin 4) (by omega) (show k.val / 1024 = 1 + 0 by omega),
    ld_unit_ix2 x2 0 8 inb_S256x32_S256x8_0_8 r (⟨k.val / 128 % 8, by omega⟩ : Fin 8) r (⟨k.val / 128, by omega⟩ : Fin 32) (by omega) (show k.val / 128 = 8 + k.val / 128 % 8 by omega)]

theorem chunk2_apply (r : Fin 256) (kk : Fin 1024) (r' : Fin 256) (k : Fin 4096) (hr : r'.val = r.val) (hk : k.val = 2048 + kk.val) :
    chunk2 (F := Ideal) x0 x1 x2 (ix2 r kk) = blkVal x0 x1 x2 r' k := by
  obtain rfl : r = r' := Fin.ext hr.symm
  unfold chunk2 blkVal
  rw [pay1_eq]
  refine (deqChunk_apply _ _ _ r kk ⟨kk.val / 8, by omega⟩ ⟨k.val % 8, by omega⟩ ⟨k.val / 128 % 8, by omega⟩ rfl
    (show k.val % 8 = kk.val % 8 by omega) (show k.val / 128 % 8 = kk.val / 128 by omega)).trans ?_
  rw [ld_unit_ix2 x0 0 256 inb_S256x512_S256x128_0_256 r (⟨kk.val / 8, by omega⟩ : Fin 128) r (⟨k.val / 8, by omega⟩ : Fin 512) (by omega) (show k.val / 8 = 256 + kk.val / 8 by omega),
    ld_unit_ix2 x1 0 2 inb_S256x4_S256x1_0_2 r (0 : Fin 1) r (⟨k.val / 1024, by omega⟩ : Fin 4) (by omega) (show k.val / 1024 = 2 + 0 by omega),
    ld_unit_ix2 x2 0 16 inb_S256x32_S256x8_0_16 r (⟨k.val / 128 % 8, by omega⟩ : Fin 8) r (⟨k.val / 128, by omega⟩ : Fin 32) (by omega) (show k.val / 128 = 16 + k.val / 128 % 8 by omega)]

theorem chunk3_apply (r : Fin 256) (kk : Fin 1024) (r' : Fin 256) (k : Fin 4096) (hr : r'.val = r.val) (hk : k.val = 3072 + kk.val) :
    chunk3 (F := Ideal) x0 x1 x2 (ix2 r kk) = blkVal x0 x1 x2 r' k := by
  obtain rfl : r = r' := Fin.ext hr.symm
  unfold chunk3 blkVal
  rw [pay2_eq]
  refine (deqChunk_apply _ _ _ r kk ⟨kk.val / 8, by omega⟩ ⟨k.val % 8, by omega⟩ ⟨k.val / 128 % 8, by omega⟩ rfl
    (show k.val % 8 = kk.val % 8 by omega) (show k.val / 128 % 8 = kk.val / 128 by omega)).trans ?_
  rw [ld_unit_ix2 x0 0 384 inb_S256x512_S256x128_0_384 r (⟨kk.val / 8, by omega⟩ : Fin 128) r (⟨k.val / 8, by omega⟩ : Fin 512) (by omega) (show k.val / 8 = 384 + kk.val / 8 by omega),
    ld_unit_ix2 x1 0 3 inb_S256x4_S256x1_0_3 r (0 : Fin 1) r (⟨k.val / 1024, by omega⟩ : Fin 4) (by omega) (show k.val / 1024 = 3 + 0 by omega),
    ld_unit_ix2 x2 0 24 inb_S256x32_S256x8_0_24 r (⟨k.val / 128 % 8, by omega⟩ : Fin 8) r (⟨k.val / 128, by omega⟩ : Fin 32) (by omega) (show k.val / 128 = 24 + k.val / 128 % 8 by omega)]

/-- The block's value as a function of the block's index. -/
def blkFn : S256x4096.Idx → EReal := fun y => blkVal x0 x1 x2 ⟨(y 0).val, idx2_lt0 y⟩ ⟨(y 1).val, idx2_lt1 y⟩

/-- The body's four stores, last first. -/
abbrev stores0 : List (View.Piece (Elt Ideal) S256x4096 .bf16) :=
  [⟨rO3, chunk3 x0 x1 x2⟩, ⟨rO2, chunk2 x0 x1 x2⟩, ⟨rO1, chunk1 x0 x1 x2⟩, ⟨rO0, chunk0 x0 x1 x2⟩]

/-- Each of the four stores is its rectangle's part of that one function. -/
theorem pieces_blkFn :
    ∀ p ∈ stores0 x0 x1 x2,
      ∀ x : p.1.shape.Idx, p.2 x = blkFn x0 x1 x2 (p.1.emb x) := by
  intro p hp
  simp only [List.mem_cons, List.not_mem_nil, or_false] at hp
  rcases hp with rfl | rfl | rfl | rfl
  · intro x
    obtain ⟨r, kk, rfl⟩ : ∃ (r : Fin 256) (kk : Fin 1024), x = ix2 r kk := ⟨x 0, x 1, eq_ix2 (n0 := 256) (n1 := 1024) x⟩
    exact chunk3_apply x0 x1 x2 r kk _ _ (show 0 + 1 * r.val = r.val by omega) (show 3072 + 1 * kk.val = 3072 + kk.val by omega)
  · intro x
    obtain ⟨r, kk, rfl⟩ : ∃ (r : Fin 256) (kk : Fin 1024), x = ix2 r kk := ⟨x 0, x 1, eq_ix2 (n0 := 256) (n1 := 1024) x⟩
    exact chunk2_apply x0 x1 x2 r kk _ _ (show 0 + 1 * r.val = r.val by omega) (show 2048 + 1 * kk.val = 2048 + kk.val by omega)
  · intro x
    obtain ⟨r, kk, rfl⟩ : ∃ (r : Fin 256) (kk : Fin 1024), x = ix2 r kk := ⟨x 0, x 1, eq_ix2 (n0 := 256) (n1 := 1024) x⟩
    exact chunk1_apply x0 x1 x2 r kk _ _ (show 0 + 1 * r.val = r.val by omega) (show 1024 + 1 * kk.val = 1024 + kk.val by omega)
  · intro x
    obtain ⟨r, kk, rfl⟩ : ∃ (r : Fin 256) (kk : Fin 1024), x = ix2 r kk := ⟨x 0, x 1, eq_ix2 (n0 := 256) (n1 := 1024) x⟩
    exact chunk0_apply x0 x1 x2 r kk _ _ (show 0 + 1 * r.val = r.val by omega) (show 0 + 1 * kk.val = 0 + kk.val by omega)

/-- The four stores side by side are that function on the whole block. -/
theorem out0_3_eq_blkFn : out0_3 (F := Ideal) x0 x1 x2 = blkFn x0 x1 x2 := by
  funext y
  show View.canon (stores0 x0 x1 x2) y = _
  exact View.canon_apply_of_pieces (blkFn x0 x1 x2) (stores0 x0 x1 x2) (pieces_blkFn x0 x1 x2) y
    (View.cover_of_tiled (stores0 x0 x1 x2) S256x1024.size (by rfl) y)

end Chunks

/-- The output block after the body, at row `r` and column `k`. -/
theorem out0_3_apply (x0 : Vec Ideal S256x512 .i32) (x1 : Vec Ideal S256x4 .i32) (x2 : Vec Ideal S256x32 .f32)
    (r : Fin 256) (k : Fin 4096) :
    out0_3 (F := Ideal) x0 x1 x2 (ix2 r k)
      = ((((Cert.QLinear.nib (x0 (ix2 r (⟨k.val / 8, by omega⟩ : Fin 512))) ⟨k.val % 8, by omega⟩).toInt : ℝ) : EReal)
          - (((Cert.QLinear.nib (x1 (ix2 r (⟨k.val / 1024, by omega⟩ : Fin 4))) ⟨k.val / 128 % 8, by omega⟩).toInt : ℝ) : EReal))
        * x2 (ix2 r (⟨k.val / 128, by omega⟩ : Fin 32)) := by
  rw [out0_3_eq_blkFn]
  rfl

/-! ## From the 16 blocks to the array -/

section Blocks

variable (V : (c : Dev nD) → (b : Ref sig .tc) → Buf (Elt Ideal) ((c : Thread nD τ).loc b)) (c : Dev nD)

/-- The four windows' block indices at point `t`: block row `t`, block column 0. -/
theorem idx_facts0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- The packed weight's block at point `t` holds rows `256 t … 256 t + 255` of the array. -/
theorem iblk0_0_apply (t : Fin cfg0.N) (r : Fin 256) (p : Fin 512) (n : Fin 4096) (hn : n.val = 256 * t.val + r.val) :
    iblk0 V c 0 t (ix2 r p) = V c main_arg1 (ix2 n p) := by
  obtain ⟨e0, e1, -⟩ := idx_facts0 t
  show V c main_arg1 (((cfg0.win 0).blk t).view.emb (ix2 r p)) = V c main_arg1 (ix2 n p)
  refine congrArg (V c main_arg1) (funext fun a => Fin.ext ?_)
  match a with
  | ⟨0, _⟩ => show win0_0.index t (0 : Fin 2) * 256 + 1 * r.val = n.val; omega
  | ⟨1, _⟩ => show win0_0.index t (1 : Fin 2) * 512 + 1 * p.val = p.val; omega

/-- The zero points' block, likewise. -/
theorem iblk0_1_apply (t : Fin cfg0.N) (r : Fin 256) (p : Fin 4) (n : Fin 4096) (hn : n.val = 256 * t.val + r.val) :
    iblk0 V c 1 t (ix2 r p) = V c main_arg2 (ix2 n p) := by
  obtain ⟨-, -, e0, e1, -⟩ := idx_facts0 t
  show V c main_arg2 (((cfg0.win 1).blk t).view.emb (ix2 r p)) = V c main_arg2 (ix2 n p)
  refine congrArg (V c main_arg2) (funext fun a => Fin.ext ?_)
  match a with
  | ⟨0, _⟩ => show win0_1.index t (0 : Fin 2) * 256 + 1 * r.val = n.val; omega
  | ⟨1, _⟩ => show win0_1.index t (1 : Fin 2) * 4 + 1 * p.val = p.val; omega

/-- The scales' block, likewise. -/
theorem iblk0_2_apply (t : Fin cfg0.N) (r : Fin 256) (p : Fin 32) (n : Fin 4096) (hn : n.val = 256 * t.val + r.val) :
    iblk0 V c 2 t (ix2 r p) = V c main_arg3 (ix2 n p) := by
  obtain ⟨-, -, -, -, e0, e1, -⟩ := idx_facts0 t
  show V c main_arg3 (((cfg0.win 2).blk t).view.emb (ix2 r p)) = V c main_arg3 (ix2 n p)
  refine congrArg (V c main_arg3) (funext fun a => Fin.ext ?_)
  match a with
  | ⟨0, _⟩ => show win0_2.index t (0 : Fin 2) * 256 + 1 * r.val = n.val; omega
  | ⟨1, _⟩ => show win0_2.index t (1 : Fin 2) * 32 + 1 * p.val = p.val; omega

/-- The block's value at point `t`, row `r`, is the dequantized weight's at row `256 t + r`. -/
theorem blkVal_iblk (t : Fin cfg0.N) (r : Fin 256) (k : Fin 4096) (n : Fin 4096) (hn : n.val = 256 * t.val + r.val) :
    blkVal (iblk0 V c 0 t) (iblk0 V c 1 t) (iblk0 V c 2 t) r k
      = Cert.QLinear.wq (V c main_arg1) (V c main_arg2) (V c main_arg3) n k := by
  unfold blkVal Cert.QLinear.wq
  rw [iblk0_0_apply V c t r _ n hn, iblk0_1_apply V c t r _ n hn, iblk0_2_apply V c t r _ n hn]

/-- The dequantized weight read through the output's block at point `t`. -/
theorem wArr_emb (qw : IVec ⟨2, ![4096, 512]⟩ 32) (qz : IVec ⟨2, ![4096, 4]⟩ 32) (sc : FVec Ideal ⟨2, ![4096, 32]⟩ .f32)
    (t : Fin cfg0.N) (r : Fin 256) (k : Fin 4096) (n : Fin 4096) (hn : n.val = 256 * t.val + r.val) :
    Cert.QLinear.wArr qw qz sc (((cfg0.win 3).blk t).view.emb (ix2 r k)) = Cert.QLinear.wq qw qz sc n k := by
  obtain ⟨-, -, -, -, -, -, e0, e1⟩ := idx_facts0 t
  unfold Cert.QLinear.wArr
  congr 1 <;> apply Fin.ext
  · show win0_3.index t (0 : Fin 2) * 256 + 1 * r.val = n.val; omega
  · show win0_3.index t (1 : Fin 2) * 4096 + 1 * k.val = k.val; omega

/-- What point `t` writes back is block `t` of the dequantized weight. -/
theorem flushed3_eq (t : Fin cfg0.N) :
    (dat0 (F := Ideal) V c).flushed 3 t
      = ((cfg0.win 3).blk t).view.read (Elt Ideal) (Cert.QLinear.wArr (V c main_arg1) (V c main_arg2) (V c main_arg3)) := by
  show (cfg0.win 3).cut (grid0.coords t) ((dat0 (F := Ideal) V c).after 3 t) = _
  rw [after0_3, out0_3_eq_blkFn]
  funext j
  obtain ⟨r, k, rfl⟩ : ∃ (r : Fin 256) (k : Fin 4096), j = ix2 r k := ⟨j 0, j 1, eq_ix2 (n0 := 256) (n1 := 4096) j⟩
  have ht : t.val < 16 := t.isLt
  show blkVal (iblk0 V c 0 t) (iblk0 V c 1 t) (iblk0 V c 2 t) r k
    = Cert.QLinear.wArr (V c main_arg1) (V c main_arg2) (V c main_arg3) (((cfg0.win 3).blk t).view.emb (ix2 r k))
  rw [wArr_emb _ _ _ t r k ⟨256 * t.val + r.val, by omega⟩ rfl, blkVal_iblk V c t r k ⟨256 * t.val + r.val, by omega⟩ rfl]

/-- An index of the array is in point `t`'s block iff each coordinate is in the block's range on its axis. -/
theorem mem_blk3 (t : Fin cfg0.N) (i : S4096x4096.Idx) :
    i ∈ ((cfg0.win 3).blk t).view.set ↔ ∀ a : Fin 2, win0_3.index t a * S256x4096.size a ≤ (i a).val ∧ (i a).val < win0_3.index t a * S256x4096.size a + S256x4096.size a := by
  show i ∈ ((View.whole main_v0).slice (win0_3.rect t)).set ↔ _
  rw [View.set_slice_whole, Rect.mem_set_unit]
  exact Iff.rfl

/-- Row `n` of the array is in the block of point `n / 256`. -/
theorem cover3 (i : S4096x4096.Idx) :
    ∃ t : Fin cfg0.N, (cfg0.win 3).flush t = true ∧ i ∈ ((cfg0.win 3).blk t).view.set := by
  have hi0 : (i 0).val < 4096 := (i 0).isLt
  have hi1 : (i 1).val < 4096 := (i 1).isLt
  have hq : (i 0).val / 256 < 16 := by omega
  refine ⟨⟨(i 0).val / 256, hq⟩, flush0_3 _, ?_⟩
  obtain ⟨-, -, -, -, -, -, e0, e1⟩ := idx_facts0 ⟨(i 0).val / 256, hq⟩
  rw [mem_blk3]
  intro a
  match a with
  | ⟨0, _⟩ =>
    show win0_3.index ⟨(i 0).val / 256, hq⟩ (0 : Fin 2) * 256 ≤ (i 0).val ∧ (i 0).val < win0_3.index ⟨(i 0).val / 256, hq⟩ (0 : Fin 2) * 256 + 256
    rw [e0]; show (i 0).val / 256 * 256 ≤ (i 0).val ∧ (i 0).val < (i 0).val / 256 * 256 + 256; omega
  | ⟨1, _⟩ =>
    show win0_3.index ⟨(i 0).val / 256, hq⟩ (1 : Fin 2) * 4096 ≤ (i 1).val ∧ (i 1).val < win0_3.index ⟨(i 0).val / 256, hq⟩ (1 : Fin 2) * 4096 + 4096
    rw [e1]; omega

/-- The output array after the region's 16 points: the dequantized weight. -/
theorem final0 : (dat0 (F := Ideal) V c).arrAt 3 cfg0.N = Cert.QLinear.wArr (V c main_arg1) (V c main_arg2) (V c main_arg3) :=
  (dat0 (F := Ideal) V c).arrAt_eq_of_cover 3 (Cert.QLinear.wArr (V c main_arg1) (V c main_arg2) (V c main_arg3))
    (fun t _ => flushed3_eq V c t) cover3

end Blocks

end Cert.KernelIdeal.Hand

end
-- ==== Proof.MatmulValue.lean ====
/-
  What the matrix-product kernel leaves in its output array, as one function of the arrays it finds.

  The grid is 4 × 4 × 4; point (i, j, k) holds the 1024 × 1024 block (i, k) of the left factor, block (j, k) of the
  right factor (stored [out, in]: both factors are contracted along their second axis), block (0, j) of the bias row
  and block (i, j) of the output. A 1024 × 1024 accumulator is carried from point to point: reset to zero at k = 0,
  increased at every point by the product of the two blocks, and at k = 3 written out with the bias row added to
  every row. Entry (p, n) of the output is therefore the sum over all 4096 columns c of left[p, c] · right[n, c],
  cut into the four stretches of 1024 columns, plus bias[n].
-/
import proofs.«426883_j77292231459026_3_alg».proof.Proof.Gen.KernelIdeal.Skeleton
import proofs.«426883_j77292231459026_3_alg».proof.Proof.Gen.KernelIdeal.Launch
import proofs.«426883_j77292231459026_3_alg».proof.Proof.Gen.KernelIdeal.Points
import proofs.«426883_j77292231459026_3_alg».proof.Proof.Spec
import proofs.«426883_j77292231459026_3_alg».proof.Proof.MatmulRegion
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.Hand

open Cert.KernelIdeal Cert.KernelIdeal.Gen
open Idealize.ShloMosaic Idealize.ShloMosaic.TcCoe Idealize.ShloMosaic.ValueIdx
open Idealize.ShloMosaic.Pipeline (Dat)

/-! ## The body's three values at an entry -/

/-- The accumulator's reset value is zero everywhere. -/
theorem zeros_apply (p q : Fin 1024) : k1_pay1 (F := Ideal) (ix2 p q) = 0 := by
  unfold k1_pay1
  rw [shapeCast_self]
  show Ideal.ofBits .f32 0x00000000#32 = 0
  exact Ideal.ofBits_zero_f32

/-- The left factor's row coordinate is the output's row. -/
theorem lhs_row (j : S1024x1024.Idx) (k : dot_S1024x1024_S1024x1024_S1024x1024_1_1_0_0_n_n.contr.Idx) :
    (dot_S1024x1024_S1024x1024_S1024x1024_1_1_0_0_n_n.lhsIdx j k 0).val = (j 0).val := by
  simp [DotDims.lhsIdx, dot_S1024x1024_S1024x1024_S1024x1024_1_1_0_0_n_n]; rfl

/-- The left factor's column coordinate is the contracted position. -/
theorem lhs_col (j : S1024x1024.Idx) (k : dot_S1024x1024_S1024x1024_S1024x1024_1_1_0_0_n_n.contr.Idx) :
    (dot_S1024x1024_S1024x1024_S1024x1024_1_1_0_0_n_n.lhsIdx j k 1).val = (k ⟨0, by decide⟩).val :=
  dot_S1024x1024_S1024x1024_S1024x1024_1_1_0_0_n_n.lhsIdx_val_of_single rfl j k

/-- The right factor's row coordinate is the output's column. -/
theorem rhs_row (j : S1024x1024.Idx) (k : dot_S1024x1024_S1024x1024_S1024x1024_1_1_0_0_n_n.contr.Idx) :
    (dot_S1024x1024_S1024x1024_S1024x1024_1_1_0_0_n_n.rhsIdx j k 0).val = (j 1).val := by
  simp [DotDims.rhsIdx, dot_S1024x1024_S1024x1024_S1024x1024_1_1_0_0_n_n]; rfl

/-- The right factor's column coordinate is the contracted position. -/
theorem rhs_col (j : S1024x1024.Idx) (k : dot_S1024x1024_S1024x1024_S1024x1024_1_1_0_0_n_n.contr.Idx) :
    (dot_S1024x1024_S1024x1024_S1024x1024_1_1_0_0_n_n.rhsIdx j k 1).val = (k ⟨0, by decide⟩).val :=
  dot_S1024x1024_S1024x1024_S1024x1024_1_1_0_0_n_n.rhsIdx_val_of_single rfl j k

/-- One step of the accumulation at entry (p, q): the accumulator there plus the product of row p of the left
    block with row q of the right block. -/
theorem step_apply (acc : Vec Ideal S1024x1024 .f32) (xb wb : Vec Ideal S1024x1024 .bf16) (p q : Fin 1024) :
    k1_pay2 (F := Ideal) acc xb wb (ix2 p q) = acc (ix2 p q) + ∑ kk : Fin 1024, xb (ix2 p kk) * wb (ix2 q kk) := by
  unfold k1_pay2
  rw [shapeCast_self, shapeCast_self, shapeCast_self]
  show acc (ix2 p q) + FloatOps.matmul (F := Ideal) dot_S1024x1024_S1024x1024_S1024x1024_1_1_0_0_n_n none xb wb
      (constant (F := Ideal) S1024x1024 .f32 0x00000000#32) (ix2 p q) = _
  rw [Ideal.matmul_constant_zero_apply,
    ← Equiv.sum_comp (contrEquiv1 dot_S1024x1024_S1024x1024_S1024x1024_1_1_0_0_n_n 1024 rfl rfl).symm]
  refine congrArg (acc (ix2 p q) + ·) (Finset.sum_congr rfl fun kk _ => ?_)
  have hk := contrEquiv1_symm_val dot_S1024x1024_S1024x1024_S1024x1024_1_1_0_0_n_n 1024 rfl rfl kk
  have el : dot_S1024x1024_S1024x1024_S1024x1024_1_1_0_0_n_n.lhsIdx (ix2 p q)
      ((contrEquiv1 dot_S1024x1024_S1024x1024_S1024x1024_1_1_0_0_n_n 1024 rfl rfl).symm kk) = ix2 p kk := by
    funext a; apply Fin.ext
    match a with
    | ⟨0, _⟩ => exact lhs_row _ _
    | ⟨1, _⟩ => exact (lhs_col _ _).trans hk
  have er : dot_S1024x1024_S1024x1024_S1024x1024_1_1_0_0_n_n.rhsIdx (ix2 p q)
      ((contrEquiv1 dot_S1024x1024_S1024x1024_S1024x1024_1_1_0_0_n_n 1024 rfl rfl).symm kk) = ix2 q kk := by
    funext a; apply Fin.ext
    match a with
    | ⟨0, _⟩ => exact rhs_row _ _
    | ⟨1, _⟩ => exact (rhs_col _ _).trans hk
  rw [el, er]

/-- What is written out at entry (p, q): the accumulator there plus the bias row's entry q. -/
theorem flush_apply (acc : Vec Ideal S1024x1024 .f32) (bias : Vec Ideal S1x1024 .f32) (p q : Fin 1024) :
    k1_pay3 (F := Ideal) acc bias (ix2 p q) = acc (ix2 p q) + bias (ix2 0 q) := by
  unfold k1_pay3
  rw [shapeCast_self]
  show acc (ix2 p q) + broadcastTo S1024x1024 bias broadcasts_S1x1024_S1024x1024 (ix2 p q) = _
  rw [broadcastTo_apply bias broadcasts_S1x1024_S1024x1024 (ix2 p q) (ix2 0 q) (fun a => by
    match a with
    | ⟨0, _⟩ => rfl
    | ⟨1, _⟩ => rfl)]

/-! ## The 4096 columns as four stretches of 1024 -/

/-- A sum over the 4096 columns is the sum over the four stretches of the sums over each stretch's 1024 columns. -/
theorem sum_columns (f : Fin 4096 → EReal) :
    ∑ c : Fin 4096, f c = ∑ kb : Fin 4, ∑ kk : Fin 1024, f ⟨1024 * kb.val + kk.val, by omega⟩ := by
  rw [← Fintype.sum_prod_type', ← Equiv.sum_comp (finProdFinEquiv (m := 4) (n := 1024))]
  refine Finset.sum_congr rfl fun x _ => congrArg f (Fin.ext ?_)
  show x.2.val + 1024 * x.1.val = 1024 * x.1.val + x.2.val
  omega

/-- The accumulator after the four steps, started from zero, is the whole sum. -/
theorem four_steps (s : Fin 4 → EReal) : 0 + s 0 + s 1 + s 2 + s 3 = ∑ kb : Fin 4, s kb := by
  rw [Fin.sum_univ_four, zero_add]

/-! ## Where a grid point's blocks sit in their arrays -/

/-- The windows' block indices at point t, whose coordinates are (t / 16, t / 4 % 4, t % 4): the left factor's block is
    (i, k), the right factor's (j, k), the bias row's (0, j), the output's (i, j). -/
theorem block_indices : ∀ t : Fin cfg1.N,
    win1_0.index t (0 : Fin 2) = t.val / 16 ∧ win1_0.index t (1 : Fin 2) = t.val % 4
    ∧ win1_1.index t (0 : Fin 2) = t.val / 4 % 4 ∧ win1_1.index t (1 : Fin 2) = t.val % 4
    ∧ win1_2.index t (0 : Fin 2) = 0 ∧ win1_2.index t (1 : Fin 2) = t.val / 4 % 4
    ∧ win1_3.index t (0 : Fin 2) = t.val / 16 ∧ win1_3.index t (1 : Fin 2) = t.val / 4 % 4 :=
  (by decide +kernel : ∀ t : Fin grid1.N, _)

/-- Entry (p, kk) of the left factor's block at a point with coordinates (i, _, k) is entry (1024 i + p, 1024 k + kk)
    of the array. -/
theorem left_emb (t : Fin cfg1.N) (i k : Fin 4) (hi : t.val / 16 = i.val) (hk : t.val % 4 = k.val) (p kk : Fin 1024) :
    ((cfg1.win 0).blk t).view.emb (ix2 p kk)
      = ix2 (⟨1024 * i.val + p.val, by omega⟩ : Fin 4096) (⟨1024 * k.val + kk.val, by omega⟩ : Fin 4096) := by
  obtain ⟨e0, e1, -⟩ := block_indices t
  funext a; apply Fin.ext
  match a with
  | ⟨0, _⟩ => show win1_0.index t (0 : Fin 2) * 1024 + 1 * p.val = 1024 * i.val + p.val; omega
  | ⟨1, _⟩ => show win1_0.index t (1 : Fin 2) * 1024 + 1 * kk.val = 1024 * k.val + kk.val; omega

/-- Entry (q, kk) of the right factor's block at a point with coordinates (_, j, k) is entry (1024 j + q, 1024 k + kk)
    of the array. -/
theorem right_emb (t : Fin cfg1.N) (j k : Fin 4) (hj : t.val / 4 % 4 = j.val) (hk : t.val % 4 = k.val) (q kk : Fin 1024) :
    ((cfg1.win 1).blk t).view.emb (ix2 q kk)
      = ix2 (⟨1024 * j.val + q.val, by omega⟩ : Fin 4096) (⟨1024 * k.val + kk.val, by omega⟩ : Fin 4096) := by
  obtain ⟨-, -, e0, e1, -⟩ := block_indices t
  funext a; apply Fin.ext
  match a with
  | ⟨0, _⟩ => show win1_1.index t (0 : Fin 2) * 1024 + 1 * q.val = 1024 * j.val + q.val; omega
  | ⟨1, _⟩ => show win1_1.index t (1 : Fin 2) * 1024 + 1 * kk.val = 1024 * k.val + kk.val; omega

/-- Entry (0, q) of the bias row's block at a point with coordinates (_, j, _) is entry (0, 1024 j + q) of the row. -/
theorem bias_emb (t : Fin cfg1.N) (j : Fin 4) (hj : t.val / 4 % 4 = j.val) (q : Fin 1024) :
    ((cfg1.win 2).blk t).view.emb (ix2 (0 : Fin 1) q)
      = ix2 (0 : Fin 1) (⟨1024 * j.val + q.val, by omega⟩ : Fin 4096) := by
  obtain ⟨-, -, -, -, e0, e1, -⟩ := block_indices t
  funext a; apply Fin.ext
  match a with
  | ⟨0, _⟩ => show win1_2.index t (0 : Fin 2) * 1 + 1 * 0 = 0; omega
  | ⟨1, _⟩ => show win1_2.index t (1 : Fin 2) * 1024 + 1 * q.val = 1024 * j.val + q.val; omega

/-- Entry (p, q) of the output's block at a point with coordinates (i, j, _) is entry (1024 i + p, 1024 j + q) of the
    array. -/
theorem out_emb (t : Fin cfg1.N) (i j : Fin 4) (hi : t.val / 16 = i.val) (hj : t.val / 4 % 4 = j.val) (p q : Fin 1024) :
    ((cfg1.win 3).blk t).view.emb (ix2 p q)
      = ix2 (⟨1024 * i.val + p.val, by omega⟩ : Fin 4096) (⟨1024 * j.val + q.val, by omega⟩ : Fin 4096) := by
  obtain ⟨-, -, -, -, -, -, e0, e1⟩ := block_indices t
  funext a; apply Fin.ext
  match a with
  | ⟨0, _⟩ => show win1_3.index t (0 : Fin 2) * 1024 + 1 * p.val = 1024 * i.val + p.val; omega
  | ⟨1, _⟩ => show win1_3.index t (1 : Fin 2) * 1024 + 1 * q.val = 1024 * j.val + q.val; omega

/-! ## The accumulator along a reduction -/

-- the buffer contents when the region is entered
variable (V : (c : Dev nD) → (b : Ref sig .tc) → Buf (Elt Ideal) ((c : Thread nD τ).loc b))

/-- A 4096 × 4096 array of extended reals, and a 1 × 4096 row. -/
abbrev Mat : Type := (⟨2, ![4096, 4096]⟩ : Shape).Idx → EReal
abbrev Row : Type := (⟨2, ![1, 4096]⟩ : Shape).Idx → EReal

/-- The three arrays the region reads, as it finds them: the left factor, the right factor stored [out, in], the
    bias row. -/
abbrev leftArr (c : Dev nD) : Mat := V c main_v1
abbrev rightArr (c : Dev nD) : Mat := V c main_v0
abbrev biasArr (c : Dev nD) : Row := V c main_v2

/-- Their blocks at grid point t. -/
abbrev leftBlk (c : Dev nD) (t : Fin cfg1.N) : Vec Ideal S1024x1024 .bf16 := iblk1 V c 0 t
abbrev rightBlk (c : Dev nD) (t : Fin cfg1.N) : Vec Ideal S1024x1024 .bf16 := iblk1 V c 1 t
abbrev biasBlk (c : Dev nD) (t : Fin cfg1.N) : Vec Ideal S1x1024 .f32 := iblk1 V c 2 t

/-- The accumulator after the body at position n of the grid. -/
abbrev accAfter (c : Dev nD) (n : ℕ) (h : n < cfg1.N) : Vec Ideal S1024x1024 .f32 := (outsAt1 V c n h).2

/-- The part of the product of row P of a with row Q of b that stretch kb of 1024 columns contributes. -/
def stretch (a b : Mat) (P Q : Fin 4096) (kb : Fin 4) : EReal :=
  ∑ kk : Fin 1024, a (ix2 P (⟨1024 * kb.val + kk.val, by omega⟩ : Fin 4096)) * b (ix2 Q (⟨1024 * kb.val + kk.val, by omega⟩ : Fin 4096))

/-- The accumulator after the steps 0, …, k of a reduction started from zero. -/
def runningSum (s : Fin 4 → EReal) : Fin 4 → EReal
  | ⟨0, _⟩ => 0 + s 0
  | ⟨1, _⟩ => 0 + s 0 + s 1
  | ⟨2, _⟩ => 0 + s 0 + s 1 + s 2
  | ⟨3, _⟩ => 0 + s 0 + s 1 + s 2 + s 3
  | ⟨n + 4, h⟩ => absurd h (by omega)

/-- A later step adds its term to the sum so far. -/
theorem runningSum_succ (s : Fin 4 → EReal) (k k' : Fin 4) (hk : k.val = k'.val + 1) :
    runningSum s k = runningSum s k' + s k := by
  match k, k', hk with
  | ⟨1, _⟩, ⟨0, _⟩, _ => rfl
  | ⟨2, _⟩, ⟨1, _⟩, _ => rfl
  | ⟨3, _⟩, ⟨2, _⟩, _ => rfl

/-- The product of the two blocks a point with coordinates (i, j, k) holds, at entry (p, q), is stretch k of the
    product of row 1024 i + p of the left array with row 1024 j + q of the right array. -/
theorem block_product (c : Dev nD) (t : Fin cfg1.N) (i j k : Fin 4) (hi : t.val / 16 = i.val) (hj : t.val / 4 % 4 = j.val)
    (hk : t.val % 4 = k.val) (p q : Fin 1024) :
    ∑ kk : Fin 1024, leftBlk V c t (ix2 p kk) * rightBlk V c t (ix2 q kk)
      = stretch (leftArr V c) (rightArr V c) ⟨1024 * i.val + p.val, by omega⟩ ⟨1024 * j.val + q.val, by omega⟩ k := by
  unfold stretch
  refine Finset.sum_congr rfl fun kk _ => ?_
  show leftArr V c (((cfg1.win 0).blk t).view.emb (ix2 p kk)) * rightArr V c (((cfg1.win 1).blk t).view.emb (ix2 q kk)) = _
  rw [left_emb t i k hi hk p kk, right_emb t j k hj hk q kk]

/-- After the point with coordinates (i, j, k) the accumulator's entry (p, q) is the sum of the stretches 0, …, k of
    the product of row 1024 i + p of the left array with row 1024 j + q of the right array: the point k = 0 resets
    it and adds its stretch, a later point adds its stretch to what the point before it (same i and j, k − 1) left. -/
theorem acc_at (c : Dev nD) (p q : Fin 1024) : ∀ (n : ℕ) (t : Fin cfg1.N), t.val = n → ∀ (i j k : Fin 4)
    (hi : t.val / 16 = i.val) (hj : t.val / 4 % 4 = j.val) (hk : t.val % 4 = k.val),
    accAfter V c t.val t.isLt (ix2 p q)
      = runningSum (stretch (leftArr V c) (rightArr V c) ⟨1024 * i.val + p.val, by omega⟩ ⟨1024 * j.val + q.val, by omega⟩) k := by
  intro n
  induction n with
  | zero =>
    intro t ht i j k hi hj hk
    have hk0 : k = 0 := Fin.ext (by show k.val = 0; omega)
    subst hk0
    show (outsAt1 V c t.val t.isLt).2 (ix2 p q) = _
    rw [outsAt1_first V c t (by omega)]
    refine (step_apply _ (leftBlk V c t) (rightBlk V c t) p q).trans ?_
    rw [zeros_apply, block_product V c t i j 0 hi hj hk p q]
    rfl
  | succ n ih =>
    intro t ht i j k hi hj hk
    by_cases h0 : t.val % 4 = 0
    · have hk0 : k = 0 := Fin.ext (by show k.val = 0; omega)
      subst hk0
      show (outsAt1 V c t.val t.isLt).2 (ix2 p q) = _
      rw [outsAt1_first V c t h0]
      refine (step_apply _ (leftBlk V c t) (rightBlk V c t) p q).trans ?_
      rw [zeros_apply, block_product V c t i j 0 hi hj hk p q]
      rfl
    · show (outsAt1 V c t.val t.isLt).2 (ix2 p q) = _
      rw [outsAt1_step V c t h0]
      refine (step_apply (accAfter V c (t.val - 1) (Nat.lt_of_le_of_lt (Nat.sub_le _ _) t.isLt)) (leftBlk V c t) (rightBlk V c t) p q).trans ?_
      have hprev := ih ⟨t.val - 1, Nat.lt_of_le_of_lt (Nat.sub_le _ _) t.isLt⟩ (by show t.val - 1 = n; omega) i j
        ⟨k.val - 1, by omega⟩ (by show (t.val - 1) / 16 = i.val; omega) (by show (t.val - 1) / 4 % 4 = j.val; omega)
        (by show (t.val - 1) % 4 = k.val - 1; omega)
      rw [block_product V c t i j k hi hj hk p q, runningSum_succ _ k ⟨k.val - 1, by omega⟩ (by show k.val = k.val - 1 + 1; omega)]
      exact congrArg (· + _) hprev

/-! ## The output array -/

/-- The grid has 64 points. -/
theorem point_lt (t : Fin cfg1.N) : t.val < 64 :=
  Nat.lt_of_lt_of_eq t.isLt (show cfg1.N = 64 from N_1)

/-- What the region leaves in the output array: left · rightᵀ plus the bias row on every row. -/
abbrev outVal (c : Dev nD) : Mat :=
  Cert.QLinear.mmBias (leftArr V c) (rightArr V c) (fun n => biasArr V c (ix2 (0 : Fin 1) n))

/-- A point with k = 3 writes back its block of that array: its accumulator holds the four stretches of the product,
    which together are the sum over all 4096 columns, and the bias block it adds is the bias row's stretch j. -/
theorem flushed_eq (c : Dev nD) (t : Fin cfg1.N) (hf : (cfg1.win 3).flush t = true) :
    (dat1 V c).flushed 3 t = ((cfg1.win 3).blk t).view.read (Elt Ideal) (outVal V c) := by
  have h3 : t.val % 4 = 3 := (flush1_3 t).mp hf
  have ht := point_lt t
  show (cfg1.win 3).cut (grid1.coords t) ((dat1 V c).after 3 t) = _
  rw [after1_3, outsAt1_flush V c t h3]
  funext y
  obtain ⟨p, q, rfl⟩ : ∃ (p q : Fin 1024), y = (ix2 p q : S1024x1024.Idx) :=
    ⟨y 0, y 1, eq_ix2 (n0 := 1024) (n1 := 1024) y⟩
  show k1_pay3 (F := Ideal) (accAfter V c t.val t.isLt) (biasBlk V c t) (ix2 p q)
    = outVal V c (((cfg1.win 3).blk t).view.emb (ix2 p q))
  rw [out_emb t ⟨t.val / 16, by omega⟩ ⟨t.val / 4 % 4, by omega⟩ rfl rfl p q]
  refine (flush_apply _ _ p q).trans ?_
  rw [acc_at V c p q t.val t rfl ⟨t.val / 16, by omega⟩ ⟨t.val / 4 % 4, by omega⟩ 3 rfl rfl h3]
  show runningSum _ 3 + biasArr V c (((cfg1.win 2).blk t).view.emb (ix2 (0 : Fin 1) q)) = _
  rw [bias_emb t ⟨t.val / 4 % 4, by omega⟩ rfl q]
  refine congrArg (· + _) ?_
  show _ = ∑ c' : Fin 4096, leftArr V c (ix2 (⟨1024 * (t.val / 16) + p.val, by omega⟩ : Fin 4096) c')
    * rightArr V c (ix2 (⟨1024 * (t.val / 4 % 4) + q.val, by omega⟩ : Fin 4096) c')
  rw [sum_columns]
  exact four_steps _

/-- An entry of the output array lies in a point's block when each coordinate lies in the block's range. -/
theorem mem_out_blk (t : Fin cfg1.N) (x : S4096x4096.Idx) :
    x ∈ ((cfg1.win 3).blk t).view.set ↔ ∀ a : Fin 2, win1_3.index t a * S1024x1024.size a ≤ (x a).val
      ∧ (x a).val < win1_3.index t a * S1024x1024.size a + S1024x1024.size a := by
  show x ∈ ((View.whole main_v3).slice (win1_3.rect t)).set ↔ _
  rw [View.set_slice_whole, Rect.mem_set_unit]
  exact Iff.rfl

/-- Every entry (r, n) of the output array is written back by the point (r / 1024, n / 1024, 3). -/
theorem cover (x : S4096x4096.Idx) :
    ∃ t : Fin cfg1.N, (cfg1.win 3).flush t = true ∧ x ∈ ((cfg1.win 3).blk t).view.set := by
  have h0 : (x 0).val < 4096 := idx2_lt0 x
  have h1 : (x 1).val < 4096 := idx2_lt1 x
  have hN : cfg1.N = 64 := N_1
  have hlt : 16 * ((x 0).val / 1024) + 4 * ((x 1).val / 1024) + 3 < cfg1.N := by rw [hN]; omega
  obtain ⟨-, -, -, -, -, -, e0, e1⟩ := block_indices ⟨16 * ((x 0).val / 1024) + 4 * ((x 1).val / 1024) + 3, hlt⟩
  refine ⟨⟨16 * ((x 0).val / 1024) + 4 * ((x 1).val / 1024) + 3, hlt⟩, (flush1_3 _).mpr ?_, ?_⟩
  · show (16 * ((x 0).val / 1024) + 4 * ((x 1).val / 1024) + 3) % 4 = 3
    omega
  · rw [mem_out_blk]
    intro a
    match a with
    | ⟨0, _⟩ =>
      show win1_3.index ⟨16 * ((x 0).val / 1024) + 4 * ((x 1).val / 1024) + 3, hlt⟩ (0 : Fin 2) * 1024 ≤ (x 0).val
        ∧ (x 0).val < win1_3.index ⟨16 * ((x 0).val / 1024) + 4 * ((x 1).val / 1024) + 3, hlt⟩ (0 : Fin 2) * 1024 + 1024
      rw [e0]
      show (16 * ((x 0).val / 1024) + 4 * ((x 1).val / 1024) + 3) / 16 * 1024 ≤ (x 0).val
        ∧ (x 0).val < (16 * ((x 0).val / 1024) + 4 * ((x 1).val / 1024) + 3) / 16 * 1024 + 1024
      omega
    | ⟨1, _⟩ =>
      show win1_3.index ⟨16 * ((x 0).val / 1024) + 4 * ((x 1).val / 1024) + 3, hlt⟩ (1 : Fin 2) * 1024 ≤ (x 1).val
        ∧ (x 1).val < win1_3.index ⟨16 * ((x 0).val / 1024) + 4 * ((x 1).val / 1024) + 3, hlt⟩ (1 : Fin 2) * 1024 + 1024
      rw [e1]
      show (16 * ((x 0).val / 1024) + 4 * ((x 1).val / 1024) + 3) / 4 % 4 * 1024 ≤ (x 1).val
        ∧ (x 1).val < (16 * ((x 0).val / 1024) + 4 * ((x 1).val / 1024) + 3) / 4 % 4 * 1024 + 1024
      omega

/-- The output array after the region's 64 points: the product of the left array with the transposed right array,
    plus the bias row. -/
theorem final1 (c : Dev nD) :
    (dat1 (F := Ideal) V c).arrAt 3 cfg1.N
      = Cert.QLinear.mmBias (V c main_v1) (V c main_v0) (fun n => V c main_v2 (ix2 0 n)) :=
  (dat1 V c).arrAt_eq_of_cover 3 (outVal V c) (fun t hf => flushed_eq V c t hf) cover

end Cert.KernelIdeal.Hand

end
-- ==== Proof.KernelValue.lean ====
/-
  The kernel program's result at the ideal instance, as the layer's function of the launch arguments.

  Region 1 leaves `a · bᵀ + bias row` in the result array, for `a`, `b` and the bias row the arrays it found: `a` is
  `x` narrowed to bf16 by the host — the identity on the extended reals —, `b` is what region 0 left, the dequantized
  weight of the packed words, zero points and scales as launched, and the bias row is the bias reshaped `[4096] → [1, 4096]`,
  whose entry `(0, n)` is `bias[n]`. So the result is `x · wᵀ + bias`.
-/
import proofs.«426883_j77292231459026_3_alg».proof.Proof.KernelRun
import proofs.«426883_j77292231459026_3_alg».proof.Proof.DequantValue
import proofs.«426883_j77292231459026_3_alg».proof.Proof.MatmulValue
import proofs.«426883_j77292231459026_3_alg».proof.Proof.Spec
import Idealize.ShloMosaic.Lib.ValueIdx
import Idealize.ShloMosaic.Lib.Pipeline.Value
import Idealize.ShloMosaic.Lib.ValueLayout
import Idealize.ShloMosaic.Lib.StableHlo.Run

noncomputable section

namespace Cert.KernelIdeal.Hand

open Cert.KernelIdeal Cert.KernelIdeal.Gen
open Idealize.ShloMosaic Idealize.ShloMosaic.TcCoe Idealize.ShloMosaic.ValueIdx Idealize.ShloMosaic.StableHlo
open Idealize.SL.Sem

variable (m : (ℓ : Loc nD τ sig) → Buf (Elt Ideal) ℓ) (ρ : Dev nD → PrngReg)

/-- Region 1 finds `x` narrowed by the host, which on the extended reals is `x`. -/
theorem entry_x (c : Dev nD) :
    (V2e m ρ c main_v1 : S4096x4096.Idx → EReal) = m ((c : Thread nD τ).loc main_arg0) := by
  have e : (V2e m ρ c main_v1 : S4096x4096.Idx → EReal)
      = truncf (F := Ideal) .bf16 (W1 m ρ c (Proc.devRef .tc main_arg0)) bitsLt_bf16_f32 := by
    dsimp only [V2e, W2, hostOps1]; after_results
  rw [e, W1_of_ne m ρ c main_arg0 (by decide)]
  rfl

/-- Region 1 finds the bias as a row: entry `(0, n)` is `bias[n]`. -/
theorem entry_bias (c : Dev nD) (n : Fin 4096) :
    (V2e m ρ c main_v2 : S1x4096.Idx → EReal) (ix2 (0 : Fin 1) n) = m ((c : Thread nD τ).loc main_arg4) (ix1 n) := by
  have e : (V2e m ρ c main_v2 : S1x4096.Idx → EReal)
      = shapeCast S1x4096 (W1 m ρ c (Proc.devRef .tc main_arg4)) shapeCasts_S4096_S1x4096 := by
    dsimp only [V2e, W2, hostOps1]; after_results; rfl
  rw [e, W1_of_ne m ρ c main_arg4 (by decide)]
  exact shapeCast_a_1a_apply _ _ (0 : Fin 1) n

/-- Region 1 finds the dequantized weight of the launch arguments. -/
theorem entry_w (c : Dev nD) :
    (V2e m ρ c main_v0 : S4096x4096.Idx → EReal)
      = Cert.QLinear.wArr (m ((c : Thread nD τ).loc main_arg1)) (m ((c : Thread nD τ).loc main_arg2)) (m ((c : Thread nD τ).loc main_arg3)) :=
  (V2e_main_v0 m ρ c).trans (final0 (V0e m ρ) c)

/-- The result array is the layer's function of the launch arguments. -/
theorem result_eq (c : Dev nD) :
    (dat1 (F := Ideal) (V2e m ρ) c).arrAt 3 cfg1.N
      = Cert.QLinear.outSpec (m ((c : Thread nD τ).loc main_arg0)) (m ((c : Thread nD τ).loc main_arg1)) (m ((c : Thread nD τ).loc main_arg2))
          (m ((c : Thread nD τ).loc main_arg3)) (m ((c : Thread nD τ).loc main_arg4)) := by
  rw [final1 (V2e m ρ) c]
  unfold Cert.QLinear.outSpec
  rw [entry_x m ρ c, entry_w m ρ c]
  congr 1
  funext n
  exact entry_bias m ρ c n

end Cert.KernelIdeal.Hand

end
-- ==== Proof.RefTerm.lean ====
/-
  The reference's result as the composed term of its own operations: the shift table `4 · iota + 0`, the two unpackings
  (broadcast the packed words against the table, shift, mask, flatten, convert), the group index `iota // 128` as jax
  spells floor division (quotient, corrected by one where the signs differ and the remainder is not zero), made
  non-negative as a gather index, the two gathers along the group axis, `(w_int − zeros) · scales`, the transpose, the
  product with `x` and the bias row added.
-/
import proofs.«426883_j77292231459026_3_alg».proof.Proof.Gen.ReferenceIdeal
import Idealize.ShloMosaic.PureOps.Ideal

noncomputable section

namespace Cert.ReferenceIdeal.Hand

open Cert.ReferenceIdeal Cert.ReferenceIdeal.Gen Idealize.ShloMosaic

variable {F : FTy → Type} [FloatOps F]

/-- The eight shift amounts `0 + 4 · iota`. -/
def shiftTab : IVec S8 32 :=
  addi (broadcastInDim S8 ![] bcast_S_S8 (constantI S_ 32 0#32))
    (muli (broadcastInDim S8 ![] bcast_S_S8 (constantI S_ 32 4#32)) (iotaInDim S8 32 0))

/-- The packed weight unpacked to one integer field per column, as floats. -/
def wInt (qw : IVec S4096x512 32) : FVec F S4096x4096 .f32 :=
  sitofp .f32 (shapeCast S4096x4096
    (andi (Host.shrsi
        (broadcastInDim S4096x512x8 ![0, 1, 2] bcast_S4096x512x1_S4096x512x8_0_1_2 (broadcastInDim S4096x512x1 ![0, 1] bcast_S4096x512_S4096x512x1_0_1 qw))
        (broadcastInDim S4096x512x8 ![0, 1, 2] bcast_S1x1x8_S4096x512x8_0_1_2 (broadcastInDim S1x1x8 ![2] bcast_S8_S1x1x8_2 shiftTab)))
      (broadcastInDim S4096x512x8 ![] bcast_S_S4096x512x8 (constantI S_ 32 15#32)))
    shapeCasts_S4096x512x8_S4096x4096)

/-- The packed zero points unpacked to one per group, as floats. -/
def zInt (qz : IVec S4096x4 32) : FVec F S4096x32 .f32 :=
  sitofp .f32 (shapeCast S4096x32
    (andi (Host.shrsi
        (broadcastInDim S4096x4x8 ![0, 1, 2] bcast_S4096x4x1_S4096x4x8_0_1_2 (broadcastInDim S4096x4x1 ![0, 1] bcast_S4096x4_S4096x4x1_0_1 qz))
        (broadcastInDim S4096x4x8 ![0, 1, 2] bcast_S1x1x8_S4096x4x8_0_1_2 (broadcastInDim S1x1x8 ![2] bcast_S8_S1x1x8_2 shiftTab)))
      (broadcastInDim S4096x4x8 ![] bcast_S_S4096x4x8 (constantI S_ 32 15#32)))
    shapeCasts_S4096x4x8_S4096x32)

/-- `iota // 128` as jax's floor division spells it. -/
def groupIds : IVec S4096 32 :=
  let a : IVec S4096 32 := iotaInDim S4096 32 0
  let d : IVec S_ 32 := id (constantI S_ 32 128#32)
  let q : IVec S4096 32 := Host.divsi a (broadcastInDim S4096 ![] bcast_S_S4096 d)
  let ne1 : IVec S4096 1 := cmpi .ne (signi a) (broadcastInDim S4096 ![] bcast_S_S4096 (signi d))
  let r : IVec S4096 32 := Host.remsi a (broadcastInDim S4096 ![] bcast_S_S4096 d)
  let ne2 : IVec S4096 1 := cmpi .ne r (broadcastInDim S4096 ![] bcast_S_S4096 (constantI S_ 32 0#32))
  select (andi ne1 ne2) (subi q (broadcastInDim S4096 ![] bcast_S_S4096 (constantI S_ 32 1#32))) q

/-- The group index made non-negative (a negative one counts from the end of the 32 groups), as a column of start indices. -/
def gIdx : IVec S4096x1 32 :=
  broadcastInDim S4096x1 ![0] bcast_S4096_S4096x1_0
    (select (cmpi .slt groupIds (broadcastInDim S4096 ![] bcast_S_S4096 (constantI S_ 32 0#32)))
      (addi groupIds (broadcastInDim S4096 ![] bcast_S_S4096 (constantI S_ 32 32#32))) groupIds)

/-- The dequantized weight `(w_int − zeros[:, g]) · scales[:, g]`, `[out, in]`. -/
def wDeq (qw : IVec S4096x512 32) (qz : IVec S4096x4 32) (sc : FVec F S4096x32 .f32) : FVec F S4096x4096 .f32 :=
  mulf (subf (wInt qw) (Host.gather gather_S4096x32_S4096x1_S4096x4096_0_1_n_n_1_1_40961 (zInt (F := F) qz) gIdx))
    (Host.gather gather_S4096x32_S4096x1_S4096x4096_0_1_n_n_1_1_40961 sc gIdx)

/-- The reference's result: `x · wᵀ + bias`. -/
def refOut (x : FVec F S4096x4096 .f32) (qw : IVec S4096x512 32) (qz : IVec S4096x4 32) (sc : FVec F S4096x32 .f32)
    (b : FVec F S4096 .f32) : FVec F S4096x4096 .f32 :=
  addf (Host.dotGeneral dot_S4096x4096_S4096x4096_S4096x4096_1_0_0_1_n_n none x
      (transpose S4096x4096 [1, 0] (wDeq qw qz sc) transposes_S4096x4096_S4096x4096_1_0))
    (broadcastInDim S4096x4096 ![0, 1] bcast_S1x4096_S4096x4096_0_1 (broadcastInDim S1x4096 ![1] bcast_S4096_S1x4096_1 b))

end Cert.ReferenceIdeal.Hand

end
-- ==== Proof.RefRun.lean ====
/-
  The reference's run. @main is a straight line of seventy-eight host operations once its one call is read as the
  callee's own operations at the call site: `iota // 128` is the floor division's sixteen operations over the call's own
  buffers, and the selection that ends it is the inner call's one operation, whose result buffer is the buffer the
  call's result becomes. Every weakly fair execution of that line terminates; at its end the result buffer holds the
  operations' composed term of the five arguments' launch contents — the term `refOut` names piece by piece — and the
  arguments' buffers, which no operation writes, hold what they held.
-/
import proofs.«426883_j77292231459026_3_alg».proof.Proof.RefTerm
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The contents of a tensor value of shape `s` and element type `e`. -/
local notation "𝒞[" s ", " e "]" => BufTy.Contents (Elt F) (BufTy.mk s e)

/-- @main's seventy-eight operations, in order. Seven make the shift table `0 + 4 · iota`; ten unpack the weight (the
    packed words and the table broadcast against each other, shifted, masked with 15, flattened to one field per column,
    converted); the same seven and ten again for the zero points; then the column index `iota` and the group size 128,
    and the floor division's seventeen in the call's own buffers (the divisor converted to its own type; the quotient; the
    two signs and whether they differ; the remainder and whether it is not zero; both; the quotient less one; the
    selection between the two quotients, which is the inner call's one operation). Ten turn the group index into a
    non-negative start index, gather the zero points along it and subtract them; nine do the same for the scales and
    multiply; the last five transpose, contract with `x`, and add the bias row broadcast over the rows. -/
abbrev ops : List (HloOp τ sig (Elt F)) :=
  [ nullary main_v0 (iotaInDim S8 32 0),
    nullary main_c (constantI S_ 32 4#32),
    unary main_c main_v1 (broadcastInDim S8 ![] bcast_S_S8 : 𝒞[S_, .i32] → 𝒞[S8, .i32]),
    binary main_v1 main_v0 main_v2 (muli : 𝒞[S8, .i32] → 𝒞[S8, .i32] → 𝒞[S8, .i32]),
    nullary main_c_0 (constantI S_ 32 0#32),
    unary main_c_0 main_v3 (broadcastInDim S8 ![] bcast_S_S8 : 𝒞[S_, .i32] → 𝒞[S8, .i32]),
    binary main_v3 main_v2 main_v4 (addi : 𝒞[S8, .i32] → 𝒞[S8, .i32] → 𝒞[S8, .i32]),
    unary main_arg1 main_v5 (broadcastInDim S4096x512x1 ![0, 1] bcast_S4096x512_S4096x512x1_0_1 : 𝒞[S4096x512, .i32] → 𝒞[S4096x512x1, .i32]),
    unary main_v4 main_v6 (broadcastInDim S1x1x8 ![2] bcast_S8_S1x1x8_2 : 𝒞[S8, .i32] → 𝒞[S1x1x8, .i32]),
    unary main_v5 main_v7 (broadcastInDim S4096x512x8 ![0, 1, 2] bcast_S4096x512x1_S4096x512x8_0_1_2 : 𝒞[S4096x512x1, .i32] → 𝒞[S4096x512x8, .i32]),
    unary main_v6 main_v8 (broadcastInDim S4096x512x8 ![0, 1, 2] bcast_S1x1x8_S4096x512x8_0_1_2 : 𝒞[S1x1x8, .i32] → 𝒞[S4096x512x8, .i32]),
    binary main_v7 main_v8 main_v9 (Host.shrsi : 𝒞[S4096x512x8, .i32] → 𝒞[S4096x512x8, .i32] → 𝒞[S4096x512x8, .i32]),
    nullary main_c_1 (constantI S_ 32 15#32),
    unary main_c_1 main_v10 (broadcastInDim S4096x512x8 ![] bcast_S_S4096x512x8 : 𝒞[S_, .i32] → 𝒞[S4096x512x8, .i32]),
    binary main_v9 main_v10 main_v11 (andi : 𝒞[S4096x512x8, .i32] → 𝒞[S4096x512x8, .i32] → 𝒞[S4096x512x8, .i32]),
    reshape main_v11 main_v12 rfl shapeCasts_S4096x512x8_S4096x4096,
    unary main_v12 main_v13 (sitofp .f32 : 𝒞[S4096x4096, .i32] → 𝒞[S4096x4096, .f32]),
    nullary main_v14 (iotaInDim S8 32 0),
    nullary main_c_2 (constantI S_ 32 4#32),
    unary main_c_2 main_v15 (broadcastInDim S8 ![] bcast_S_S8 : 𝒞[S_, .i32] → 𝒞[S8, .i32]),
    binary main_v15 main_v14 main_v16 (muli : 𝒞[S8, .i32] → 𝒞[S8, .i32] → 𝒞[S8, .i32]),
    nullary main_c_3 (constantI S_ 32 0#32),
    unary main_c_3 main_v17 (broadcastInDim S8 ![] bcast_S_S8 : 𝒞[S_, .i32] → 𝒞[S8, .i32]),
    binary main_v17 main_v16 main_v18 (addi : 𝒞[S8, .i32] → 𝒞[S8, .i32] → 𝒞[S8, .i32]),
    unary main_arg2 main_v19 (broadcastInDim S4096x4x1 ![0, 1] bcast_S4096x4_S4096x4x1_0_1 : 𝒞[S4096x4, .i32] → 𝒞[S4096x4x1, .i32]),
    unary main_v18 main_v20 (broadcastInDim S1x1x8 ![2] bcast_S8_S1x1x8_2 : 𝒞[S8, .i32] → 𝒞[S1x1x8, .i32]),
    unary main_v19 main_v21 (broadcastInDim S4096x4x8 ![0, 1, 2] bcast_S4096x4x1_S4096x4x8_0_1_2 : 𝒞[S4096x4x1, .i32] → 𝒞[S4096x4x8, .i32]),
    unary main_v20 main_v22 (broadcastInDim S4096x4x8 ![0, 1, 2] bcast_S1x1x8_S4096x4x8_0_1_2 : 𝒞[S1x1x8, .i32] → 𝒞[S4096x4x8, .i32]),
    binary main_v21 main_v22 main_v23 (Host.shrsi : 𝒞[S4096x4x8, .i32] → 𝒞[S4096x4x8, .i32] → 𝒞[S4096x4x8, .i32]),
    nullary main_c_4 (constantI S_ 32 15#32),
    unary main_c_4 main_v24 (broadcastInDim S4096x4x8 ![] bcast_S_S4096x4x8 : 𝒞[S_, .i32] → 𝒞[S4096x4x8, .i32]),
    binary main_v23 main_v24 main_v25 (andi : 𝒞[S4096x4x8, .i32] → 𝒞[S4096x4x8, .i32] → 𝒞[S4096x4x8, .i32]),
    reshape main_v25 main_v26 rfl shapeCasts_S4096x4x8_S4096x32,
    unary main_v26 main_v27 (sitofp .f32 : 𝒞[S4096x32, .i32] → 𝒞[S4096x32, .f32]),
    nullary main_v28 (iotaInDim S4096 32 0),
    nullary main_c_5 (constantI S_ 32 128#32),
    TRef.unary (.of main_c_5 : TRef sig ⟨S_, .i32⟩) main_call0.v0 id,
    TRef.unary main_call0.v0 main_call0.v1 (broadcastInDim S4096 ![] bcast_S_S4096),
    TRef.binary (.of main_v28 : TRef sig ⟨S4096, .i32⟩) main_call0.v1 main_call0.v2 Host.divsi,
    TRef.unary (.of main_v28 : TRef sig ⟨S4096, .i32⟩) main_call0.v3 signi,
    TRef.unary main_call0.v0 main_call0.v4 signi,
    TRef.unary main_call0.v4 main_call0.v5 (broadcastInDim S4096 ![] bcast_S_S4096),
    TRef.binary main_call0.v3 main_call0.v5 main_call0.v6 (cmpi .ne),
    TRef.unary main_call0.v0 main_call0.v7 (broadcastInDim S4096 ![] bcast_S_S4096),
    TRef.binary (.of main_v28 : TRef sig ⟨S4096, .i32⟩) main_call0.v7 main_call0.v8 Host.remsi,
    TRef.nullary main_call0.c (constantI S_ 32 0#32),
    TRef.unary main_call0.c main_call0.v9 (broadcastInDim S4096 ![] bcast_S_S4096),
    TRef.binary main_call0.v8 main_call0.v9 main_call0.v10 (cmpi .ne),
    TRef.binary main_call0.v6 main_call0.v10 main_call0.v11 andi,
    TRef.nullary main_call0.c_0 (constantI S_ 32 1#32),
    TRef.unary main_call0.c_0 main_call0.v12 (broadcastInDim S4096 ![] bcast_S_S4096),
    TRef.binary main_call0.v2 main_call0.v12 main_call0.v13 subi,
    TRef.ternary main_call0.v11 main_call0.v13 main_call0.v2 main_call0.call0.v0 select,
    nullary main_c_6 (constantI S_ 32 0#32),
    unary main_c_6 main_v30 (broadcastInDim S4096 ![] bcast_S_S4096 : 𝒞[S_, .i32] → 𝒞[S4096, .i32]),
    binary main_v29 main_v30 main_v31 (cmpi .slt : 𝒞[S4096, .i32] → 𝒞[S4096, .i32] → 𝒞[S4096, .i1]),
    nullary main_c_7 (constantI S_ 32 32#32),
    unary main_c_7 main_v32 (broadcastInDim S4096 ![] bcast_S_S4096 : 𝒞[S_, .i32] → 𝒞[S4096, .i32]),
    binary main_v29 main_v32 main_v33 (addi : 𝒞[S4096, .i32] → 𝒞[S4096, .i32] → 𝒞[S4096, .i32]),
    ternary main_v31 main_v33 main_v29 main_v34 (select : 𝒞[S4096, .i1] → 𝒞[S4096, .i32] → 𝒞[S4096, .i32] → 𝒞[S4096, .i32]),
    unary main_v34 main_v35 (broadcastInDim S4096x1 ![0] bcast_S4096_S4096x1_0 : 𝒞[S4096, .i32] → 𝒞[S4096x1, .i32]),
    binary main_v27 main_v35 main_v36 ((fun x i => Host.gather gather_S4096x32_S4096x1_S4096x4096_0_1_n_n_1_1_40961 x i) : 𝒞[S4096x32, .f32] → 𝒞[S4096x1, .i32] → 𝒞[S4096x4096, .f32]),
    binary main_v13 main_v36 main_v37 (subf : 𝒞[S4096x4096, .f32] → 𝒞[S4096x4096, .f32] → 𝒞[S4096x4096, .f32]),
    nullary main_c_8 (constantI S_ 32 0#32),
    unary main_c_8 main_v38 (broadcastInDim S4096 ![] bcast_S_S4096 : 𝒞[S_, .i32] → 𝒞[S4096, .i32]),
    binary main_v29 main_v38 main_v39 (cmpi .slt : 𝒞[S4096, .i32] → 𝒞[S4096, .i32] → 𝒞[S4096, .i1]),
    nullary main_c_9 (constantI S_ 32 32#32),
    unary main_c_9 main_v40 (broadcastInDim S4096 ![] bcast_S_S4096 : 𝒞[S_, .i32] → 𝒞[S4096, .i32]),
    binary main_v29 main_v40 main_v41 (addi : 𝒞[S4096, .i32] → 𝒞[S4096, .i32] → 𝒞[S4096, .i32]),
    ternary main_v39 main_v41 main_v29 main_v42 (select : 𝒞[S4096, .i1] → 𝒞[S4096, .i32] → 𝒞[S4096, .i32] → 𝒞[S4096, .i32]),
    unary main_v42 main_v43 (broadcastInDim S4096x1 ![0] bcast_S4096_S4096x1_0 : 𝒞[S4096, .i32] → 𝒞[S4096x1, .i32]),
    binary main_arg3 main_v43 main_v44 ((fun x i => Host.gather gather_S4096x32_S4096x1_S4096x4096_0_1_n_n_1_1_40961 x i) : 𝒞[S4096x32, .f32] → 𝒞[S4096x1, .i32] → 𝒞[S4096x4096, .f32]),
    binary main_v37 main_v44 main_v45 (mulf : 𝒞[S4096x4096, .f32] → 𝒞[S4096x4096, .f32] → 𝒞[S4096x4096, .f32]),
    unary main_v45 main_v46 ((transpose S4096x4096 [1, 0] · transposes_S4096x4096_S4096x4096_1_0) : 𝒞[S4096x4096, .f32] → 𝒞[S4096x4096, .f32]),
    binary main_arg0 main_v46 main_v47 ((fun l r => Host.dotGeneral dot_S4096x4096_S4096x4096_S4096x4096_1_0_0_1_n_n none l r) : 𝒞[S4096x4096, .f32] → 𝒞[S4096x4096, .f32] → 𝒞[S4096x4096, .f32]),
    unary main_arg4 main_v48 (broadcastInDim S1x4096 ![1] bcast_S4096_S1x4096_1 : 𝒞[S4096, .f32] → 𝒞[S1x4096, .f32]),
    unary main_v48 main_v49 (broadcastInDim S4096x4096 ![0, 1] bcast_S1x4096_S4096x4096_0_1 : 𝒞[S1x4096, .f32] → 𝒞[S4096x4096, .f32]),
    binary main_v47 main_v49 main_v50 (addf : 𝒞[S4096x4096, .f32] → 𝒞[S4096x4096, .f32] → 𝒞[S4096x4096, .f32]) ]

set_option maxRecDepth 8192 in
set_option maxHeartbeats 4000000 in
/-- @main is that straight line. Its two windows run one after the other; the call runs the floor division's body over
    the call's buffers, which ends in the selection's body over the inner call's; sequencing a step before the rest is
    the step continued by the rest, and a body's closing return continues with what follows: so both sides are the
    same chain of seventy-eight host steps, by computation. -/
theorem main_eq (c : Dev nD) : main (F := F) c = seq ops := rfl

/-- The signature scopes no buffer and no semaphore: tensor values only. -/
theorem scopedRefs_eq : (Finset.univ.filter fun b : Ref sig .tc => b.isScoped) = ∅ := by decide
theorem scopedSems_eq : (Finset.univ.filter fun sm : SemLoc sig => sm.isScoped .tc) = ∅ := by decide

/-- Every operation touches TensorCore references only. -/
theorem ops_sub : (ops : List (HloOp τ sig (Elt F))).Forall fun op => op.bufs ⊆ tcRefs τ sig :=
  ⟨nullary_bufs_sub .., nullary_bufs_sub .., unary_bufs_sub .., binary_bufs_sub .., nullary_bufs_sub .., unary_bufs_sub ..,
    binary_bufs_sub ..,
    unary_bufs_sub .., unary_bufs_sub .., unary_bufs_sub .., unary_bufs_sub .., binary_bufs_sub .., nullary_bufs_sub ..,
    unary_bufs_sub .., binary_bufs_sub .., reshape_bufs_sub .., unary_bufs_sub ..,
    nullary_bufs_sub .., nullary_bufs_sub .., unary_bufs_sub .., binary_bufs_sub .., nullary_bufs_sub .., unary_bufs_sub ..,
    binary_bufs_sub ..,
    unary_bufs_sub .., unary_bufs_sub .., unary_bufs_sub .., unary_bufs_sub .., binary_bufs_sub .., nullary_bufs_sub ..,
    unary_bufs_sub .., binary_bufs_sub .., reshape_bufs_sub .., unary_bufs_sub ..,
    nullary_bufs_sub .., nullary_bufs_sub ..,
    unary_bufs_sub .., unary_bufs_sub .., binary_bufs_sub .., unary_bufs_sub .., unary_bufs_sub .., unary_bufs_sub ..,
    binary_bufs_sub .., unary_bufs_sub .., binary_bufs_sub .., nullary_bufs_sub .., unary_bufs_sub .., binary_bufs_sub ..,
    binary_bufs_sub .., nullary_bufs_sub .., unary_bufs_sub .., binary_bufs_sub .., ternary_bufs_sub ..,
    nullary_bufs_sub .., unary_bufs_sub .., binary_bufs_sub .., nullary_bufs_sub .., unary_bufs_sub .., binary_bufs_sub ..,
    ternary_bufs_sub .., unary_bufs_sub .., binary_bufs_sub .., binary_bufs_sub ..,
    nullary_bufs_sub .., unary_bufs_sub .., binary_bufs_sub .., nullary_bufs_sub .., unary_bufs_sub .., binary_bufs_sub ..,
    ternary_bufs_sub .., unary_bufs_sub .., binary_bufs_sub .., binary_bufs_sub ..,
    unary_bufs_sub .., binary_bufs_sub .., unary_bufs_sub .., unary_bufs_sub .., binary_bufs_sub ..⟩

set_option maxHeartbeats 1000000 in
/-- After the line the result buffer holds `refOut` of the arguments' contents. Each operation leaves its function's
    value of its operands' contents at its own result buffer and every other buffer as it was, and the seventy-eight
    result buffers are distinct from one another and from the arguments': read back from the last sum, every operand is
    the term of the operation that wrote it, down to the arguments. That term is `refOut`'s with its pieces
    (`shiftTab`, `wInt`, `zInt`, `groupIds`, `gIdx`, `wDeq`) written out: a typed reference's transport is the identity
    at a literal reference, and a reshape's element-type transport at equal element types. -/
theorem out_eq (V : Valuation τ sig (Elt F)) :
    after ops V (Proc.devRef .tc main_v50)
      = refOut (V (Proc.devRef .tc main_arg0)) (V (Proc.devRef .tc main_arg1)) (V (Proc.devRef .tc main_arg2))
          (V (Proc.devRef .tc main_arg3)) (V (Proc.devRef .tc main_arg4)) := by
  after_results_simp
  rfl

set_option maxHeartbeats 1000000 in
/-- No operation writes an argument's buffer: each holds afterwards what it held. -/
theorem args_eq (V : Valuation τ sig (Elt F)) :
    after ops V (Proc.devRef .tc main_arg0) = V (Proc.devRef .tc main_arg0)
      ∧ after ops V (Proc.devRef .tc main_arg1) = V (Proc.devRef .tc main_arg1)
      ∧ after ops V (Proc.devRef .tc main_arg2) = V (Proc.devRef .tc main_arg2)
      ∧ after ops V (Proc.devRef .tc main_arg3) = V (Proc.devRef .tc main_arg3)
      ∧ after ops V (Proc.devRef .tc main_arg4) = V (Proc.devRef .tc main_arg4) := by
  refine ⟨?_, ?_, ?_, ?_, ?_⟩ <;> after_results_simp

set_option maxRecDepth 8192 in
/-- On the one device, for any float values, from any memory with zero counters: every weakly fair execution of @main
    terminates with the result buffer at `refOut` of the arguments' launch contents and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v50) = refOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
      ⟨(h c main_v50).trans (out_eq _),
        (h c main_arg0).trans (args_eq _).1,
        (h c main_arg1).trans (args_eq _).2.1,
        (h c main_arg2).trans (args_eq _).2.2.1,
        (h c main_arg3).trans (args_eq _).2.2.2.1,
        (h c main_arg4).trans (args_eq _).2.2.2.2⟩)
    (run_seq scopedRefs_eq scopedSems_eq defs main (fun _ => ops) main_eq (fun _ => ops_sub) m ρ)

end Cert.ReferenceIdeal.Hand

end
-- ==== Proof.RefIndex.lean ====
/-
  The reference's group index and its gather along the group axis, read at an index.

  Column `k` of the 4096 belongs to group `k / 128` of the 32. The reference computes that quotient as a floor
  division of 32-bit words (the truncated quotient, less one where the operands' signs differ and the remainder is
  not zero), adds 32 where it is negative, and gathers along axis 1 of a `[4096, 32]` array at that start index.
  For `0 ≤ k < 4096` both operands are non-negative, so neither correction applies and the word is `k / 128`;
  the gather then reads row `n`, column `k / 128`.
-/
import proofs.«426883_j77292231459026_3_alg».proof.Proof.RefTerm
import Idealize.ShloMosaic.Lib.ValueIdx
import Idealize.ShloMosaic.Lib.StableHlo.Predicate

noncomputable section

namespace Cert.ReferenceIdeal.Hand

open Cert.ReferenceIdeal Cert.ReferenceIdeal.Gen Idealize.ShloMosaic Idealize.ShloMosaic.ValueIdx
open Idealize.ShloMosaic.StableHlo.Predicate (toInt_ofNat_small slt_iff_toNat)

local notation "𝔾" => gather_S4096x32_S4096x1_S4096x4096_0_1_n_n_1_1_40961

/-- A small non-negative word divided by 128 meets no corner: the quotient of the values. -/
private theorem divsi_128 (k : ℕ) (hk : k < 2 ^ 31) :
    IntOp.divsi .host (BitVec.ofNat 32 k) 128#32 = BitVec.ofNat 32 (k / 128) := by
  have hcorner : ¬ IntOp.SDivCorner (BitVec.ofNat 32 k) 128#32 := by
    intro hc; rcases hc with hc | ⟨_, hc⟩ <;> exact absurd hc (by decide)
  have hm : (BitVec.ofNat 32 k).msb = false :=
    BitVec.msb_eq_false_iff_two_mul_lt.mpr (by simp only [BitVec.toNat_ofNat]; omega)
  apply BitVec.eq_of_toNat_eq
  simp only [IntOp.divsi, if_neg hcorner, BitVec.sdiv_eq, hm, show (128#32 : BitVec 32).msb = false from by decide,
    BitVec.udiv_eq, BitVec.toNat_udiv, BitVec.toNat_ofNat, Nat.reducePow, Nat.reduceMod]
  omega

/-- Floor division by 128 of a small non-negative word, as the truncated quotient corrected where the signs differ and
    the remainder is not zero: at 0 the signs differ (0 against 1) but the remainder is 0; above 0 the signs agree.
    Either way the correction is not applied. -/
private theorem floorDiv_word (k : ℕ) (hk : k < 2 ^ 31) :
    Scalar.select
      (IntOp.andi
        (IntOp.cmpi .ne
          (if BitVec.ofNat 32 k = 0 then (0 : BitVec 32) else if (BitVec.ofNat 32 k).msb = true then -1 else 1)
          (if (128#32 : BitVec 32) = 0 then (0 : BitVec 32) else if (128#32 : BitVec 32).msb = true then -1 else 1))
        (IntOp.cmpi .ne (IntOp.remsi .host (BitVec.ofNat 32 k) 128#32) 0#32))
      (IntOp.subi (IntOp.divsi .host (BitVec.ofNat 32 k) 128#32) 1#32)
      (IntOp.divsi .host (BitVec.ofNat 32 k) 128#32) = BitVec.ofNat 32 (k / 128) := by
  rcases Nat.eq_zero_or_pos k with rfl | hpos
  · decide
  · rw [divsi_128 k hk]
    have hne : BitVec.ofNat 32 k ≠ 0 := by
      intro h
      have h' : (BitVec.ofNat 32 k).toNat = (0 : BitVec 32).toNat := congrArg BitVec.toNat h
      rw [BitVec.toNat_ofNat, show (0 : BitVec 32).toNat = 0 from rfl] at h'
      omega
    have hm : (BitVec.ofNat 32 k).msb = false :=
      BitVec.msb_eq_false_iff_two_mul_lt.mpr (by simp only [BitVec.toNat_ofNat]; omega)
    have hd : (if (128#32 : BitVec 32) = 0 then (0 : BitVec 32) else if (128#32 : BitVec 32).msb = true then -1 else 1) = 1 := by decide
    have hc : IntOp.cmpi .ne (1 : BitVec 32) 1 = 0#1 := by decide
    have hz : ∀ x : BitVec 1, IntOp.andi 0#1 x = 0#1 := fun x => by unfold IntOp.andi; exact BitVec.zero_and
    simp only [if_neg hne, hm, Bool.false_eq_true, if_false, hd, hc, hz, select_zero]

/-- The group of column `k`, read off the floor division at one index: the word `k / 128`. -/
private theorem groupIds_apply (k : Fin 4096) : groupIds (ix1 k) = BitVec.ofNat 32 (k.val / 128) := by
  have hk := k.isLt
  unfold groupIds
  simp only [select, andi, cmpi, signi, subi, Host.divsi, Host.remsi, broadcastInDim, constantI, iotaInDim, id]
  exact floorDiv_word k.val (by omega)

/-- A vector as a `[4096, 1]` column reads, at `(k, 0)`, the vector at `k`. -/
private theorem bcast_col_apply {α : Type} (v : S4096.Idx → α) (k : Fin 4096) :
    broadcastInDim S4096x1 ![0] bcast_S4096_S4096x1_0 v (ix2 k (0 : Fin 1)) = v (ix1 k) := by
  unfold broadcastInDim
  congr 1
  funext a
  obtain rfl : a = 0 := Subsingleton.elim _ _
  apply Fin.ext
  split
  · next h1 => exact absurd h1 (by decide)
  · rfl

/-- The start index of column `k` is the word `k / 128`. -/
theorem gIdx_apply (k : Fin 4096) : gIdx (ix2 k (0 : Fin 1)) = BitVec.ofNat 32 (k.val / 128) := by
  have hk := k.isLt
  unfold gIdx
  rw [bcast_col_apply]
  show Scalar.select (IntOp.cmpi .slt (groupIds (ix1 k)) 0#32) (IntOp.addi (groupIds (ix1 k)) 32#32) (groupIds (ix1 k)) = _
  rw [groupIds_apply]
  have hlt : ¬ IntOp.cmpi .slt (BitVec.ofNat 32 (k.val / 128)) 0#32 = 1#1 := fun h =>
    absurd ((slt_iff_toNat (by simp only [BitVec.toNat_ofNat]; omega) (by decide)).mp h) (Nat.not_lt_zero _)
  rw [eq_zero_of_ne_one hlt, select_zero]

/-- The gather along the group axis at the group index: result `(n, k)` is the operand at row `n`, column `k / 128`. -/
theorem gather_group_apply {α : Type} (y : S4096x32.Idx → α) (n k : Fin 4096) :
    Host.gather gather_S4096x32_S4096x1_S4096x4096_0_1_n_n_1_1_40961 y gIdx (ix2 n k) = y (ix2 n (⟨k.val / 128, by omega⟩ : Fin 32)) := by
  have hk := k.isLt
  unfold Host.gather
  congr 1
  funext a
  refine Fin.ext ?_
  show GatherDims.start 𝔾 (ix2 n k) gIdx a + GatherDims.batchCoord 𝔾 (ix2 n k) a + GatherDims.offCoord 𝔾 (ix2 n k) a = _
  rw [GatherDims.batchCoord_eq_zero 𝔾 (ix2 n k) a List.not_mem_nil, Nat.add_zero]
  have ha : a = (0 : Fin 2) ∨ a = (1 : Fin 2) := match a with | ⟨0, _⟩ => Or.inl rfl | ⟨1, _⟩ => Or.inr rfl
  rcases ha with rfl | rfl
  · -- axis 0 is an offset axis: no start index names it, and the offset coordinate is the row
    unfold GatherDims.start
    rw [dif_neg (by decide), Nat.zero_add]
    unfold GatherDims.offCoord
    rw [dif_pos (by decide)]
    rfl
  · -- axis 1 is collapsed: the start index alone, read at `(k, 0)`, signed and clamped into `[0, 31]`
    rw [GatherDims.offCoord_eq_zero 𝔾 (ix2 n k) _ (by decide), Nat.add_zero]
    unfold GatherDims.start
    rw [dif_pos (by decide)]
    have hsi : ∀ c, GatherDims.siIdx 𝔾 (ix2 n k) c = ix2 k (0 : Fin 1) := fun c => by
      funext b; refine Fin.ext ?_
      match b with
      | ⟨0, _⟩ => rfl
      | ⟨1, _⟩ =>
        have hc : c.val < 1 := c.isLt
        show c.val = 0
        omega
    rw [hsi, gIdx_apply, toInt_ofNat_small _ (by omega), Int.toNat_natCast]
    show min (k.val / 128) (32 - 1) = k.val / 128
    omega

end Cert.ReferenceIdeal.Hand

end
-- ==== Proof.RefValue.lean ====
/-
  The reference's value read index by index, at the ideal instance (floats are the extended reals).

  Each operation of the reference's composed term is read at explicit coordinates: the shift table at `s` is the word
  `4 s`; the unpacked weight at `(n, k)` is field `k % 8` of packed word `k / 8` of row `n` (the flattening
  `[4096, 512, 8] → [4096, 4096]` puts `(n, p, s)` at column `8 p + s`); the unpacked zero point at `(n, g)` is field
  `g % 8` of word `g / 8`; the group index at column `k` is the word `k / 128` (for a non-negative dividend and the
  divisor 128 the signs agree, so floor division's correction is never applied, and the index is never negative); the
  gather along the group axis reads `(n, k / 128)`; the transpose swaps the coordinates; the product contracts the
  second axis of `x` against the first of the transposed weight; the bias row is read at the output column. Together:
  `out[p, n] = (∑ k, x[p, k] · w[n, k]) + bias[n]`.
-/
import proofs.«426883_j77292231459026_3_alg».proof.Proof.RefTerm
import proofs.«426883_j77292231459026_3_alg».proof.Proof.RefIndex
import proofs.«426883_j77292231459026_3_alg».proof.Proof.Spec
import Idealize.ShloMosaic.Lib.ValueIdx
import Idealize.ShloMosaic.Lib.Pipeline.Value
import Idealize.ShloMosaic.PureOps.Ideal.Laws

noncomputable section

open scoped BigOperators

namespace Cert.ReferenceIdeal.Hand

open Cert.ReferenceIdeal Cert.ReferenceIdeal.Gen Idealize.ShloMosaic Idealize.ShloMosaic.ValueIdx

/-! ## Words -/

/-- The shift table at `s` is the word `4 s`. -/
theorem shiftTab_apply (s : Fin 8) : shiftTab (ix1 s) = BitVec.ofNat 32 (4 * s.val) := by
  show IntOp.addi 0#32 (IntOp.muli 4#32 (BitVec.ofNat 32 s.val)) = _
  revert s; decide

/-- By an amount below the width, the host's arithmetic shift is the vector unit's. -/
theorem shrsi_host_lt (x y : BitVec 32) (h : y.toNat < 32) : IntOp.shrsi .host x y = IntOp.shrsi .vector x y := by
  unfold IntOp.shrsi
  rw [if_pos h, if_pos h]

/-- The shift amounts are below the width. -/
theorem shift_lt (s : Fin 8) : (BitVec.ofNat 32 (4 * s.val)).toNat < 32 := by
  rw [BitVec.toNat_ofNat]; have := s.isLt; omega

/-- At the ideal instance a signed conversion of a word is its signed value, as a real. -/
theorem sitofp_word (v : BitVec 32) : FloatOps.sitofp (F := Ideal) .f32 v = ((v.toInt : ℝ) : EReal) := rfl

/-! ## The unpackings -/

/-- A packed array `[4096, b]` broadcast along a new last axis of eight reads its word `(n, p)` at every field. -/
theorem bcastWord_apply {b : Nat} (h1 : (⟨2, ![4096, b]⟩ : Shape).BroadcastsInDim ⟨3, ![4096, b, 1]⟩ ![0, 1])
    (h2 : (⟨3, ![4096, b, 1]⟩ : Shape).BroadcastsInDim ⟨3, ![4096, b, 8]⟩ ![0, 1, 2]) (q : IVec ⟨2, ![4096, b]⟩ 32)
    (n : Fin 4096) (p : Fin b) (s : Fin 8) :
    broadcastInDim ⟨3, ![4096, b, 8]⟩ ![0, 1, 2] h2 (broadcastInDim ⟨3, ![4096, b, 1]⟩ ![0, 1] h1 q) (ix3 n p s) = q (ix2 n p) := by
  refine (broadcastInDim_apply _ h2 _ (ix3 n p s) (ix3 n p (0 : Fin 1)) fun a => ?_).trans
    (broadcastInDim_apply _ h1 q (ix3 n p (0 : Fin 1)) (ix2 n p) fun a => ?_)
  · match a with
    | ⟨0, _⟩ => rfl
    | ⟨1, _⟩ =>
      show p.val = if b = 1 then 0 else p.val
      have := p.isLt
      split <;> omega
    | ⟨2, _⟩ => rfl
  · match a with
    | ⟨0, _⟩ => rfl
    | ⟨1, _⟩ =>
      show p.val = if b = 1 then 0 else p.val
      have := p.isLt
      split <;> omega

/-- The shift table broadcast against `[4096, b, 8]` reads its entry `s` at every word. -/
theorem bcastShift_apply {b : Nat} (h1 : (⟨1, ![8]⟩ : Shape).BroadcastsInDim ⟨3, ![1, 1, 8]⟩ ![2])
    (h2 : (⟨3, ![1, 1, 8]⟩ : Shape).BroadcastsInDim ⟨3, ![4096, b, 8]⟩ ![0, 1, 2]) (tab : IVec ⟨1, ![8]⟩ 32)
    (n : Fin 4096) (p : Fin b) (s : Fin 8) :
    broadcastInDim ⟨3, ![4096, b, 8]⟩ ![0, 1, 2] h2 (broadcastInDim ⟨3, ![1, 1, 8]⟩ ![2] h1 tab) (ix3 n p s) = tab (ix1 s) := by
  refine (broadcastInDim_apply _ h2 _ (ix3 n p s) (ix3 (0 : Fin 1) (0 : Fin 1) s) fun a => ?_).trans
    (broadcastInDim_apply _ h1 tab (ix3 (0 : Fin 1) (0 : Fin 1) s) (ix1 s) fun a => ?_)
  · match a with
    | ⟨0, _⟩ => rfl
    | ⟨1, _⟩ => rfl
    | ⟨2, _⟩ => rfl
  · match a with
    | ⟨0, _⟩ => rfl

/-- The unpacked weight at `(n, k)`: field `k % 8` of packed word `k / 8` of row `n`, read signed. The flattening
    `[4096, 512, 8] → [4096, 4096]` keeps the row-major position: `(n · 512 + p) · 8 + s = n · 4096 + (8 p + s)`. -/
theorem wInt_apply (qw : IVec S4096x512 32) (n k : Fin 4096) :
    wInt (F := Ideal) qw (ix2 n k)
      = (((Cert.QLinear.nib (qw (ix2 n (⟨k.val / 8, by omega⟩ : Fin 512))) ⟨k.val % 8, by omega⟩).toInt : ℝ) : EReal) := by
  unfold wInt
  rw [sitofp_apply, sitofp_word]
  rw [shapeCast_apply _ shapeCasts_S4096x512x8_S4096x4096 (ix2 n k)
    (ix3 n (⟨k.val / 8, by omega⟩ : Fin 512) (⟨k.val % 8, by omega⟩ : Fin 8)) (by
      rw [Shape.rowMajor_val_three, Shape.rowMajor_val_two]
      show (n.val * 512 + k.val / 8) * 8 + k.val % 8 = n.val * 4096 + k.val
      omega)]
  show (((IntOp.andi (IntOp.shrsi .host
      (broadcastInDim S4096x512x8 ![0, 1, 2] bcast_S4096x512x1_S4096x512x8_0_1_2
        (broadcastInDim S4096x512x1 ![0, 1] bcast_S4096x512_S4096x512x1_0_1 qw) (ix3 n ⟨k.val / 8, _⟩ ⟨k.val % 8, _⟩))
      (broadcastInDim S4096x512x8 ![0, 1, 2] bcast_S1x1x8_S4096x512x8_0_1_2
        (broadcastInDim S1x1x8 ![2] bcast_S8_S1x1x8_2 shiftTab) (ix3 n ⟨k.val / 8, _⟩ ⟨k.val % 8, _⟩))) 15#32).toInt : ℝ) : EReal) = _
  rw [bcastWord_apply, bcastShift_apply, shiftTab_apply, shrsi_host_lt _ _ (shift_lt _)]
  rfl

/-- The unpacked zero point at `(n, g)`: field `g % 8` of packed word `g / 8` of row `n`, read signed
    (`[4096, 4, 8] → [4096, 32]`: `(n · 4 + p) · 8 + s = n · 32 + (8 p + s)`). -/
theorem zInt_apply (qz : IVec S4096x4 32) (n : Fin 4096) (g : Fin 32) :
    zInt (F := Ideal) qz (ix2 n g)
      = (((Cert.QLinear.nib (qz (ix2 n (⟨g.val / 8, by omega⟩ : Fin 4))) ⟨g.val % 8, by omega⟩).toInt : ℝ) : EReal) := by
  unfold zInt
  rw [sitofp_apply, sitofp_word]
  rw [shapeCast_apply _ shapeCasts_S4096x4x8_S4096x32 (ix2 n g)
    (ix3 n (⟨g.val / 8, by omega⟩ : Fin 4) (⟨g.val % 8, by omega⟩ : Fin 8)) (by
      rw [Shape.rowMajor_val_three, Shape.rowMajor_val_two]
      show (n.val * 4 + g.val / 8) * 8 + g.val % 8 = n.val * 32 + g.val
      omega)]
  show (((IntOp.andi (IntOp.shrsi .host
      (broadcastInDim S4096x4x8 ![0, 1, 2] bcast_S4096x4x1_S4096x4x8_0_1_2
        (broadcastInDim S4096x4x1 ![0, 1] bcast_S4096x4_S4096x4x1_0_1 qz) (ix3 n ⟨g.val / 8, _⟩ ⟨g.val % 8, _⟩))
      (broadcastInDim S4096x4x8 ![0, 1, 2] bcast_S1x1x8_S4096x4x8_0_1_2
        (broadcastInDim S1x1x8 ![2] bcast_S8_S1x1x8_2 shiftTab) (ix3 n ⟨g.val / 8, _⟩ ⟨g.val % 8, _⟩))) 15#32).toInt : ℝ) : EReal) = _
  rw [bcastWord_apply, bcastShift_apply, shiftTab_apply, shrsi_host_lt _ _ (shift_lt _)]
  rfl

/-- The same with the word and the field named by the caller. -/
theorem zInt_apply_of (qz : IVec S4096x4 32) (n : Fin 4096) (g : Fin 32) (p : Fin 4) (s : Fin 8)
    (hp : p.val = g.val / 8) (hs : s.val = g.val % 8) :
    zInt (F := Ideal) qz (ix2 n g) = (((Cert.QLinear.nib (qz (ix2 n p)) s).toInt : ℝ) : EReal) := by
  obtain ⟨p, hp'⟩ := p
  obtain ⟨s, hs'⟩ := s
  change p = g.val / 8 at hp
  change s = g.val % 8 at hs
  subst hp hs
  exact zInt_apply qz n g

/-! ## The dequantized weight, the product and the bias -/

/-- The reference's dequantized weight at `(n, k)` is the layer's. -/
theorem wDeq_apply (qw : IVec S4096x512 32) (qz : IVec S4096x4 32) (sc : FVec Ideal S4096x32 .f32) (n k : Fin 4096) :
    wDeq (F := Ideal) qw qz sc (ix2 n k) = Cert.QLinear.wq qw qz sc n k := by
  unfold wDeq
  rw [mulf_apply, subf_apply, gather_group_apply, gather_group_apply, wInt_apply,
    zInt_apply_of qz n ⟨k.val / 128, by omega⟩ ⟨k.val / 1024, by omega⟩ ⟨k.val / 128 % 8, by omega⟩
      (by show k.val / 1024 = k.val / 128 / 8; omega) rfl]
  rfl

/-- On the left operand's free axis the index is the result's row. -/
theorem lhs_axis0 (j : S4096x4096.Idx) (k : dot_S4096x4096_S4096x4096_S4096x4096_1_0_0_1_n_n.contr.Idx) :
    (dot_S4096x4096_S4096x4096_S4096x4096_1_0_0_1_n_n.lhsIdx j k 0).val = (j 0).val := by
  unfold DotDims.lhsIdx
  rw [dif_neg (show ¬ (0 : Fin S4096x4096.rank) ∈ dot_S4096x4096_S4096x4096_S4096x4096_1_0_0_1_n_n.lhsBatch from by decide),
    dif_pos (show (0 : Fin S4096x4096.rank) ∈ dot_S4096x4096_S4096x4096_S4096x4096_1_0_0_1_n_n.lhsNonContracting from by decide)]
  rfl

/-- On the left operand's contracted axis the index is the contraction position. -/
theorem lhs_axis1 (j : S4096x4096.Idx) (k : dot_S4096x4096_S4096x4096_S4096x4096_1_0_0_1_n_n.contr.Idx) :
    (dot_S4096x4096_S4096x4096_S4096x4096_1_0_0_1_n_n.lhsIdx j k 1).val = (k ⟨0, by decide⟩).val :=
  dot_S4096x4096_S4096x4096_S4096x4096_1_0_0_1_n_n.lhsIdx_val_of_single rfl j k

/-- On the right operand's contracted axis the index is the contraction position. -/
theorem rhs_axis0 (j : S4096x4096.Idx) (k : dot_S4096x4096_S4096x4096_S4096x4096_1_0_0_1_n_n.contr.Idx) :
    (dot_S4096x4096_S4096x4096_S4096x4096_1_0_0_1_n_n.rhsIdx j k 0).val = (k ⟨0, by decide⟩).val :=
  dot_S4096x4096_S4096x4096_S4096x4096_1_0_0_1_n_n.rhsIdx_val_of_single rfl j k

/-- On the right operand's free axis the index is the result's column. -/
theorem rhs_axis1 (j : S4096x4096.Idx) (k : dot_S4096x4096_S4096x4096_S4096x4096_1_0_0_1_n_n.contr.Idx) :
    (dot_S4096x4096_S4096x4096_S4096x4096_1_0_0_1_n_n.rhsIdx j k 1).val = (j 1).val := by
  unfold DotDims.rhsIdx
  rw [dif_neg (show ¬ (1 : Fin S4096x4096.rank) ∈ dot_S4096x4096_S4096x4096_S4096x4096_1_0_0_1_n_n.rhsBatch from by decide),
    dif_pos (show (1 : Fin S4096x4096.rank) ∈ dot_S4096x4096_S4096x4096_S4096x4096_1_0_0_1_n_n.rhsNonContracting from by decide)]
  rfl

/-- The product at `(p, n)`: the sum over the contracted coordinate of `x (p, k) · w (k, n)`. -/
theorem dot_apply (x w : FVec Ideal S4096x4096 .f32) (p n : Fin 4096) :
    Host.dotGeneral (F := Ideal) dot_S4096x4096_S4096x4096_S4096x4096_1_0_0_1_n_n none x w (ix2 p n)
      = ∑ k : Fin 4096, x (ix2 p k) * w (ix2 k n) := by
  simp only [Host.dotGeneral]
  rw [Ideal.dotGeneral_apply]
  rw [← Equiv.sum_comp (contrEquiv1 dot_S4096x4096_S4096x4096_S4096x4096_1_0_0_1_n_n 4096 rfl rfl).symm]
  refine Finset.sum_congr rfl fun k _ => ?_
  have hl : dot_S4096x4096_S4096x4096_S4096x4096_1_0_0_1_n_n.lhsIdx (ix2 p n)
      ((contrEquiv1 dot_S4096x4096_S4096x4096_S4096x4096_1_0_0_1_n_n 4096 rfl rfl).symm k) = ix2 p k :=
    Shape.idx_ext₂ (lhs_axis0 _ _)
      ((lhs_axis1 _ _).trans (contrEquiv1_symm_val dot_S4096x4096_S4096x4096_S4096x4096_1_0_0_1_n_n 4096 rfl rfl k))
  have hr : dot_S4096x4096_S4096x4096_S4096x4096_1_0_0_1_n_n.rhsIdx (ix2 p n)
      ((contrEquiv1 dot_S4096x4096_S4096x4096_S4096x4096_1_0_0_1_n_n 4096 rfl rfl).symm k) = ix2 k n :=
    Shape.idx_ext₂
      ((rhs_axis0 _ _).trans (contrEquiv1_symm_val dot_S4096x4096_S4096x4096_S4096x4096_1_0_0_1_n_n 4096 rfl rfl k))
      (rhs_axis1 _ _)
  rw [hl, hr]

/-- The bias row broadcast down the rows reads `b n` at `(p, n)`. -/
theorem bias_apply (b : FVec Ideal S4096 .f32) (p n : Fin 4096) :
    broadcastInDim S4096x4096 ![0, 1] bcast_S1x4096_S4096x4096_0_1 (broadcastInDim S1x4096 ![1] bcast_S4096_S1x4096_1 b) (ix2 p n)
      = b (ix1 n) :=
  (broadcastInDim_apply _ bcast_S1x4096_S4096x4096_0_1 _ (ix2 p n) (ix2 (0 : Fin 1) n)
      fun a => match a with | ⟨0, _⟩ => rfl | ⟨1, _⟩ => rfl).trans
    (broadcastInDim_apply _ bcast_S4096_S1x4096_1 b (ix2 (0 : Fin 1) n) (ix1 n) fun a => match a with | ⟨0, _⟩ => rfl)

/-- The reference's result is the layer's value `x · wᵀ + bias` over the dequantized weight. -/
theorem refOut_eq (x : FVec Ideal S4096x4096 .f32) (qw : IVec S4096x512 32) (qz : IVec S4096x4 32)
    (sc : FVec Ideal S4096x32 .f32) (b : FVec Ideal S4096 .f32) :
    refOut (F := Ideal) x qw qz sc b = Cert.QLinear.outSpec x qw qz sc b := by
  funext j
  obtain ⟨p, n, rfl⟩ : ∃ (p n : Fin 4096), j = ix2 p n := ⟨j 0, j 1, eq_ix2 j⟩
  unfold refOut
  rw [addf_apply, dot_apply, bias_apply]
  show _ = (∑ k : Fin 4096, x (ix2 p k) * Cert.QLinear.wq qw qz sc n k) + b (ix1 n)
  congr 1
  refine Finset.sum_congr rfl fun k _ => ?_
  rw [transpose_apply [1, 0] _ transposes_S4096x4096_S4096x4096_1_0 (ix2 k n) (ix2 n k)
    (fun c => match c with | ⟨0, _⟩ => rfl | ⟨1, _⟩ => rfl), wDeq_apply]

end Cert.ReferenceIdeal.Hand

end
-- ==== Proof.lean ====
/-
  The certificate of the 4-bit weight-only quantized linear layer: a two-pass kernel program — dequantize the packed
  weight once into a bf16 array, then a blocked matmul with an f32 accumulator and the bias added at the last
  reduction step — against the plain `x · dequant(w)ᵀ + bias`.

  Over the extended reals both compute `out[p, n] = (∑ k, x[p, k] · w[n, k]) + bias[n]` with
  `w[n, k] = (field k%8 of word k/8 − field (k/128)%8 of zero-point word k/1024) · scale[n, k/128]`: the narrowing to
  bf16 is the identity there, the kernel's four reduction steps of 1024 columns regroup one sum, and its
  contraction of the weight along its second axis is the reference's transpose followed by a contraction along the
  first. No finiteness of the inputs is used. The three frames: each program terminates from any memory and writes
  no argument; the idealization rewrote nothing, so `preserves` is trivial.
-/
import proofs.«426883_j77292231459026_3_alg».proof.Defs
import proofs.«426883_j77292231459026_3_alg».proof.Proof.Gen.Kernel
import proofs.«426883_j77292231459026_3_alg».proof.Proof.Gen.KernelIdeal
import proofs.«426883_j77292231459026_3_alg».proof.Proof.Gen.ReferenceIdeal
import proofs.«426883_j77292231459026_3_alg».proof.Proof.Gen.Pre_finite_inputs
import proofs.«426883_j77292231459026_3_alg».proof.Proof.KernelRunBits
import proofs.«426883_j77292231459026_3_alg».proof.Proof.KernelRun
import proofs.«426883_j77292231459026_3_alg».proof.Proof.KernelValue
import proofs.«426883_j77292231459026_3_alg».proof.Proof.RefRun
import proofs.«426883_j77292231459026_3_alg».proof.Proof.RefValue
import Idealize.ShloMosaic.Adequacy
import Idealize.ShloMosaic.Init

noncomputable section

namespace Cert.Proof

open Idealize.ShloMosaic Idealize.SL.Sem

/-- The word-level program runs and leaves its arguments as launched. -/
theorem frame_k : Cert.frame_Kernel := fun m ρ _ => Cert.Kernel.Hand.frame (F := Bits) m ρ

/-- So does the idealized program. -/
theorem frame_ki : Cert.frame_KernelIdeal := fun m ρ _ => Cert.KernelIdeal.Hand.frame (F := Ideal) m ρ

/-- The reference is a host program: its run, with the result dropped. -/
theorem frame_ri : Cert.frame_ReferenceIdeal := fun m ρ _ =>
  (θ_run Cert.ReferenceIdeal.defs _ _).mono (fun _ h c => (h c).2) (Cert.ReferenceIdeal.Hand.run (F := Ideal) m ρ)

/-- Both idealized programs end with the layer's function of the (agreeing) arguments in their result arrays. -/
theorem algebraic : Cert.algebraic_KernelIdeal_ReferenceIdeal := by
  intro m ρ m' ρ' _ hagree
  refine ⟨fun c => Cert.QLinear.outSpec (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)), ?_, ?_⟩
  · exact (θ_run Cert.KernelIdeal.defs _ _).mono
      (fun r h c => ⟨(h c).1.trans (Cert.KernelIdeal.Hand.result_eq m ρ c), (h c).2⟩)
      (Cert.KernelIdeal.Hand.run_result (F := Ideal) m ρ)
  · refine (θ_run Cert.ReferenceIdeal.defs _ _).mono (fun r h c => ⟨(h c).1.trans ?_, (h c).2⟩)
      (Cert.ReferenceIdeal.Hand.run (F := Ideal) m' ρ')
    rw [Cert.ReferenceIdeal.Hand.refOut_eq, (hagree c).1, (hagree c).2.1, (hagree c).2.2.1, (hagree c).2.2.2.1, (hagree c).2.2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
